-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![2, 1024, 1024]⟩ (Layout.meshBlock [2, 2] ![[0], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 512]⟩ ⟨2, ![1024, 1024]⟩ (Layout.meshBlock [2, 2] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1x1024x1024 : Shape := ⟨3, ![1, 1024, 1024]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel

variable [Facts]

def fn {F : FTy → Type} [FloatOps F] (main_arg0 : FVec F S1x1024x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  main_v3
-- ==== Pre_finite_inputs_ReferenceIdeal.lean ====
abbrev S2x1024x1024 : Shape := ⟨3, ![2, 1024, 1024]⟩
abbrev S_ : Shape := ⟨0, ![]⟩

class Facts : Prop where
  bcast_S_S2x1024x1024 : S_.BroadcastsInDim S2x1024x1024 (![] : Fin 0 → Fin S2x1024x1024.rank)
  reducesTo_S2x1024x1024_S_d0_1_2 : S2x1024x1024.ReducesTo [0, 1, 2] S_
  h_S_ : 0 < S_.numel

variable [Facts]

def fn {F : FTy → Type} [FloatOps F] (main_arg0 : FVec F S2x1024x1024 .f32) : IVec S_ 1 :=
  let main_v0 : FVec F S2x1024x1024 .f32 := Host.absf main_arg0
  let main_cst : FVec F S_ .f32 := constant S_ .f32 0x7F800000#32
  let main_v1 : FVec F S2x1024x1024 .f32 := broadcastInDim S2x1024x1024 ![] bcast_S_S2x1024x1024 main_cst
  let main_v2 : IVec S2x1024x1024 1 := cmpf .olt main_v0 main_v1
  let main_c : IVec S_ 1 := constantI S_ 1 1#1
  let main_v3 : IVec S_ 1 := (fun x v => Host.reduce IntOp.andi x v reducesTo_S2x1024x1024_S_d0_1_2 h_S_) main_v2 main_c
  main_v3
-- ==== Kernel.lean ====
abbrev S1x1024x1024 : Shape := ⟨3, ![1, 1024, 1024]⟩
abbrev S1024x512 : Shape := ⟨2, ![1024, 512]⟩
abbrev S1024x256 : Shape := ⟨2, ![1024, 256]⟩
abbrev S8 : Shape := ⟨1, ![8]⟩
abbrev S1x1024x256 : Shape := ⟨3, ![1, 1024, 256]⟩
abbrev S_ : Shape := ⟨0, ![]⟩
abbrev S1 : Shape := ⟨1, ![1]⟩
abbrev S128x256 : Shape := ⟨2, ![128, 256]⟩
abbrev S1x128x256 : Shape := ⟨3, ![1, 128, 256]⟩

abbrev nBuf : Space → Nat
  | .hbm => 2
  | .vmem => 5
  | .smem => 0
  | _ => 0

abbrev bufTy : (tb : Table) → Fin (tcTables nBuf tb) → BufTy
  | .hbm, ⟨0, _⟩ => ⟨S1x1024x1024, .f32⟩
  | .hbm, ⟨1, _⟩ => ⟨S1024x512, .f32⟩
  | .local _ .vmem, ⟨0, _⟩ => ⟨S1x1024x1024, .f32⟩
  | .local _ .vmem, ⟨1, _⟩ => ⟨S1024x512, .f32⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_off1 (d0 : Dev nD) : Fin 3 → Nat :=
  let c0 : Index := 0#32
  let c0_10 : Index := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c512_i32_6 : BitVec 32 := 512#32
  let v14 : BitVec 32 := Scalar.muli v6 c512_i32_6
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32_7 : BitVec 32 := 256#32
  let v15 : BitVec 32 := Scalar.muli v5 c256_i32_7
  let v16 : BitVec 32 := Scalar.addi v14 v15
  let v19 : Index := Scalar.indexCast v16
  ![0, 0, v19.toNat]
def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_14 : BitVec 32 := 2#32
  let v27 : BitVec 32 := Scalar.muli v6 c2_i32_14
  let v28 : BitVec 32 := Scalar.addi c0_i32 v27
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_15 : BitVec 32 := 1#32
  let v29 : BitVec 32 := Scalar.muli v5 c1_i32_15
  let v30 : BitVec 32 := Scalar.addi v28 v29
  v30.toNat
def k0_dev2 (d0 : Dev nD) : Nat :=
  let c0_i32_18 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_17 : BitVec 32 := 2#32
  let v31 : BitVec 32 := Scalar.muli v2 c2_i32_17
  let v32 : BitVec 32 := Scalar.addi c0_i32_18 v31
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_19 : BitVec 32 := 1#32
  let v33 : BitVec 32 := Scalar.muli v7 c1_i32_19
  let v34 : BitVec 32 := Scalar.addi v32 v33
  v34.toNat
def k0_dev3 (d0 : Dev nD) : Nat :=
  let c0_i32_24 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_23 : BitVec 32 := 2#32
  let v35 : BitVec 32 := Scalar.muli v6 c2_i32_23
  let v36 : BitVec 32 := Scalar.addi c0_i32_24 v35
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_25 : BitVec 32 := 1#32
  let v37 : BitVec 32 := Scalar.muli v5 c1_i32_25
  let v38 : BitVec 32 := Scalar.addi v36 v37
  v38.toNat
def k0_dev4 (d0 : Dev nD) : Nat :=
  let c0_i32_33 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_32 : BitVec 32 := 2#32
  let v45 : BitVec 32 := Scalar.muli v6 c2_i32_32
  let v46 : BitVec 32 := Scalar.addi c0_i32_33 v45
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_34 : BitVec 32 := 1#32
  let v47 : BitVec 32 := Scalar.muli v5 c1_i32_34
  let v48 : BitVec 32 := Scalar.addi v46 v47
  v48.toNat
def k0_dev5 (d0 : Dev nD) : Nat :=
  let c0_i32_41 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_40 : BitVec 32 := 2#32
  let v55 : BitVec 32 := Scalar.muli v6 c2_i32_40
  let v56 : BitVec 32 := Scalar.addi c0_i32_41 v55
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_42 : BitVec 32 := 1#32
  let v57 : BitVec 32 := Scalar.muli v5 c1_i32_42
  let v58 : BitVec 32 := Scalar.addi v56 v57
  v58.toNat
def k0_dev6 (d0 : Dev nD) : Nat :=
  let c0_i32_49 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_48 : BitVec 32 := 2#32
  let v65 : BitVec 32 := Scalar.muli v6 c2_i32_48
  let v66 : BitVec 32 := Scalar.addi c0_i32_49 v65
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_50 : BitVec 32 := 1#32
  let v67 : BitVec 32 := Scalar.muli v5 c1_i32_50
  let v68 : BitVec 32 := Scalar.addi v66 v67
  v68.toNat
def k0_dev7 (d0 : Dev nD) : Nat :=
  let c0_i32_56 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_55 : BitVec 32 := 2#32
  let v75 : BitVec 32 := Scalar.muli v6 c2_i32_55
  let v76 : BitVec 32 := Scalar.addi c0_i32_56 v75
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_57 : BitVec 32 := 1#32
  let v77 : BitVec 32 := Scalar.muli v5 c1_i32_57
  let v78 : BitVec 32 := Scalar.addi v76 v77
  v78.toNat
def k0_dev8 (d0 : Dev nD) : Nat :=
  let c0_i32_64 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_63 : BitVec 32 := 2#32
  let v85 : BitVec 32 := Scalar.muli v6 c2_i32_63
  let v86 : BitVec 32 := Scalar.addi c0_i32_64 v85
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_65 : BitVec 32 := 1#32
  let v87 : BitVec 32 := Scalar.muli v5 c1_i32_65
  let v88 : BitVec 32 := Scalar.addi v86 v87
  v88.toNat
def k0_dev9 (d0 : Dev nD) : Nat :=
  let c0_i32_71 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_70 : BitVec 32 := 2#32
  let v95 : BitVec 32 := Scalar.muli v6 c2_i32_70
  let v96 : BitVec 32 := Scalar.addi c0_i32_71 v95
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_72 : BitVec 32 := 1#32
  let v97 : BitVec 32 := Scalar.muli v5 c1_i32_72
  let v98 : BitVec 32 := Scalar.addi v96 v97
  v98.toNat
def k0_dev10 (d0 : Dev nD) : Nat :=
  let c0_i32_78 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_77 : BitVec 32 := 2#32
  let v105 : BitVec 32 := Scalar.muli v6 c2_i32_77
  let v106 : BitVec 32 := Scalar.addi c0_i32_78 v105
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_79 : BitVec 32 := 1#32
  let v107 : BitVec 32 := Scalar.muli v5 c1_i32_79
  let v108 : BitVec 32 := Scalar.addi v106 v107
  v108.toNat
def k0_dev11 (d0 : Dev nD) : Nat :=
  let c0_i32_95 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_94 : BitVec 32 := 2#32
  let v123 : BitVec 32 := Scalar.muli v2 c2_i32_94
  let v124 : BitVec 32 := Scalar.addi c0_i32_95 v123
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_96 : BitVec 32 := 1#32
  let v125 : BitVec 32 := Scalar.muli v7 c1_i32_96
  let v126 : BitVec 32 := Scalar.addi v124 v125
  v126.toNat
def k0_off2 (d0 : Dev nD) : Fin 3 → Nat :=
  let c0_101 : Index := 0#32
  let c0_102 : Index := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v8 : BitVec 32 := Scalar.muli v2 c512_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32 : BitVec 32 := 256#32
  let v9 : BitVec 32 := Scalar.muli v5 c256_i32
  let v10 : BitVec 32 := Scalar.addi v8 v9
  let v133 : Index := Scalar.indexCast v10
  ![0, 0, v133.toNat]
def k0_off3 (d0 : Dev nD) : Fin 2 → Nat :=
  let c0_105 : Index := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32_8 : BitVec 32 := 256#32
  let v17 : BitVec 32 := Scalar.muli v5 c256_i32_8
  let v139 : Index := Scalar.indexCast v17
  ![0, v139.toNat]
def k0_dev12 (d0 : Dev nD) : Nat :=
  let c0_i32_118 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_117 : BitVec 32 := 2#32
  let v149 : BitVec 32 := Scalar.muli v2 c2_i32_117
  let v150 : BitVec 32 := Scalar.addi c0_i32_118 v149
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_119 : BitVec 32 := 1#32
  let v151 : BitVec 32 := Scalar.muli v7 c1_i32_119
  let v152 : BitVec 32 := Scalar.addi v150 v151
  v152.toNat
def k0_off4 (d0 : Dev nD) : Fin 3 → Nat :=
  let c0_124 : Index := 0#32
  let c128 : Index := 128#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v8 : BitVec 32 := Scalar.muli v2 c512_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32 : BitVec 32 := 256#32
  let v9 : BitVec 32 := Scalar.muli v5 c256_i32
  let v10 : BitVec 32 := Scalar.addi v8 v9
  let v159 : Index := Scalar.indexCast v10
  ![0, 128, v159.toNat]
def k0_off5 (d0 : Dev nD) : Fin 2 → Nat :=
  let c128_127 : Index := 128#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32_8 : BitVec 32 := 256#32
  let v17 : BitVec 32 := Scalar.muli v5 c256_i32_8
  let v165 : Index := Scalar.indexCast v17
  ![128, v165.toNat]
def k0_dev13 (d0 : Dev nD) : Nat :=
  let c0_i32_140 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_139 : BitVec 32 := 2#32
  let v175 : BitVec 32 := Scalar.muli v2 c2_i32_139
  let v176 : BitVec 32 := Scalar.addi c0_i32_140 v175
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_141 : BitVec 32 := 1#32
  let v177 : BitVec 32 := Scalar.muli v7 c1_i32_141
  let v178 : BitVec 32 := Scalar.addi v176 v177
  v178.toNat
def k0_off6 (d0 : Dev nD) : Fin 3 → Nat :=
  let c0_146 : Index := 0#32
  let c256 : Index := 256#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v8 : BitVec 32 := Scalar.muli v2 c512_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32 : BitVec 32 := 256#32
  let v9 : BitVec 32 := Scalar.muli v5 c256_i32
  let v10 : BitVec 32 := Scalar.addi v8 v9
  let v185 : Index := Scalar.indexCast v10
  ![0, 256, v185.toNat]
def k0_off7 (d0 : Dev nD) : Fin 2 → Nat :=
  let c256_149 : Index := 256#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32_8 : BitVec 32 := 256#32
  let v17 : BitVec 32 := Scalar.muli v5 c256_i32_8
  let v191 : Index := Scalar.indexCast v17
  ![256, v191.toNat]
def k0_dev14 (d0 : Dev nD) : Nat :=
  let c0_i32_162 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_161 : BitVec 32 := 2#32
  let v201 : BitVec 32 := Scalar.muli v2 c2_i32_161
  let v202 : BitVec 32 := Scalar.addi c0_i32_162 v201
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_163 : BitVec 32 := 1#32
  let v203 : BitVec 32 := Scalar.muli v7 c1_i32_163
  let v204 : BitVec 32 := Scalar.addi v202 v203
  v204.toNat
def k0_off8 (d0 : Dev nD) : Fin 3 → Nat :=
  let c0_168 : Index := 0#32
  let c384 : Index := 384#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v8 : BitVec 32 := Scalar.muli v2 c512_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32 : BitVec 32 := 256#32
  let v9 : BitVec 32 := Scalar.muli v5 c256_i32
  let v10 : BitVec 32 := Scalar.addi v8 v9
  let v211 : Index := Scalar.indexCast v10
  ![0, 384, v211.toNat]
def k0_off9 (d0 : Dev nD) : Fin 2 → Nat :=
  let c384_171 : Index := 384#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32_8 : BitVec 32 := 256#32
  let v17 : BitVec 32 := Scalar.muli v5 c256_i32_8
  let v217 : Index := Scalar.indexCast v17
  ![384, v217.toNat]
def k0_dev15 (d0 : Dev nD) : Nat :=
  let c0_i32_184 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_183 : BitVec 32 := 2#32
  let v227 : BitVec 32 := Scalar.muli v2 c2_i32_183
  let v228 : BitVec 32 := Scalar.addi c0_i32_184 v227
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_185 : BitVec 32 := 1#32
  let v229 : BitVec 32 := Scalar.muli v7 c1_i32_185
  let v230 : BitVec 32 := Scalar.addi v228 v229
  v230.toNat
def k0_off10 (d0 : Dev nD) : Fin 3 → Nat :=
  let c0_190 : Index := 0#32
  let c512 : Index := 512#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v8 : BitVec 32 := Scalar.muli v2 c512_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32 : BitVec 32 := 256#32
  let v9 : BitVec 32 := Scalar.muli v5 c256_i32
  let v10 : BitVec 32 := Scalar.addi v8 v9
  let v237 : Index := Scalar.indexCast v10
  ![0, 512, v237.toNat]
def k0_off11 (d0 : Dev nD) : Fin 2 → Nat :=
  let c512_193 : Index := 512#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32_8 : BitVec 32 := 256#32
  let v17 : BitVec 32 := Scalar.muli v5 c256_i32_8
  let v243 : Index := Scalar.indexCast v17
  ![512, v243.toNat]
def k0_dev16 (d0 : Dev nD) : Nat :=
  let c0_i32_206 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_205 : BitVec 32 := 2#32
  let v253 : BitVec 32 := Scalar.muli v2 c2_i32_205
  let v254 : BitVec 32 := Scalar.addi c0_i32_206 v253
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_207 : BitVec 32 := 1#32
  let v255 : BitVec 32 := Scalar.muli v7 c1_i32_207
  let v256 : BitVec 32 := Scalar.addi v254 v255
  v256.toNat
def k0_off12 (d0 : Dev nD) : Fin 3 → Nat :=
  let c0_212 : Index := 0#32
  let c640 : Index := 640#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v8 : BitVec 32 := Scalar.muli v2 c512_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32 : BitVec 32 := 256#32
  let v9 : BitVec 32 := Scalar.muli v5 c256_i32
  let v10 : BitVec 32 := Scalar.addi v8 v9
  let v263 : Index := Scalar.indexCast v10
  ![0, 640, v263.toNat]
def k0_off13 (d0 : Dev nD) : Fin 2 → Nat :=
  let c640_215 : Index := 640#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32_8 : BitVec 32 := 256#32
  let v17 : BitVec 32 := Scalar.muli v5 c256_i32_8
  let v269 : Index := Scalar.indexCast v17
  ![640, v269.toNat]
def k0_dev17 (d0 : Dev nD) : Nat :=
  let c0_i32_228 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_227 : BitVec 32 := 2#32
  let v279 : BitVec 32 := Scalar.muli v2 c2_i32_227
  let v280 : BitVec 32 := Scalar.addi c0_i32_228 v279
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_229 : BitVec 32 := 1#32
  let v281 : BitVec 32 := Scalar.muli v7 c1_i32_229
  let v282 : BitVec 32 := Scalar.addi v280 v281
  v282.toNat
def k0_off14 (d0 : Dev nD) : Fin 3 → Nat :=
  let c0_234 : Index := 0#32
  let c768 : Index := 768#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v8 : BitVec 32 := Scalar.muli v2 c512_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32 : BitVec 32 := 256#32
  let v9 : BitVec 32 := Scalar.muli v5 c256_i32
  let v10 : BitVec 32 := Scalar.addi v8 v9
  let v289 : Index := Scalar.indexCast v10
  ![0, 768, v289.toNat]
def k0_off15 (d0 : Dev nD) : Fin 2 → Nat :=
  let c768_237 : Index := 768#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32_8 : BitVec 32 := 256#32
  let v17 : BitVec 32 := Scalar.muli v5 c256_i32_8
  let v295 : Index := Scalar.indexCast v17
  ![768, v295.toNat]
def k0_dev18 (d0 : Dev nD) : Nat :=
  let c0_i32_250 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_249 : BitVec 32 := 2#32
  let v305 : BitVec 32 := Scalar.muli v2 c2_i32_249
  let v306 : BitVec 32 := Scalar.addi c0_i32_250 v305
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_251 : BitVec 32 := 1#32
  let v307 : BitVec 32 := Scalar.muli v7 c1_i32_251
  let v308 : BitVec 32 := Scalar.addi v306 v307
  v308.toNat
def k0_off16 (d0 : Dev nD) : Fin 3 → Nat :=
  let c0_256 : Index := 0#32
  let c896 : Index := 896#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v8 : BitVec 32 := Scalar.muli v2 c512_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32 : BitVec 32 := 256#32
  let v9 : BitVec 32 := Scalar.muli v5 c256_i32
  let v10 : BitVec 32 := Scalar.addi v8 v9
  let v315 : Index := Scalar.indexCast v10
  ![0, 896, v315.toNat]
def k0_off17 (d0 : Dev nD) : Fin 2 → Nat :=
  let c896_259 : Index := 896#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32_8 : BitVec 32 := 256#32
  let v17 : BitVec 32 := Scalar.muli v5 c256_i32_8
  let v321 : Index := Scalar.indexCast v17
  ![896, v321.toNat]
def k0_off18 (d0 : Dev nD) : Fin 3 → Nat :=
  let c0_269 : Index := 0#32
  let c0_270 : Index := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_4 : BitVec 32 := 512#32
  let v11 : BitVec 32 := Scalar.muli v2 c512_i32_4
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c256_i32_5 : BitVec 32 := 256#32
  let v12 : BitVec 32 := Scalar.muli v7 c256_i32_5
  let v13 : BitVec 32 := Scalar.addi v11 v12
  let v331 : Index := Scalar.indexCast v13
  ![0, 0, v331.toNat]
def k0_off19 (d0 : Dev nD) : Fin 2 → Nat :=
  let c0_273 : Index := 0#32
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c256_i32_9 : BitVec 32 := 256#32
  let v18 : BitVec 32 := Scalar.muli v7 c256_i32_9
  let v337 : Index := Scalar.indexCast v18
  ![0, v337.toNat]
def k0_off20 (d0 : Dev nD) : Fin 3 → Nat :=
  let c0_283 : Index := 0#32
  let c128_284 : Index := 128#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_4 : BitVec 32 := 512#32
  let v11 : BitVec 32 := Scalar.muli v2 c512_i32_4
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c256_i32_5 : BitVec 32 := 256#32
  let v12 : BitVec 32 := Scalar.muli v7 c256_i32_5
  let v13 : BitVec 32 := Scalar.addi v11 v12
  let v347 : Index := Scalar.indexCast v13
  ![0, 128, v347.toNat]
def k0_off21 (d0 : Dev nD) : Fin 2 → Nat :=
  let c128_287 : Index := 128#32
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c256_i32_9 : BitVec 32 := 256#32
  let v18 : BitVec 32 := Scalar.muli v7 c256_i32_9
  let v353 : Index := Scalar.indexCast v18
  ![128, v353.toNat]
def k0_off22 (d0 : Dev nD) : Fin 3 → Nat :=
  let c0_297 : Index := 0#32
  let c256_298 : Index := 256#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_4 : BitVec 32 := 512#32
  let v11 : BitVec 32 := Scalar.muli v2 c512_i32_4
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c256_i32_5 : BitVec 32 := 256#32
  let v12 : BitVec 32 := Scalar.muli v7 c256_i32_5
  let v13 : BitVec 32 := Scalar.addi v11 v12
  let v363 : Index := Scalar.indexCast v13
  ![0, 256, v363.toNat]
def k0_off23 (d0 : Dev nD) : Fin 2 → Nat :=
  let c256_301 : Index := 256#32
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c256_i32_9 : BitVec 32 := 256#32
  let v18 : BitVec 32 := Scalar.muli v7 c256_i32_9
  let v369 : Index := Scalar.indexCast v18
  ![256, v369.toNat]
def k0_off24 (d0 : Dev nD) : Fin 3 → Nat :=
  let c0_311 : Index := 0#32
  let c384_312 : Index := 384#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_4 : BitVec 32 := 512#32
  let v11 : BitVec 32 := Scalar.muli v2 c512_i32_4
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c256_i32_5 : BitVec 32 := 256#32
  let v12 : BitVec 32 := Scalar.muli v7 c256_i32_5
  let v13 : BitVec 32 := Scalar.addi v11 v12
  let v379 : Index := Scalar.indexCast v13
  ![0, 384, v379.toNat]
def k0_off25 (d0 : Dev nD) : Fin 2 → Nat :=
  let c384_315 : Index := 384#32
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c256_i32_9 : BitVec 32 := 256#32
  let v18 : BitVec 32 := Scalar.muli v7 c256_i32_9
  let v385 : Index := Scalar.indexCast v18
  ![384, v385.toNat]
def k0_off26 (d0 : Dev nD) : Fin 3 → Nat :=
  let c0_325 : Index := 0#32
  let c512_326 : Index := 512#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_4 : BitVec 32 := 512#32
  let v11 : BitVec 32 := Scalar.muli v2 c512_i32_4
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c256_i32_5 : BitVec 32 := 256#32
  let v12 : BitVec 32 := Scalar.muli v7 c256_i32_5
  let v13 : BitVec 32 := Scalar.addi v11 v12
  let v395 : Index := Scalar.indexCast v13
  ![0, 512, v395.toNat]
def k0_off27 (d0 : Dev nD) : Fin 2 → Nat :=
  let c512_329 : Index := 512#32
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c256_i32_9 : BitVec 32 := 256#32
  let v18 : BitVec 32 := Scalar.muli v7 c256_i32_9
  let v401 : Index := Scalar.indexCast v18
  ![512, v401.toNat]
def k0_off28 (d0 : Dev nD) : Fin 3 → Nat :=
  let c0_339 : Index := 0#32
  let c640_340 : Index := 640#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_4 : BitVec 32 := 512#32
  let v11 : BitVec 32 := Scalar.muli v2 c512_i32_4
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c256_i32_5 : BitVec 32 := 256#32
  let v12 : BitVec 32 := Scalar.muli v7 c256_i32_5
  let v13 : BitVec 32 := Scalar.addi v11 v12
  let v411 : Index := Scalar.indexCast v13
  ![0, 640, v411.toNat]
def k0_off29 (d0 : Dev nD) : Fin 2 → Nat :=
  let c640_343 : Index := 640#32
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c256_i32_9 : BitVec 32 := 256#32
  let v18 : BitVec 32 := Scalar.muli v7 c256_i32_9
  let v417 : Index := Scalar.indexCast v18
  ![640, v417.toNat]
def k0_off30 (d0 : Dev nD) : Fin 3 → Nat :=
  let c0_353 : Index := 0#32
  let c768_354 : Index := 768#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_4 : BitVec 32 := 512#32
  let v11 : BitVec 32 := Scalar.muli v2 c512_i32_4
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c256_i32_5 : BitVec 32 := 256#32
  let v12 : BitVec 32 := Scalar.muli v7 c256_i32_5
  let v13 : BitVec 32 := Scalar.addi v11 v12
  let v427 : Index := Scalar.indexCast v13
  ![0, 768, v427.toNat]
def k0_off31 (d0 : Dev nD) : Fin 2 → Nat :=
  let c768_357 : Index := 768#32
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c256_i32_9 : BitVec 32 := 256#32
  let v18 : BitVec 32 := Scalar.muli v7 c256_i32_9
  let v433 : Index := Scalar.indexCast v18
  ![768, v433.toNat]
def k0_off32 (d0 : Dev nD) : Fin 3 → Nat :=
  let c0_367 : Index := 0#32
  let c896_368 : Index := 896#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_4 : BitVec 32 := 512#32
  let v11 : BitVec 32 := Scalar.muli v2 c512_i32_4
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c256_i32_5 : BitVec 32 := 256#32
  let v12 : BitVec 32 := Scalar.muli v7 c256_i32_5
  let v13 : BitVec 32 := Scalar.addi v11 v12
  let v443 : Index := Scalar.indexCast v13
  ![0, 896, v443.toNat]
def k0_off33 (d0 : Dev nD) : Fin 2 → Nat :=
  let c896_371 : Index := 896#32
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c256_i32_9 : BitVec 32 := 256#32
  let v18 : BitVec 32 := Scalar.muli v7 c256_i32_9
  let v449 : Index := Scalar.indexCast v18
  ![896, v449.toNat]
abbrev stage0_0 : Fin 1 → Memref sig .tc .vmem S1x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  h_S1x1024x256 : 0 < S1x1024x256.numel
  shapeCasts_S1x1024x256_S1024x256 : S1x1024x256.ShapeCasts S1024x256
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  packedbf16_S1024x256_S1024x256_0_0 : (Rect.unit (s := S1024x256) ![0, 0] S1024x256.size inb_S1024x256_S1024x256_0_0).PackedRows (EltTy.packing .bf16)
  hamt_1 : (1#32 : BitVec 32).msb = false
  hamt_2 : (2#32 : BitVec 32).msb = false
  inb_S8_S1_0 : ∀ a, (![0] : Fin 1 → Nat) a + S1.size a ≤ S8.size a
  squeezes_S1_S_ : S1.Squeezes S_
  inb_S1024x256_S128x256_0_0 : ∀ a, (![0, 0] : Fin 2 → Nat) a + S128x256.size a ≤ S1024x256.size a
  wordsbf16_S1024x256_S128x256_0_0 : (Rect.unit (s := S1024x256) ![0, 0] S128x256.size inb_S1024x256_S128x256_0_0).WholeWords (EltTy.packing .bf16)
  inb_S8_S1_1 : ∀ a, (![1] : Fin 1 → Nat) a + S1.size a ≤ S8.size a
  inb_S1024x256_S128x256_128_0 : ∀ a, (![128, 0] : Fin 2 → Nat) a + S128x256.size a ≤ S1024x256.size a
  wordsbf16_S1024x256_S128x256_128_0 : (Rect.unit (s := S1024x256) ![128, 0] S128x256.size inb_S1024x256_S128x256_128_0).WholeWords (EltTy.packing .bf16)
  inb_S8_S1_2 : ∀ a, (![2] : Fin 1 → Nat) a + S1.size a ≤ S8.size a
  inb_S1024x256_S128x256_256_0 : ∀ a, (![256, 0] : Fin 2 → Nat) a + S128x256.size a ≤ S1024x256.size a
  wordsbf16_S1024x256_S128x256_256_0 : (Rect.unit (s := S1024x256) ![256, 0] S128x256.size inb_S1024x256_S128x256_256_0).WholeWords (EltTy.packing .bf16)
  inb_S8_S1_3 : ∀ a, (![3] : Fin 1 → Nat) a + S1.size a ≤ S8.size a
  inb_S1024x256_S128x256_384_0 : ∀ a, (![384, 0] : Fin 2 → Nat) a + S128x256.size a ≤ S1024x256.size a
  wordsbf16_S1024x256_S128x256_384_0 : (Rect.unit (s := S1024x256) ![384, 0] S128x256.size inb_S1024x256_S128x256_384_0).WholeWords (EltTy.packing .bf16)
  inb_S8_S1_4 : ∀ a, (![4] : Fin 1 → Nat) a + S1.size a ≤ S8.size a
  inb_S1024x256_S128x256_512_0 : ∀ a, (![512, 0] : Fin 2 → Nat) a + S128x256.size a ≤ S1024x256.size a
  wordsbf16_S1024x256_S128x256_512_0 : (Rect.unit (s := S1024x256) ![512, 0] S128x256.size inb_S1024x256_S128x256_512_0).WholeWords (EltTy.packing .bf16)
  inb_S8_S1_5 : ∀ a, (![5] : Fin 1 → Nat) a + S1.size a ≤ S8.size a
  inb_S1024x256_S128x256_640_0 : ∀ a, (![640, 0] : Fin 2 → Nat) a + S128x256.size a ≤ S1024x256.size a
  wordsbf16_S1024x256_S128x256_640_0 : (Rect.unit (s := S1024x256) ![640, 0] S128x256.size inb_S1024x256_S128x256_640_0).WholeWords (EltTy.packing .bf16)
  inb_S8_S1_6 : ∀ a, (![6] : Fin 1 → Nat) a + S1.size a ≤ S8.size a
  inb_S1024x256_S128x256_768_0 : ∀ a, (![768, 0] : Fin 2 → Nat) a + S128x256.size a ≤ S1024x256.size a
  wordsbf16_S1024x256_S128x256_768_0 : (Rect.unit (s := S1024x256) ![768, 0] S128x256.size inb_S1024x256_S128x256_768_0).WholeWords (EltTy.packing .bf16)
  inb_S8_S1_7 : ∀ a, (![7] : Fin 1 → Nat) a + S1.size a ≤ S8.size a
  inb_S1024x256_S128x256_896_0 : ∀ a, (![896, 0] : Fin 2 → Nat) a + S128x256.size a ≤ S1024x256.size a
  wordsbf16_S1024x256_S128x256_896_0 : (Rect.unit (s := S1024x256) ![896, 0] S128x256.size inb_S1024x256_S128x256_896_0).WholeWords (EltTy.packing .bf16)
  h_S1x128x256 : 0 < S1x128x256.numel
  shapeCasts_S1x128x256_S128x256 : S1x128x256.ShapeCasts S128x256
  h_S128x256 : 0 < S128x256.numel
  hcc0_scratch3 : 2 + S8.numel ≤ 34
  hcc0_scratch4 : 10 + S8.numel ≤ 34
  hcc0_scratch5 : 18 + S8.numel ≤ 34
  hcc0_scratch6 : 26 + S8.numel ≤ 34
  k0_off1_inb : ∀ d0 : Dev nD, ∀ a, (k0_off1 d0) a + S1x1024x256.size a ≤ S1x1024x1024.size a
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_off2_inb : ∀ d0 : Dev nD, ∀ a, (k0_off2 d0) a + S1x128x256.size a ≤ S1x1024x1024.size a
  k0_off3_inb : ∀ d0 : Dev nD, ∀ a, (k0_off3 d0) a + S128x256.size a ≤ S1024x512.size a
  k0_dev12_lt : ∀ d0 : Dev nD, (k0_dev12 d0) < nD
  k0_off4_inb : ∀ d0 : Dev nD, ∀ a, (k0_off4 d0) a + S1x128x256.size a ≤ S1x1024x1024.size a
  k0_off5_inb : ∀ d0 : Dev nD, ∀ a, (k0_off5 d0) a + S128x256.size a ≤ S1024x512.size a
  k0_dev13_lt : ∀ d0 : Dev nD, (k0_dev13 d0) < nD
  k0_off6_inb : ∀ d0 : Dev nD, ∀ a, (k0_off6 d0) a + S1x128x256.size a ≤ S1x1024x1024.size a
  k0_off7_inb : ∀ d0 : Dev nD, ∀ a, (k0_off7 d0) a + S128x256.size a ≤ S1024x512.size a
  k0_dev14_lt : ∀ d0 : Dev nD, (k0_dev14 d0) < nD
  k0_off8_inb : ∀ d0 : Dev nD, ∀ a, (k0_off8 d0) a + S1x128x256.size a ≤ S1x1024x1024.size a
  k0_off9_inb : ∀ d0 : Dev nD, ∀ a, (k0_off9 d0) a + S128x256.size a ≤ S1024x512.size a
  k0_dev15_lt : ∀ d0 : Dev nD, (k0_dev15 d0) < nD
  k0_off10_inb : ∀ d0 : Dev nD, ∀ a, (k0_off10 d0) a + S1x128x256.size a ≤ S1x1024x1024.size a
  k0_off11_inb : ∀ d0 : Dev nD, ∀ a, (k0_off11 d0) a + S128x256.size a ≤ S1024x512.size a
  k0_dev16_lt : ∀ d0 : Dev nD, (k0_dev16 d0) < nD
  k0_off12_inb : ∀ d0 : Dev nD, ∀ a, (k0_off12 d0) a + S1x128x256.size a ≤ S1x1024x1024.size a
  k0_off13_inb : ∀ d0 : Dev nD, ∀ a, (k0_off13 d0) a + S128x256.size a ≤ S1024x512.size a
  k0_dev17_lt : ∀ d0 : Dev nD, (k0_dev17 d0) < nD
  k0_off14_inb : ∀ d0 : Dev nD, ∀ a, (k0_off14 d0) a + S1x128x256.size a ≤ S1x1024x1024.size a
  k0_off15_inb : ∀ d0 : Dev nD, ∀ a, (k0_off15 d0) a + S128x256.size a ≤ S1024x512.size a
  k0_dev18_lt : ∀ d0 : Dev nD, (k0_dev18 d0) < nD
  k0_off16_inb : ∀ d0 : Dev nD, ∀ a, (k0_off16 d0) a + S1x128x256.size a ≤ S1x1024x1024.size a
  k0_off17_inb : ∀ d0 : Dev nD, ∀ a, (k0_off17 d0) a + S128x256.size a ≤ S1024x512.size a
  k0_off18_inb : ∀ d0 : Dev nD, ∀ a, (k0_off18 d0) a + S1x128x256.size a ≤ S1x1024x1024.size a
  k0_off19_inb : ∀ d0 : Dev nD, ∀ a, (k0_off19 d0) a + S128x256.size a ≤ S1024x512.size a
  k0_off20_inb : ∀ d0 : Dev nD, ∀ a, (k0_off20 d0) a + S1x128x256.size a ≤ S1x1024x1024.size a
  k0_off21_inb : ∀ d0 : Dev nD, ∀ a, (k0_off21 d0) a + S128x256.size a ≤ S1024x512.size a
  k0_off22_inb : ∀ d0 : Dev nD, ∀ a, (k0_off22 d0) a + S1x128x256.size a ≤ S1x1024x1024.size a
  k0_off23_inb : ∀ d0 : Dev nD, ∀ a, (k0_off23 d0) a + S128x256.size a ≤ S1024x512.size a
  k0_off24_inb : ∀ d0 : Dev nD, ∀ a, (k0_off24 d0) a + S1x128x256.size a ≤ S1x1024x1024.size a
  k0_off25_inb : ∀ d0 : Dev nD, ∀ a, (k0_off25 d0) a + S128x256.size a ≤ S1024x512.size a
  k0_off26_inb : ∀ d0 : Dev nD, ∀ a, (k0_off26 d0) a + S1x128x256.size a ≤ S1x1024x1024.size a
  k0_off27_inb : ∀ d0 : Dev nD, ∀ a, (k0_off27 d0) a + S128x256.size a ≤ S1024x512.size a
  k0_off28_inb : ∀ d0 : Dev nD, ∀ a, (k0_off28 d0) a + S1x128x256.size a ≤ S1x1024x1024.size a
  k0_off29_inb : ∀ d0 : Dev nD, ∀ a, (k0_off29 d0) a + S128x256.size a ≤ S1024x512.size a
  k0_off30_inb : ∀ d0 : Dev nD, ∀ a, (k0_off30 d0) a + S1x128x256.size a ≤ S1x1024x1024.size a
  k0_off31_inb : ∀ d0 : Dev nD, ∀ a, (k0_off31 d0) a + S128x256.size a ≤ S1024x512.size a
  k0_off32_inb : ∀ d0 : Dev nD, ∀ a, (k0_off32 d0) a + S1x128x256.size a ≤ S1x1024x1024.size a
  k0_off33_inb : ∀ d0 : Dev nD, ∀ a, (k0_off33 d0) a + S128x256.size a ≤ S1024x512.size a
  hstage0_0 : ∀ j, (stage0_0 j).IsWhole
  hstage0_1 : ∀ j, (stage0_1 j).IsWhole

variable [Facts₀]

abbrev cc0_scratch3 : DmaSems sig S8 := SemArray.consecutive 2 S8 hcc0_scratch3
abbrev cc0_scratch4 : DmaSems sig S8 := SemArray.consecutive 10 S8 hcc0_scratch4
abbrev cc0_scratch5 : DmaSems sig S8 := SemArray.consecutive 18 S8 hcc0_scratch5
abbrev cc0_scratch6 : DmaSems sig S8 := SemArray.consecutive 26 S8 hcc0_scratch6

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2x1024x1024 : Shape := ⟨3, ![2, 1024, 1024]⟩
abbrev S_ : Shape := ⟨0, ![]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S_, .f32⟩
  | .hbm, ⟨2, _⟩ => ⟨S1024x1024, .f32⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  reducesTo_S2x1024x1024_S1024x1024_d0 : S2x1024x1024.ReducesTo [0] S1024x1024
  h_S_ : 0 < S_.numel

variable [Facts₀]

class Facts : Prop extends Facts₀ where

variable [Facts]
-- ==== Proof.Sched.lean ====
import proofs.«900287_g7700000000000288_dist_rs_v7x_xy2x2_x_m1024_n512_f32_1_alg».proof.Defs
import proofs.«900287_g7700000000000288_dist_rs_v7x_xy2x2_x_m1024_n512_f32_1_alg».proof.Proof.Gen.KernelIdeal
import proofs.«900287_g7700000000000288_dist_rs_v7x_xy2x2_x_m1024_n512_f32_1_alg».proof.Proof.Gen.KernelIdeal.Skeleton
import proofs.«900287_g7700000000000288_dist_rs_v7x_xy2x2_x_m1024_n512_f32_1_alg».proof.Proof.Gen.KernelIdeal.Launch
import proofs.«900287_g7700000000000288_dist_rs_v7x_xy2x2_x_m1024_n512_f32_1_alg».proof.Proof.Gen.KernelIdeal.Points
import Idealize.ShloMosaic.Lib.Pipeline.Launch
import Idealize.ShloMosaic.Lib.Pipeline.Kit
import Idealize.ShloMosaic.Lib.Writes
import Idealize.ShloMosaic.Lib.Tactic

/-!
# The reduce-scatter over the 2 × 2 mesh: peers, cells, contents, the schedule of rounds

Device `c = 2 a + b` sits at mesh position `(a, b)`. Its column peer `xp c = (1 - a, b)` holds the other block of
`x`; its row peer `yp c = (a, 1 - b)` holds the same block. Every device converts the quarter of its block that its
column peer needs into a staging buffer, sends it to the column peer in eight row chunks, forwards each chunk it
receives to its row peer, and adds what arrives (directly, or forwarded) to its own quarter.

Per device the protocol uses the barrier semaphore (one round of two unit duties: one from each peer) and
four families of eight transfer semaphores: departures of the staged chunks, their arrivals, departures of the
forwarded chunks, their arrivals. Each transfer cell has one round of one duty.
-/

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## The peers -/

/-- The column peer: `(a, b) ↦ (1 - a, b)`. -/
def xp (c : Dev nD) : Dev nD := ⟨((c.val % 2) + 2) - 2 * (c.val / 2), by have := c.isLt; revert this; generalize c.val = v; decide +revert⟩
/-- The row peer: `(a, b) ↦ (a, 1 - b)`. -/
def yp (c : Dev nD) : Dev nD := ⟨(2 * (c.val / 2) + 1) - (c.val % 2), by have := c.isLt; revert this; generalize c.val = v; decide +revert⟩

theorem xp_xp (c : Dev nD) : xp (xp c) = c := by revert c; decide
theorem yp_yp (c : Dev nD) : yp (yp c) = c := by revert c; decide
theorem xp_yp (c : Dev nD) : xp (yp c) = yp (xp c) := by revert c; decide
theorem xp_ne_yp (c : Dev nD) : xp c ≠ yp c := by revert c; decide
theorem xp_ne (c : Dev nD) : xp c ≠ c := by revert c; decide
theorem yp_ne (c : Dev nD) : yp c ≠ c := by revert c; decide

def xswap : Dev nD ≃ Dev nD := ⟨xp, xp, xp_xp, xp_xp⟩
def yswap : Dev nD ≃ Dev nD := ⟨yp, yp, yp_yp, yp_yp⟩

/-! ## Row chunks, semaphores, cells -/

/-- The offsets of the eight row chunks (128 rows each) of a 1024 × 256 buffer. -/
abbrev rowsOff : Fin 8 → Fin 2 → Nat
  | 0 => ![0, 0] | 1 => ![128, 0] | 2 => ![256, 0] | 3 => ![384, 0]
  | 4 => ![512, 0] | 5 => ![640, 0] | 6 => ![768, 0] | 7 => ![896, 0]
theorem rows_inb : ∀ (k : Fin 8) a, rowsOff k a + S128x256.size a ≤ S1024x256.size a := by decide
abbrev rowsR (k : Fin 8) : Rect S1024x256 := Rect.unit (s := S1024x256) (rowsOff k) S128x256.size (rows_inb k)
/-- Chunk `k` of a scratch buffer. -/
abbrev sl (M : Memref sig .tc .vmem S1024x256 .bf16) (k : Fin 8) : Memref sig .tc .vmem S128x256 .bf16 :=
  M.slice (rowsR k) (fun _ => rfl)

abbrev semOff : Fin 8 → Fin 1 → Nat
  | 0 => ![0] | 1 => ![1] | 2 => ![2] | 3 => ![3] | 4 => ![4] | 5 => ![5] | 6 => ![6] | 7 => ![7]
theorem sem_inb : ∀ (k : Fin 8) a, semOff k a + S1.size a ≤ S8.size a := by decide
/-- Semaphore `k` of an array of eight. -/
abbrev semAt (A : DmaSems sig S8) (k : Fin 8) : DmaSem sig :=
  ((A.slice (Rect.unit (s := S8) (semOff k) S1.size (sem_inb k))).squeeze S_ squeezes_S1_S_).sem

abbrev xM : Memref sig .tc .vmem S1x1024x1024 .f32 := Memref.whole cc0_stg0_0
abbrev oM : Memref sig .tc .vmem S1024x512 .f32 := Memref.whole cc0_stg1_0
/-- The staging buffer of converted chunks, the landing buffer of the column peer's chunks, the landing buffer
    of the forwarded chunks. -/
abbrev stgM : Memref sig .tc .vmem S1024x256 .bf16 := Memref.whole cc0_scratch0
abbrev cxM : Memref sig .tc .vmem S1024x256 .bf16 := Memref.whole cc0_scratch1
abbrev cyM : Memref sig .tc .vmem S1024x256 .bf16 := Memref.whole cc0_scratch2

/-- The four families of transfer semaphores: staged chunks leaving, arriving; forwarded chunks leaving, arriving. -/
abbrev fam : Fin 4 → DmaSems sig S8
  | 0 => cc0_scratch3 | 1 => cc0_scratch4 | 2 => cc0_scratch5 | 3 => cc0_scratch6

abbrev barS : Sem sig := (SemArray.scalar (sig.barrier 0 rfl) : Sems sig S_).sem
abbrev barCell (c : Dev nD) : GSem nD τ sig := ((c : Thread nD τ), .reg barS)
abbrev dCell (a : Fin 4) (k : Fin 8) (c : Dev nD) : GSem nD τ sig := ((c : Thread nD τ), .dma (semAt (fam a) k))

theorem semAt_val (a : Fin 4) (k : Fin 8) : (semAt (fam a) k).val = 2 + 8 * a.val + k.val := by
  revert a k; decide

/-- The kernel's own (scoped) semaphores, as the launch theorem indexes them. -/
abbrev osem : Fin 4 × Fin 8 → SemLoc sig := fun ak => .dma (semAt (fam ak.1) ak.2)
/-- All the protocol's cells of a device: the barrier (`none`) and the thirty-two transfer cells. -/
abbrev csem : Option (Fin 4 × Fin 8) → SemLoc sig
  | none => .reg barS
  | some ak => osem ak
abbrev kcell (ck : Dev nD × Option (Fin 4 × Fin 8)) : GSem nD τ sig := ((ck.1 : Thread nD τ), csem ck.2)

/-- The credit of one chunk's transfer. -/
abbrev N : ℕ := (sl cxM 0).view.dmaCredit
theorem N_pos : 0 < N := View.dmaCredit_pos _ (by decide)

/-! ## Contents -/

/-- Device `c`'s block of `x`, as the pipeline stages it. -/
def xstg (c : Dev nD) : (cc0_stg0_0 : Ref sig .tc).ty.Contents (Elt F) :=
  (win0_0.blk (0 : Fin 1)).view.read (Elt F) ((s₀ m ρ).mem ((c : Thread nD τ).loc main_arg0))

/-- The quarter of its block a device converts for its column peer: columns `512 (1 - a) + 256 b` onwards. -/
def ld1 (c : Dev nD) : Vec F S1x1024x256 .f32 :=
  (xM : Memref sig .tc .vmem S1x1024x1024 .f32).view.readAt (Elt F)
    (Rect.unit (s := S1x1024x1024) (k0_off1 c) S1x1024x256.size (k0_off1_inb c)).toLoadRect (xstg m ρ c)

/-- What device `c` stages: that quarter, converted. -/
def stageVal (c : Dev nD) : (cc0_scratch0 : Ref sig .tc).ty.Contents (Elt F) := k0_pay1 (ld1 m ρ c)

/-- Chunk `k` of buffer `M` on device `c`, held at share `q` with contents `f`. -/
abbrev slPts (M : Memref sig .tc .vmem S1024x256 .bf16) (k : Fin 8) (c : Dev nD) (q : PosShare TreeShare)
    (f : Buf (Elt F) ((sl M k).view.loc (c : Thread nD τ))) : sProp 𝕄 :=
  (sl M k).view.loc (c : Thread nD τ) ↦[(sl M k).view.set]{q} f

/-! ## The schedule -/

/-- A transfer cell's payload, by family: the staged chunk back; the column peer's chunk landed; the forwarded
    chunk's share back; the row peer's forwarded chunk landed. -/
def dmaPay (a : ℕ) (k : Fin 8) (c : Dev nD) : sProp 𝕄 :=
  if a = 0 then slPts stgM k c fullShare (stageVal m ρ c)
  else if a = 1 then slPts cxM k c fullShare (stageVal m ρ (xp c))
  else if a = 2 then slPts cxM k c fullShare.left (stageVal m ρ (xp c))
  else slPts cyM k c fullShare (stageVal m ρ (xp (yp c)))

/-- The barrier's payloads: the column peer (duty `false`) hands over its landing buffer for staged chunks, the
    row peer (duty `true`) its landing buffer for forwarded chunks. -/
def barPay (d : Bool) (c : Dev nD) : sProp 𝕄 :=
  if d then iprop(∃ f : Buf (Elt F) (((yp c : Dev nD) : Thread nD τ).loc cc0_scratch2), (((yp c : Dev nD) : Thread nD τ).loc cc0_scratch2) ↦{fullShare} f)
  else iprop(∃ f : Buf (Elt F) (((xp c : Dev nD) : Thread nD τ).loc cc0_scratch1), (((xp c : Dev nD) : Thread nD τ).loc cc0_scratch1) ↦{fullShare} f)

def fk (n : ℕ) : Fin 8 := ⟨n % 8, Nat.mod_lt _ (by decide)⟩

abbrev IsBar (g : GSem nD τ sig) : Prop := g.1.2 = .tc ∧ g.2 = .reg barS
abbrev IsXfer (g : GSem nD τ sig) : Prop := g.1.2 = .tc ∧ ∃ s : DmaSem sig, g.2 = .dma s ∧ 2 ≤ s.val

/-- One round: a barrier cell has the two unit duties; a transfer cell the duty `false` of a chunk's credit. -/
def rsRd : Rounds.Schedule (GSem nD τ sig) Bool 𝕄 where
  duties g r := if r = 0 ∧ IsBar g then Finset.univ else if r = 0 ∧ IsXfer g then {false} else ∅
  unitless _ := False
  amount g _ _ := if g.2 = .reg barS then 1 else N
  payload g _ d :=
    match g.2 with
    | .reg _ => barPay d g.1.1
    | .dma s => dmaPay m ρ ((s.val - 2) / 8) (fk (s.val - 2)) g.1.1
  amount_pos g _ _ _ := by
    by_cases h : g.2 = .reg barS
    · rw [if_pos h]; exact Nat.one_pos
    · rw [if_neg h]; exact N_pos

instance rsRd_payload_storable (g : GSem nD τ sig) (r : ℕ) (d : Bool) :
    BI.Storable (upEmb : UEmb _ 𝕄) ((rsRd (F := F) m ρ).payload g r d) := by
  show BI.Storable upEmb (match g.2 with
    | .reg _ => barPay d g.1.1
    | .dma s => dmaPay m ρ ((s.val - 2) / 8) (fk (s.val - 2)) g.1.1)
  unfold barPay dmaPay
  (repeat' split) <;> infer_instance

section Sched
variable (c : Dev nD) (a : Fin 4) (k : Fin 8)

theorem dma_ne_bar (s : DmaSem sig) : (SemLoc.dma s : SemLoc sig) ≠ .reg barS := fun h => by cases h
theorem not_bar_d : ¬ IsBar (dCell a k c) := fun h => dma_ne_bar _ h.2
theorem isXfer_d : IsXfer (dCell a k c) := ⟨rfl, _, rfl, by rw [semAt_val]; omega⟩

theorem duties_bar : (rsRd (F := F) m ρ).duties (barCell c) 0 = Finset.univ := by dsimp only [rsRd]; exact if_pos ⟨rfl, rfl, rfl⟩
theorem duties_d : (rsRd (F := F) m ρ).duties (dCell a k c) 0 = {false} := by
  dsimp only [rsRd]; rw [if_neg (fun h => not_bar_d c a k h.2)]; exact if_pos ⟨rfl, isXfer_d c a k⟩
theorem duties_later (g : GSem nD τ sig) : ∀ r, 1 ≤ r → (rsRd (F := F) m ρ).duties g r = ∅ :=
  fun r hr => by dsimp only [rsRd]; rw [if_neg fun h => by omega, if_neg fun h => by omega]

theorem amount_bar (d : Bool) : (rsRd (F := F) m ρ).amount (barCell c) 0 d = 1 := by dsimp only [rsRd]; exact if_pos rfl
theorem amount_d (d : Bool) : (rsRd (F := F) m ρ).amount (dCell a k c) 0 d = N := by dsimp only [rsRd]; exact if_neg (dma_ne_bar _)

theorem expect_bar : (rsRd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_d : (rsRd (F := F) m ρ).expect (dCell a k c) 0 = N := by
  unfold Schedule.expect Schedule.amountOf; rw [duties_d, Finset.sum_singleton, amount_d]

theorem payload_bar (d : Bool) : (rsRd (F := F) m ρ).payload (barCell c) 0 d = barPay d c := rfl

theorem fk_sem : fk ((semAt (fam a) k).val - 2) = k := by revert a k; decide
theorem fam_sem : ((semAt (fam a) k).val - 2) / 8 = a.val := by revert a k; decide

theorem payload_d (d : Bool) : (rsRd (F := F) m ρ).payload (dCell a k c) 0 d = dmaPay m ρ a.val k c := by
  show dmaPay m ρ (((semAt (fam a) k).val - 2) / 8) (fk ((semAt (fam a) k).val - 2)) c = _
  rw [fk_sem, fam_sem]

theorem payload_xs (d : Bool) : (rsRd (F := F) m ρ).payload (dCell 0 k c) 0 d = slPts stgM k c fullShare (stageVal m ρ c) := by
  rw [payload_d]; rfl
theorem payload_xr (d : Bool) : (rsRd (F := F) m ρ).payload (dCell 1 k c) 0 d = slPts cxM k c fullShare (stageVal m ρ (xp c)) := by
  rw [payload_d]; rfl
theorem payload_ys (d : Bool) : (rsRd (F := F) m ρ).payload (dCell 2 k c) 0 d = slPts cxM k c fullShare.left (stageVal m ρ (xp c)) := by
  rw [payload_d]; rfl
theorem payload_yr (d : Bool) : (rsRd (F := F) m ρ).payload (dCell 3 k c) 0 d = slPts cyM k c fullShare (stageVal m ρ (xp (yp c))) := by
  rw [payload_d]; rfl

/-- The rest of the barrier cell's round, no duty taken: both peers' landing buffers. -/
theorem rest_bar : bigSep ((rsRd (F := F) m ρ).duties (barCell c) 0 \ ∅) (fun d => (rsRd (F := F) m ρ).payload (barCell c) 0 d)
    = iprop(barPay false c ∗ barPay true c) := by
  rw [Finset.sdiff_empty, duties_bar, bigSep_univ_eq_bigSepL [false, true] (by decide) (by decide), bigSepL_cons_cons, bigSepL_singleton,
    payload_bar, payload_bar]
  rfl
theorem rest_d : bigSep ((rsRd (F := F) m ρ).duties (dCell a k c) 0 \ ∅) (fun d => (rsRd (F := F) m ρ).payload (dCell a k c) 0 d)
    = dmaPay m ρ a.val k c := by
  rw [Finset.sdiff_empty, duties_d, bigSep_singleton, payload_d]

end Sched

/-! ## What each core owes at launch; the levels -/

/-- The credit a device owes its row peer's arrival cells for the chunks it has yet to forward: chunk `7 - n` is
    the last summand of `oy c (n + 1)`, so chunk 0 is paid first. -/
def oy (c : Dev nD) : ℕ → CellTallies nD τ sig Unit
  | 0 => 0
  | n + 1 => oy c n + tallyAt (dCell 3 (fk (7 - n)) (yp c)) () N
/-- That, and the credit it owes its column peer's arrival cells for the staged chunks yet to leave. -/
def oxy (c : Dev nD) : ℕ → CellTallies nD τ sig Unit
  | 0 => oy c 8
  | n + 1 => oxy c n + tallyAt (dCell 1 (fk (7 - n)) (xp c)) () N
/-- At launch a device also owes both peers' barrier cells one unit; the column peer's is signalled first. -/
def O₁ (c : Dev nD) : CellTallies nD τ sig Unit := oxy c 8 + tallyAt (barCell (yp c)) () 1
def O₀ (c : Dev nD) : CellTallies nD τ sig Unit := O₁ c + tallyAt (barCell (xp c)) () 1

def L (g : GSem nD τ sig) : Finset Unit := if g.1.2 = .tc then {()} else ∅
/-- Barrier cells at 1, arrival cells of staged chunks at 2, of forwarded chunks at 3, everything else at 0. -/
def lv (g : GSem nD τ sig) (_ : Unit) : ℕ :=
  match g.2 with
  | .reg _ => 1
  | .dma s => if 26 ≤ s.val then 3 else if 10 ≤ s.val ∧ s.val < 18 then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := rfl
theorem lv_xr (c : Dev nD) (k : Fin 8) : lv (dCell 1 k c) () = 2 := by revert c k; decide
theorem lv_yr (c : Dev nD) (k : Fin 8) : lv (dCell 3 k c) () = 3 := by revert c k; decide
theorem lv_xs (c : Dev nD) (k : Fin 8) : lv (dCell 0 k c) () = 0 := by revert c k; decide
theorem lv_ys (c : Dev nD) (k : Fin 8) : lv (dCell 2 k c) () = 0 := by revert c k; decide

theorem oy_pos {c : Dev nD} {n : ℕ} {g : GSem nD τ sig} {u : Unit} (h : 0 < oy c n g u) : ∃ j, g = dCell 3 j (yp c) := by
  induction n with
  | zero => exact absurd h (Nat.lt_irrefl 0)
  | succ n ih =>
    unfold oy at h
    rw [Pi.add_apply, Finsupp.add_apply, tallyAt_apply] at h
    by_cases hg : g = dCell 3 (fk (7 - n)) (yp c) ∧ u = ()
    · exact ⟨_, hg.1⟩
    · rw [if_neg hg, Nat.add_zero] at h; exact ih h

theorem oxy_pos {c : Dev nD} {n : ℕ} {g : GSem nD τ sig} {u : Unit} (h : 0 < oxy c n g u) :
    (∃ j, g = dCell 3 j (yp c)) ∨ ∃ j, g = dCell 1 j (xp c) := by
  induction n with
  | zero => exact .inl (oy_pos h)
  | succ n ih =>
    unfold oxy at h
    rw [Pi.add_apply, Finsupp.add_apply, tallyAt_apply] at h
    by_cases hg : g = dCell 1 (fk (7 - n)) (xp c) ∧ u = ()
    · exact .inr ⟨_, hg.1⟩
    · rw [if_neg hg, Nat.add_zero] at h; exact ih h

theorem O₀_pos {c : Dev nD} {g : GSem nD τ sig} {u : Unit} (h : 0 < O₀ c g u) :
    (∃ j, g = dCell 3 j (yp c)) ∨ (∃ j, g = dCell 1 j (xp c)) ∨ g = barCell (yp c) ∨ g = barCell (xp c) := by
  unfold O₀ O₁ at h
  rw [Pi.add_apply, Finsupp.add_apply, Pi.add_apply, Finsupp.add_apply, tallyAt_apply, tallyAt_apply] at h
  by_cases h1 : g = barCell (xp c) ∧ u = ()
  · exact .inr (.inr (.inr h1.1))
  by_cases h2 : g = barCell (yp c) ∧ u = ()
  · exact .inr (.inr (.inl h2.1))
  rw [if_neg h1, if_neg h2] at h
  have h' : 0 < oxy c 8 g u := h
  rcases oxy_pos h' with h | h
  · exact .inl h
  · exact .inr (.inl h)

/-- A wait of the pipeline's own (on a staging semaphore) is below everything a device owes. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨j, rfl⟩ | ⟨j, rfl⟩ | rfl | rfl <;> exact Finset.mem_singleton_self _)
      (fun p hp => by
        rw [Finset.mem_singleton.mp hp]; show (if 26 ≤ q.val then 3 else if 10 ≤ q.val ∧ q.val < 18 then 2 else 0) ≤ 0
        rw [if_neg (by omega), if_neg (by omega)])
      (fun g u hg => by
        rcases O₀_pos hg with ⟨j, rfl⟩ | ⟨j, rfl⟩ | rfl | rfl
        · rw [lv_yr]; decide
        · rw [lv_xr]; decide
        · rw [lv_bar]; decide
        · rw [lv_bar]; decide)
  · rw [MayWait_zero]; iintro -; iempintro

/-- At its barrier wait a device owes arrival credit only. -/
theorem mayWait_bar (c : Dev nD) :
    (levAts L lv : sProp 𝕄) ⊢ MayWait (c : Thread nD τ) (.reg barS) () (oxy c 8) :=
  MayOwe.of_cut (L := L) (lev := lv) 1 (fun p hp => by rw [Finset.mem_singleton.mp hp, L_tc]; exact Finset.mem_singleton_self _)
    (fun g u hg => by rcases oxy_pos hg with ⟨j, rfl⟩ | ⟨j, rfl⟩ <;> exact Finset.mem_singleton_self _)
    (fun p hp => by rw [Finset.mem_singleton.mp hp]; exact Nat.le_refl _)
    (fun g u hg => by
      rcases oxy_pos hg with ⟨j, rfl⟩ | ⟨j, rfl⟩
      · rw [lv_yr]; decide
      · rw [lv_xr]; decide)

/-- Waiting for a staged chunk's arrival a device owes only arrivals of forwarded chunks. -/
theorem mayWait_xr (c : Dev nD) (k : Fin 8) (n : ℕ) :
    (levAts L lv : sProp 𝕄) ⊢ MayWait (c : Thread nD τ) (.dma (semAt (fam 1) k)) () (oy c n) :=
  MayOwe.of_cut (L := L) (lev := lv) 2 (fun p hp => by rw [Finset.mem_singleton.mp hp, L_tc]; exact Finset.mem_singleton_self _)
    (fun g u hg => by obtain ⟨j, rfl⟩ := oy_pos hg; exact Finset.mem_singleton_self _)
    (fun p hp => by rw [Finset.mem_singleton.mp hp]; exact (lv_xr c k).le)
    (fun g u hg => by obtain ⟨j, rfl⟩ := oy_pos hg; rw [lv_yr]; decide)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The offsets of the loads of `x` and of the stores into the result, chunk by chunk: the second loop (own
    quarter plus the column peer's chunk) and the third (the other quarter plus the forwarded chunk). -/
abbrev lx2 : Fin 8 → Dev nD → Fin 3 → Nat
  | 0 => k0_off2 | 1 => k0_off4 | 2 => k0_off6 | 3 => k0_off8 | 4 => k0_off10 | 5 => k0_off12 | 6 => k0_off14 | 7 => k0_off16
abbrev so2 : Fin 8 → Dev nD → Fin 2 → Nat
  | 0 => k0_off3 | 1 => k0_off5 | 2 => k0_off7 | 3 => k0_off9 | 4 => k0_off11 | 5 => k0_off13 | 6 => k0_off15 | 7 => k0_off17
abbrev lx3 : Fin 8 → Dev nD → Fin 3 → Nat
  | 0 => k0_off18 | 1 => k0_off20 | 2 => k0_off22 | 3 => k0_off24 | 4 => k0_off26 | 5 => k0_off28 | 6 => k0_off30 | 7 => k0_off32
abbrev so3 : Fin 8 → Dev nD → Fin 2 → Nat
  | 0 => k0_off19 | 1 => k0_off21 | 2 => k0_off23 | 3 => k0_off25 | 4 => k0_off27 | 5 => k0_off29 | 6 => k0_off31 | 7 => k0_off33
theorem lx2_inb : ∀ (k : Fin 8) (c : Dev nD) a, lx2 k c a + S1x128x256.size a ≤ S1x1024x1024.size a := by decide +kernel
theorem so2_inb : ∀ (k : Fin 8) (c : Dev nD) a, so2 k c a + S128x256.size a ≤ S1024x512.size a := by decide +kernel
theorem lx3_inb : ∀ (k : Fin 8) (c : Dev nD) a, lx3 k c a + S1x128x256.size a ≤ S1x1024x1024.size a := by decide +kernel
theorem so3_inb : ∀ (k : Fin 8) (c : Dev nD) a, so3 k c a + S128x256.size a ≤ S1024x512.size a := by decide +kernel

/-- Rows `128 k …` of a quarter of the device's own block of `x`. -/
def xq2 (k : Fin 8) (c : Dev nD) : Vec F S1x128x256 .f32 :=
  (xM : Memref sig .tc .vmem S1x1024x1024 .f32).view.readAt (Elt F)
    (Rect.unit (s := S1x1024x1024) (lx2 k c) S1x128x256.size (lx2_inb k c)).toLoadRect (xstg m ρ c)
def xq3 (k : Fin 8) (c : Dev nD) : Vec F S1x128x256 .f32 :=
  (xM : Memref sig .tc .vmem S1x1024x1024 .f32).view.readAt (Elt F)
    (Rect.unit (s := S1x1024x1024) (lx3 k c) S1x128x256.size (lx3_inb k c)).toLoadRect (xstg m ρ c)
/-- Chunk `k` of what device `d` staged, as a load through the landing buffer reads it. -/
def chunk (k : Fin 8) (d : Dev nD) : Vec F S128x256 .bf16 :=
  (cxM : Memref sig .tc .vmem S1024x256 .bf16).view.readAt (Elt F) (rowsR k).toLoadRect (stageVal m ρ d)

/-- The two families of stores: own quarter plus the column peer's chunk; other quarter plus the chunk the row peer
    forwarded (which its column peer staged). -/
def piece2 (k : Fin 8) (c : Dev nD) : View.Piece (Elt F) S1024x512 .f32 :=
  ⟨Rect.unit (s := S1024x512) (so2 k c) S128x256.size (so2_inb k c), k0_pay2 (xq2 m ρ k c) (chunk m ρ k (xp c))⟩
def piece3 (k : Fin 8) (c : Dev nD) : View.Piece (Elt F) S1024x512 .f32 :=
  ⟨Rect.unit (s := S1024x512) (so3 k c) S128x256.size (so3_inb k c), k0_pay2 (xq3 m ρ k c) (chunk m ρ k (xp (yp c)))⟩

/-- The sixteen stores, last first. -/
def outL (c : Dev nD) : List (View.Piece (Elt F) S1024x512 .f32) :=
  [piece3 m ρ 7 c, piece3 m ρ 6 c, piece3 m ρ 5 c, piece3 m ρ 4 c, piece3 m ρ 3 c, piece3 m ρ 2 c, piece3 m ρ 1 c, piece3 m ρ 0 c,
   piece2 m ρ 7 c, piece2 m ρ 6 c, piece2 m ρ 5 c, piece2 m ρ 4 c, piece2 m ρ 3 c, piece2 m ρ 2 c, piece2 m ρ 1 c, piece2 m ρ 0 c]

/-- The kernel's result on device `c`: what the sixteen stores leave (they cover the buffer, so the contents they
    were written over do not matter). -/
def outAt [∀ e, Nonempty (Elt F e)] (c : Dev nD) : (cc0_stg1_0 : Ref sig .tc).ty.Contents (Elt F) :=
  (oM : Memref sig .tc .vmem S1024x512 .f32).view.writes (Elt F) (fun _ => Classical.arbitrary _) (outL m ρ c)

/-! ## Ghost state, the invariant before and after the point -/

abbrev CK : Type := Option (Fin 4 × Fin 8)

/-- Every cell's invariant under the name the launch allocated it at, and round 0 of every cell reached. -/
def records (K : Dev nD × CK → ℕ) : sProp 𝕄 :=
  iprop((bigSep Finset.univ fun ck : Dev nD × CK => cellInv ER (rsRd m ρ) (K ck) (kcell ck))
    ∗ bigSep Finset.univ fun ck : Dev nD × CK => reached ER (kcell ck) 0)

instance records_persistent (K : Dev nD × CK → ℕ) : BI.Persistent (records m ρ K) := by unfold records; infer_instance

theorem inv_at (K : Dev nD × CK → ℕ) (ck : Dev nD × CK) : records m ρ K ⊢ cellInv ER (rsRd m ρ) (K ck) (kcell ck) := by
  unfold records; iintro ⟨HI, -⟩
  iapply (show (bigSep Finset.univ fun ck : Dev nD × CK => (cellInv ER (rsRd m ρ) (K ck) (kcell ck) : sProp 𝕄)) ⊢ cellInv ER (rsRd m ρ) (K ck) (kcell ck) from bigSep_elim (Finset.mem_univ ck))
  iexact HI
theorem reached_at (K : Dev nD × CK → ℕ) (ck : Dev nD × CK) : records m ρ K ⊢ reached ER (kcell ck) 0 := by
  unfold records; iintro ⟨-, HR⟩
  iapply (show (bigSep Finset.univ fun ck : Dev nD × CK => (reached ER (kcell ck) 0 : sProp 𝕄)) ⊢ reached ER (kcell ck) 0 from bigSep_elim (Finset.mem_univ ck))
  iexact HR

/-- The tokens of the duties a device pays: one on each peer's barrier; per chunk, the departure of its staged
    chunk, its arrival at the column peer, the departure of the forwarded chunk, its arrival at the row peer. -/
def payToks (c : Dev nD) : sProp 𝕄 :=
  iprop(dutyTok ER (barCell (xp c)) 0 false ∗ dutyTok ER (barCell (yp c)) 0 true
    ∗ bigSep Finset.univ fun k : Fin 8 => iprop(dutyTok ER (dCell 0 k c) 0 false ∗ dutyTok ER (dCell 1 k (xp c)) 0 false
        ∗ dutyTok ER (dCell 2 k c) 0 false ∗ dutyTok ER (dCell 3 k (yp c)) 0 false))

/-- A device's positions at round 0 of the four transfer cells of chunk `k`. -/
def posK (c : Dev nD) (k : Fin 8) : sProp 𝕄 :=
  iprop(atPos ER (dCell 0 k c) 0 ∅ 0 ∗ atPos ER (dCell 1 k c) 0 ∅ 0 ∗ atPos ER (dCell 2 k c) 0 ∅ 0 ∗ atPos ER (dCell 3 k c) 0 ∅ 0)

/-- A device's positions at round 0 of its thirty-three cells, and the tokens it pays with. -/
def linear (c : Dev nD) : sProp 𝕄 :=
  iprop((atPos ER (barCell c) 0 ∅ 0 ∗ bigSep Finset.univ fun k : Fin 8 => posK c k) ∗ payToks c)

def ghost (K : Dev nD × CK → ℕ) (c : Dev nD) : sProp 𝕄 := iprop(records m ρ K ∗ linear c)

/-- What device `c`'s body starts from: the ghost state at some names, the credit other devices owe its barrier
    and arrival cells, and the level facts. -/
def start (c : Dev nD) : sProp 𝕄 :=
  iprop((∃ K, ghost m ρ K c) ∗ cred (tallyAt (barCell c) () 2)
    ∗ (bigSep Finset.univ fun k : Fin 8 => cred (tallyAt (dCell 1 k c) () N))
    ∗ (bigSep Finset.univ fun k : Fin 8 => cred (tallyAt (dCell 3 k c) () N)) ∗ levAts L lv)

/-- The three scratch buffers, each whole at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

def Φ₀ (c : Dev nD) : sProp 𝕄 := iprop(start m ρ c ∗ scratch c)
/-- After the point: the scratch buffers back, the thirty-two own cells at zero, closed. -/
def Φ₁ (c : Dev nD) : sProp 𝕄 := iprop(scratch c ∗ bigSep Finset.univ fun ak : Fin 4 × Fin 8 => semVal ((c : Thread nD τ), osem ak) 0)

variable [∀ e, Nonempty (Elt F e)]

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

end Cert.KernelIdealProof
end
-- ==== Proof.Bundle.lean ====
import proofs.«900287_g7700000000000288_dist_rs_v7x_xy2x2_x_m1024_n512_f32_1_alg».proof.Proof.Sched

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ UU ℕ

variable (m : (ℓ : Loc nD τ sig) → Buf (Elt F) ℓ) (ρ : Dev nD → PrngReg)

/-! # What a device holds for chunk `k` at each stage of the protocol -/

/-- The four duty tokens a device pays with for chunk `k`. -/
def toksK (c : Dev nD) (k : Fin 8) : sProp 𝕄 :=
  iprop(dutyTok ER (dCell 0 k c) 0 false ∗ dutyTok ER (dCell 1 k (xp c)) 0 false ∗ dutyTok ER (dCell 2 k c) 0 false ∗ dutyTok ER (dCell 3 k (yp c)) 0 false)

/-- After the handshake: positions, tokens, the arrival credit, the staged chunk, both peers' landing chunks. -/
def A0 (c : Dev nD) (k : Fin 8) : sProp 𝕄 :=
  iprop(posK c k ∗ toksK c k ∗ cred (tallyAt (dCell 1 k c) () N) ∗ cred (tallyAt (dCell 3 k c) () N)
    ∗ slPts stgM k c fullShare (stageVal m ρ c)
    ∗ (∃ fd, slPts cxM k (xp c) fullShare fd) ∗ (∃ fd, slPts cyM k (yp c) fullShare fd))

/-- After the staged chunk has left. -/
def A1 (c : Dev nD) (k : Fin 8) : sProp 𝕄 :=
  iprop(posK c k ∗ dutyTok ER (dCell 2 k c) 0 false ∗ dutyTok ER (dCell 3 k (yp c)) 0 false
    ∗ cred (tallyAt (dCell 1 k c) () N) ∗ cred (tallyAt (dCell 3 k c) () N) ∗ cred (tallyAt (dCell 0 k c) () N)
    ∗ (∃ fd, slPts cyM k (yp c) fullShare fd))

/-- After the second loop's trip: the column peer's chunk landed and forwarded, half its share kept. -/
def A2 (c : Dev nD) (k : Fin 8) : sProp 𝕄 :=
  iprop(atPos ER (dCell 0 k c) 0 ∅ 0 ∗ atPos ER (dCell 2 k c) 0 ∅ 0 ∗ atPos ER (dCell 3 k c) 0 ∅ 0
    ∗ cred (tallyAt (dCell 3 k c) () N) ∗ cred (tallyAt (dCell 0 k c) () N) ∗ cred (tallyAt (dCell 2 k c) () N)
    ∗ semVal (dCell 1 k c) 0 ∗ slPts cxM k c fullShare.right (stageVal m ρ (xp c)))

/-- After the third loop's trip: the forwarded chunk landed. -/
def A3 (c : Dev nD) (k : Fin 8) : sProp 𝕄 :=
  iprop(atPos ER (dCell 0 k c) 0 ∅ 0 ∗ atPos ER (dCell 2 k c) 0 ∅ 0
    ∗ cred (tallyAt (dCell 0 k c) () N) ∗ cred (tallyAt (dCell 2 k c) () N)
    ∗ semVal (dCell 1 k c) 0 ∗ semVal (dCell 3 k c) 0
    ∗ slPts cxM k c fullShare.right (stageVal m ρ (xp c)) ∗ slPts cyM k c fullShare (stageVal m ρ (xp (yp c))))

/-- After both departures are waited: the four cells closed, the three chunks whole again. -/
def A4 (c : Dev nD) (k : Fin 8) : sProp 𝕄 :=
  iprop(semVal (dCell 0 k c) 0 ∗ semVal (dCell 1 k c) 0 ∗ semVal (dCell 2 k c) 0 ∗ semVal (dCell 3 k c) 0
    ∗ slPts stgM k c fullShare (stageVal m ρ c) ∗ slPts cxM k c fullShare (stageVal m ρ (xp c))
    ∗ slPts cyM k c fullShare (stageVal m ρ (xp (yp c))))

end Cert.KernelIdealProof

end
-- ==== Proof.Chunks.lean ====
import proofs.«900287_g7700000000000288_dist_rs_v7x_xy2x2_x_m1024_n512_f32_1_alg».proof.Proof.Sched
import Idealize.ShloMosaic.Lib.Pipeline.Value
import Idealize.ShloMosaic.Lib.HeldBySlice

/-!
# The scratch buffers by row chunks; the result buffer covered by the sixteen stores

A 1024 × 256 scratch buffer is the disjoint union of its eight chunks of 128 rows. A load of chunk `k` through the
whole buffer reads only that chunk's elements; a transfer of chunk `k` of one buffer into chunk `k` of another
leaves the source's contents on the chunk; the buffer splits into, and is rebuilt from, its eight chunks. The
sixteen rectangles stored into the 1024 × 512 result buffer tile it, so what they leave does not depend on what
was there before.
-/

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ UU ℕ

variable (m : (ℓ : Loc nD τ sig) → Buf (Elt F) ℓ) (ρ : Dev nD → PrngReg)

/-! ## A load of one chunk through the whole buffer -/

theorem rows_within : ∀ k : Fin 8, LoadRect.within (rowsR k) (rowsR k).toLoadRect = true := by decide

/-- The elements a load of chunk `k`'s rectangle through the whole buffer reads are elements of chunk `k`. -/
theorem chunk_load_subset (M : Memref sig .tc .vmem S1024x256 .bf16) (k : Fin 8) :
    M.view.setOn (rowsR k).toLoadRect.set ⊆ (sl M k).view.set :=
  Memref.setOn_subset_slice_of_within M (rowsR k) (fun _ => rfl) (rowsR k).toLoadRect (rows_within k)

/-! ## What a transfer of a chunk lands -/

/-- A transfer of chunk `k` of the staging buffer into chunk `k` of the first landing buffer leaves, on the chunk's
    elements, the source buffer's contents there (the same rectangle on both sides), whatever was there before. -/
theorem landing_xs (k : Fin 8) (c' : Dev nD) (q : PosShare TreeShare)
    (fd : Buf (Elt F) ((sl cxM k).view.loc (c' : Thread nD τ))) (fs : (cc0_scratch0 : Ref sig .tc).ty.Contents (Elt F)) :
    ((sl cxM k).view.loc (c' : Thread nD τ) ↦[(sl cxM k).view.set]{q}
        (sl cxM k).view.write (Elt F) fd ((sl stgM k).view.read (Elt F) fs) Finset.univ : sProp 𝕄)
      = slPts cxM k c' q fs :=
  pointsTo_congr fun i hi => by
    obtain ⟨x, rfl⟩ := View.exists_emb_of_mem_set _ hi
    rw [View.write_emb_of_mem _ _ (Finset.mem_univ _)]
    rfl

/-- The same for a transfer of chunk `k` of the first landing buffer into chunk `k` of the second. -/
theorem landing_ys (k : Fin 8) (c' : Dev nD) (q : PosShare TreeShare)
    (fd : Buf (Elt F) ((sl cyM k).view.loc (c' : Thread nD τ))) (fs : (cc0_scratch0 : Ref sig .tc).ty.Contents (Elt F)) :
    ((sl cyM k).view.loc (c' : Thread nD τ) ↦[(sl cyM k).view.set]{q}
        (sl cyM k).view.write (Elt F) fd ((sl cxM k).view.read (Elt F) fs) Finset.univ : sProp 𝕄)
      = slPts cyM k c' q fs :=
  pointsTo_congr fun i hi => by
    obtain ⟨x, rfl⟩ := View.exists_emb_of_mem_set _ hi
    rw [View.write_emb_of_mem _ _ (Finset.mem_univ _)]
    rfl

/-! ## The eight chunks are pairwise disjoint and cover the buffer -/

theorem rowsOff_zero : ∀ k : Fin 8, rowsOff k 0 = 128 * k.val := by decide
theorem rowsOff_one : ∀ k : Fin 8, rowsOff k 1 = 0 := by decide

theorem rows_disjoint (k k' : Fin 8) (h : k ≠ k') : Disjoint (rowsR k).set (rowsR k').set :=
  Rect.unit_disjoint 0 (by revert k k'; decide)

theorem rows_cover (y : S1024x256.Idx) : ∃ k : Fin 8, y ∈ (rowsR k).set := by
  have h0 : (y 0).val < 1024 := (y 0).isLt
  have h1 : (y 1).val < 256 := (y 1).isLt
  refine ⟨⟨(y 0).val / 128, by omega⟩, Rect.mem_set_unit.mpr (Fin.forall_fin_two.mpr ⟨?_, ?_⟩)⟩
  · rw [rowsOff_zero]
    show 128 * ((y 0).val / 128) ≤ (y 0).val ∧ (y 0).val < 128 * ((y 0).val / 128) + 128
    omega
  · rw [rowsOff_one]
    show 0 ≤ (y 1).val ∧ (y 1).val < 0 + 256
    omega

/-! ## A buffer held whole is its eight parts held one by one -/

theorem fin8_list : (Finset.univ : Finset (Fin 8)) = ([0, 1, 2, 3, 4, 5, 6, 7] : List (Fin 8)).toFinset := by decide
theorem fin8_nodup : ([0, 1, 2, 3, 4, 5, 6, 7] : List (Fin 8)).Nodup := by decide

/-- A family of eight pairwise disjoint element sets that cover a buffer cuts its points-to into eight. -/
theorem split8_of {ℓ : Loc nD τ sig} (K : Fin 8 → Finset (Idx ℓ))
    (hd : ∀ k k', k ≠ k' → Disjoint (K k) (K k')) (hc : ∀ i, ∃ k, i ∈ K k)
    (q : PosShare TreeShare) (f : Buf (Elt F) ℓ) :
    (ℓ ↦{q} f : sProp 𝕄) = bigSepL [0, 1, 2, 3, 4, 5, 6, 7] (fun k : Fin 8 => (ℓ ↦[K k]{q} f : sProp 𝕄)) := by
  have hu : (Finset.univ : Finset (Idx ℓ)) = (Finset.univ : Finset (Fin 8)).biUnion K := by
    ext i
    simp only [Finset.mem_univ, Finset.mem_biUnion, true_and, true_iff]
    exact hc i
  show (ℓ ↦[Finset.univ]{q} f : sProp 𝕄) = _
  rw [hu, pointsTo_biUnion _ K (fun t _ t' _ h => hd t t' h), bigSep_univ_eq_bigSepL [0, 1, 2, 3, 4, 5, 6, 7] fin8_list fin8_nodup]

/-- Pairwise disjoint element sets of a buffer, each held at contents of its own, join to their union held at some
    contents. -/
theorem joinL_any {ℓ : Loc nD τ sig} (K : Fin 8 → Finset (Idx ℓ)) (hd : ∀ k k', k ≠ k' → Disjoint (K k) (K k'))
    (q : PosShare TreeShare) (f₀ : Buf (Elt F) ℓ) :
    ∀ l : List (Fin 8), l.Nodup →
      (bigSepL l (fun k : Fin 8 => (iprop(∃ f : Buf (Elt F) ℓ, ℓ ↦[K k]{q} f) : sProp 𝕄))
        ⊢ (iprop(∃ g : Buf (Elt F) ℓ, ℓ ↦[l.toFinset.biUnion K]{q} g) : sProp 𝕄))
  | [], _ => by
    rw [bigSepL_nil, List.toFinset_nil, Finset.biUnion_empty]
    iintro -
    iexists f₀
    rw [pointsTo_empty]
    iempintro
  | k :: l, hl => by
    obtain ⟨hk, hl'⟩ := List.nodup_cons.mp hl
    have ih := joinL_any K hd q f₀ l hl'
    have hdis : Disjoint (K k) (l.toFinset.biUnion K) :=
      (Finset.disjoint_biUnion_right _ _ _).mpr fun t ht => hd k t (fun e => hk (e ▸ List.mem_toFinset.mp ht))
    rw [bigSepL_cons, List.toFinset_cons, Finset.biUnion_insert]
    refine (show iprop((∃ f : Buf (Elt F) ℓ, ℓ ↦[K k]{q} f)
        ∗ bigSepL l (fun k : Fin 8 => (iprop(∃ f : Buf (Elt F) ℓ, ℓ ↦[K k]{q} f) : sProp 𝕄))) ⊢ _ from ?_)
    iintro ⟨⟨%f, Hk⟩, HL⟩
    ihave HL2 := (ih) $$ HL
    icases HL2 with ⟨%g, HL2⟩
    iexists ((l.toFinset.biUnion K).piecewise g f)
    iapply (pointsTo_join hdis)
    isplitl [Hk]; · iexact Hk
    iexact HL2

theorem join8_of {ℓ : Loc nD τ sig} (K : Fin 8 → Finset (Idx ℓ))
    (hd : ∀ k k', k ≠ k' → Disjoint (K k) (K k')) (hc : ∀ i, ∃ k, i ∈ K k) (q : PosShare TreeShare) :
    bigSepL [0, 1, 2, 3, 4, 5, 6, 7] (fun k : Fin 8 => (iprop(∃ f : Buf (Elt F) ℓ, ℓ ↦[K k]{q} f) : sProp 𝕄))
      ⊢ (iprop(∃ g : Buf (Elt F) ℓ, ℓ ↦{q} g) : sProp 𝕄) := by
  have hu : ([0, 1, 2, 3, 4, 5, 6, 7] : List (Fin 8)).toFinset.biUnion K = (Finset.univ : Finset (Idx ℓ)) := by
    rw [← fin8_list]
    ext i
    simp only [Finset.mem_univ, Finset.mem_biUnion, true_and, iff_true]
    exact hc i
  have h := joinL_any (F := F) K hd q (fun _ => Classical.arbitrary _) [0, 1, 2, 3, 4, 5, 6, 7] fin8_nodup
  rw [hu] at h
  exact h

theorem stg_disjoint (k k' : Fin 8) (h : k ≠ k') : Disjoint (sl stgM k).view.set (sl stgM k').view.set := by
  show Disjoint ((View.whole cc0_scratch0).slice (rowsR k)).set ((View.whole cc0_scratch0).slice (rowsR k')).set
  rw [View.set_slice_whole, View.set_slice_whole]
  exact rows_disjoint k k' h
theorem stg_cover (i : S1024x256.Idx) : ∃ k : Fin 8, i ∈ (sl stgM k).view.set := by
  obtain ⟨k, hk⟩ := rows_cover i
  refine ⟨k, ?_⟩
  show i ∈ ((View.whole cc0_scratch0).slice (rowsR k)).set
  rw [View.set_slice_whole]
  exact hk

/-- The buffer `cc0_scratch0` whole is its eight chunks. -/
theorem split8_stg (c' : Dev nD) (q : PosShare TreeShare) (f : Buf (Elt F) ((c' : Thread nD τ).loc cc0_scratch0)) :
    ((c' : Thread nD τ).loc cc0_scratch0 ↦{q} f : sProp 𝕄) ⊣⊢ bigSepL [0, 1, 2, 3, 4, 5, 6, 7] (fun k : Fin 8 => slPts stgM k c' q f) :=
  BiEntails.of_eq (split8_of (F := F) (ℓ := (c' : Thread nD τ).loc cc0_scratch0) (fun k => (sl stgM k).view.set) stg_disjoint stg_cover q f)

theorem join8_any_stg (c' : Dev nD) :
    bigSepL [0, 1, 2, 3, 4, 5, 6, 7] (fun k : Fin 8 => (iprop(∃ f, slPts stgM k c' fullShare f) : sProp 𝕄))
      ⊢ (iprop(∃ f, (c' : Thread nD τ).loc cc0_scratch0 ↦{fullShare} f) : sProp 𝕄) :=
  join8_of (F := F) (ℓ := (c' : Thread nD τ).loc cc0_scratch0) (fun k => (sl stgM k).view.set) stg_disjoint stg_cover fullShare

theorem cx_disjoint (k k' : Fin 8) (h : k ≠ k') : Disjoint (sl cxM k).view.set (sl cxM k').view.set := by
  show Disjoint ((View.whole cc0_scratch1).slice (rowsR k)).set ((View.whole cc0_scratch1).slice (rowsR k')).set
  rw [View.set_slice_whole, View.set_slice_whole]
  exact rows_disjoint k k' h
theorem cx_cover (i : S1024x256.Idx) : ∃ k : Fin 8, i ∈ (sl cxM k).view.set := by
  obtain ⟨k, hk⟩ := rows_cover i
  refine ⟨k, ?_⟩
  show i ∈ ((View.whole cc0_scratch1).slice (rowsR k)).set
  rw [View.set_slice_whole]
  exact hk

/-- The buffer `cc0_scratch1` whole is its eight chunks. -/
theorem split8_cx (c' : Dev nD) (q : PosShare TreeShare) (f : Buf (Elt F) ((c' : Thread nD τ).loc cc0_scratch1)) :
    ((c' : Thread nD τ).loc cc0_scratch1 ↦{q} f : sProp 𝕄) ⊣⊢ bigSepL [0, 1, 2, 3, 4, 5, 6, 7] (fun k : Fin 8 => slPts cxM k c' q f) :=
  BiEntails.of_eq (split8_of (F := F) (ℓ := (c' : Thread nD τ).loc cc0_scratch1) (fun k => (sl cxM k).view.set) cx_disjoint cx_cover q f)

theorem join8_any_cx (c' : Dev nD) :
    bigSepL [0, 1, 2, 3, 4, 5, 6, 7] (fun k : Fin 8 => (iprop(∃ f, slPts cxM k c' fullShare f) : sProp 𝕄))
      ⊢ (iprop(∃ f, (c' : Thread nD τ).loc cc0_scratch1 ↦{fullShare} f) : sProp 𝕄) :=
  join8_of (F := F) (ℓ := (c' : Thread nD τ).loc cc0_scratch1) (fun k => (sl cxM k).view.set) cx_disjoint cx_cover fullShare

theorem cy_disjoint (k k' : Fin 8) (h : k ≠ k') : Disjoint (sl cyM k).view.set (sl cyM k').view.set := by
  show Disjoint ((View.whole cc0_scratch2).slice (rowsR k)).set ((View.whole cc0_scratch2).slice (rowsR k')).set
  rw [View.set_slice_whole, View.set_slice_whole]
  exact rows_disjoint k k' h
theorem cy_cover (i : S1024x256.Idx) : ∃ k : Fin 8, i ∈ (sl cyM k).view.set := by
  obtain ⟨k, hk⟩ := rows_cover i
  refine ⟨k, ?_⟩
  show i ∈ ((View.whole cc0_scratch2).slice (rowsR k)).set
  rw [View.set_slice_whole]
  exact hk

/-- The buffer `cc0_scratch2` whole is its eight chunks. -/
theorem split8_cy (c' : Dev nD) (q : PosShare TreeShare) (f : Buf (Elt F) ((c' : Thread nD τ).loc cc0_scratch2)) :
    ((c' : Thread nD τ).loc cc0_scratch2 ↦{q} f : sProp 𝕄) ⊣⊢ bigSepL [0, 1, 2, 3, 4, 5, 6, 7] (fun k : Fin 8 => slPts cyM k c' q f) :=
  BiEntails.of_eq (split8_of (F := F) (ℓ := (c' : Thread nD τ).loc cc0_scratch2) (fun k => (sl cyM k).view.set) cy_disjoint cy_cover q f)

theorem join8_any_cy (c' : Dev nD) :
    bigSepL [0, 1, 2, 3, 4, 5, 6, 7] (fun k : Fin 8 => (iprop(∃ f, slPts cyM k c' fullShare f) : sProp 𝕄))
      ⊢ (iprop(∃ f, (c' : Thread nD τ).loc cc0_scratch2 ↦{fullShare} f) : sProp 𝕄) :=
  join8_of (F := F) (ℓ := (c' : Thread nD τ).loc cc0_scratch2) (fun k => (sl cyM k).view.set) cy_disjoint cy_cover fullShare

/-- The list's chain, spelt with the connective the proof mode destructures. -/
theorem bigSepL8 (Φ : Fin 8 → sProp 𝕄) :
    bigSepL [0, 1, 2, 3, 4, 5, 6, 7] Φ = iprop(Φ 0 ∗ Φ 1 ∗ Φ 2 ∗ Φ 3 ∗ Φ 4 ∗ Φ 5 ∗ Φ 6 ∗ Φ 7) := rfl

/-! ## The sixteen stores tile the result buffer -/

/-- A store's rectangle alone, its payload forgotten. -/
abbrev bare (p : View.Piece (Elt F) S1024x512 .f32) : View.Piece (fun _ => Unit) S1024x512 .f32 := ⟨p.1, fun _ => ()⟩

/-- The sixteen stored rectangles on device `c`, last first. -/
abbrev rectL (c : Dev nD) : List (View.Piece (fun _ => Unit) S1024x512 .f32) :=
  [⟨Rect.unit (s := S1024x512) (so3 7 c) S128x256.size (so3_inb 7 c), fun _ => ()⟩,
   ⟨Rect.unit (s := S1024x512) (so3 6 c) S128x256.size (so3_inb 6 c), fun _ => ()⟩,
   ⟨Rect.unit (s := S1024x512) (so3 5 c) S128x256.size (so3_inb 5 c), fun _ => ()⟩,
   ⟨Rect.unit (s := S1024x512) (so3 4 c) S128x256.size (so3_inb 4 c), fun _ => ()⟩,
   ⟨Rect.unit (s := S1024x512) (so3 3 c) S128x256.size (so3_inb 3 c), fun _ => ()⟩,
   ⟨Rect.unit (s := S1024x512) (so3 2 c) S128x256.size (so3_inb 2 c), fun _ => ()⟩,
   ⟨Rect.unit (s := S1024x512) (so3 1 c) S128x256.size (so3_inb 1 c), fun _ => ()⟩,
   ⟨Rect.unit (s := S1024x512) (so3 0 c) S128x256.size (so3_inb 0 c), fun _ => ()⟩,
   ⟨Rect.unit (s := S1024x512) (so2 7 c) S128x256.size (so2_inb 7 c), fun _ => ()⟩,
   ⟨Rect.unit (s := S1024x512) (so2 6 c) S128x256.size (so2_inb 6 c), fun _ => ()⟩,
   ⟨Rect.unit (s := S1024x512) (so2 5 c) S128x256.size (so2_inb 5 c), fun _ => ()⟩,
   ⟨Rect.unit (s := S1024x512) (so2 4 c) S128x256.size (so2_inb 4 c), fun _ => ()⟩,
   ⟨Rect.unit (s := S1024x512) (so2 3 c) S128x256.size (so2_inb 3 c), fun _ => ()⟩,
   ⟨Rect.unit (s := S1024x512) (so2 2 c) S128x256.size (so2_inb 2 c), fun _ => ()⟩,
   ⟨Rect.unit (s := S1024x512) (so2 1 c) S128x256.size (so2_inb 1 c), fun _ => ()⟩,
   ⟨Rect.unit (s := S1024x512) (so2 0 c) S128x256.size (so2_inb 0 c), fun _ => ()⟩]

theorem outL_bare (c : Dev nD) : (outL m ρ c).map bare = rectL c := rfl

/-- On every device the sixteen rectangles are the sixteen 128 × 256 blocks of the 1024 × 512 buffer. -/
theorem rectL_tiled : ∀ c : Dev nD, View.Piece.tiled (rectL c) S128x256.size = true := by decide +kernel

/-- So every element of the result buffer lies under one of the sixteen stores. -/
theorem out_cover (c : Dev nD) (y : S1024x512.Idx) : ∃ p ∈ outL m ρ c, y ∈ p.1.set := by
  obtain ⟨p₀, hp₀, hy⟩ := View.cover_of_tiled (rectL c) S128x256.size (rectL_tiled c) y
  rw [← outL_bare m ρ c] at hp₀
  obtain ⟨p, hp, rfl⟩ := List.mem_map.mp hp₀
  exact ⟨p, hp, hy⟩

/-- And what they leave in the result buffer does not depend on the contents they were written over. -/
theorem out_indep (c : Dev nD) (g : Buf (Elt F) ((oM : Memref sig .tc .vmem S1024x512 .f32).view.loc (c : Thread nD τ))) :
    (oM : Memref sig .tc .vmem S1024x512 .f32).view.writes (Elt F) g (outL m ρ c) = outAt m ρ c := by
  have h := View.read_writes_of_cover (View.whole cc0_stg1_0) g (View.whole cc0_stg1_0)
    (fun _ => Classical.arbitrary _) (outL m ρ c) (out_cover m ρ c)
  rw [View.read_whole, View.read_whole] at h
  unfold outAt
  exact h

end Cert.KernelIdealProof

end
-- ==== Proof.StepsA.lean ====
import proofs.«900287_g7700000000000288_dist_rs_v7x_xy2x2_x_m1024_n512_f32_1_alg».proof.Proof.Bundle
import proofs.«900287_g7700000000000288_dist_rs_v7x_xy2x2_x_m1024_n512_f32_1_alg».proof.Proof.Chunks

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ UU ℕ

variable (m : (ℓ : Loc nD τ sig) → Buf (Elt F) ℓ) (ρ : Dev nD → PrngReg)

/-! # One rule per step of the protocol, at a symbolic chunk `k` -/

variable (K : Dev nD × CK → ℕ)

theorem dmaPay_0 (c : Dev nD) (k : Fin 8) : dmaPay m ρ (0 : Fin 4).val k c = slPts stgM k c fullShare (stageVal m ρ c) := rfl
theorem dmaPay_1 (c : Dev nD) (k : Fin 8) : dmaPay m ρ (1 : Fin 4).val k c = slPts cxM k c fullShare (stageVal m ρ (xp c)) := rfl
theorem dmaPay_2 (c : Dev nD) (k : Fin 8) : dmaPay m ρ (2 : Fin 4).val k c = slPts cxM k c fullShare.left (stageVal m ρ (xp c)) := rfl
theorem dmaPay_3 (c : Dev nD) (k : Fin 8) : dmaPay m ρ (3 : Fin 4).val k c = slPts cyM k c fullShare (stageVal m ρ (xp (yp c))) := rfl
theorem credit_cx (k : Fin 8) : (sl cxM k).view.dmaCredit = N := rfl
theorem credit_cy (k : Fin 8) : (sl cyM k).view.dmaCredit = N := rfl

/-- Staged chunk `k` leaves for the column peer `n = xp c`: the chunk's points-to goes into the departure cell,
    the peer's landing chunk (any contents) into its arrival cell holding what was staged. -/
theorem xsend_step (c n : Dev nD) (hn : n = xp c) (k : Fin 8)
    {hsc : (sl cxM k : Memref sig (Dev.tc n : Thread nD τ).2.kind .vmem S128x256 .bf16).view.ref.isScScratch = false}
    {hsrc : (sl stgM k).view.WordExact} {hdst : (sl cxM k).view.WordExact}
    {hsem : DmaTarget.Typed .vmem (.dma (semAt (fam 1) k)) (.remote (Dev.tc n : Thread nD τ) (sl cxM k) (.dma (semAt (fam 0) k)) hsc)}
    {α : Type} {Q : α → sProp 𝕄} {kont : PUnit → Prog (TpuEff nD τ sig (Elt F) Λ₀ .tc) α}
    (fd : Buf (Elt F) ((sl cxM k).view.loc (xp c : Thread nD τ))) (O : CellTallies nD τ sig Unit) (W : Waits sig Unit) :
    iprop(records m ρ K ∗ slPts stgM k c fullShare (stageVal m ρ c) ∗ slPts cxM k (xp c) fullShare fd
        ∗ owes (c : Thread nD τ) (O + tallyAt (dCell 1 k (xp c)) () N) W
        ∗ dutyTok ER (dCell 0 k c) 0 false ∗ dutyTok ER (dCell 1 k (xp c)) 0 false)
      ⊢ iprop(((cred (tallyAt (dCell 0 k c) () N) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (sl stgM k) (.remote (Dev.tc n : Thread nD τ) (sl cxM k) (.dma (semAt (fam 0) k)) hsc) (.dma (semAt (fam 1) k)) hsrc hdst hsem) kont) Q) := by
  subst hn
  iintro ⟨#HR, Hsrc, Hdst, HO, Ht0, Ht1⟩
  ihave #HI0 := (inv_at m ρ K (c, some (0, k))) $$ HR
  ihave #HI1 := (inv_at m ρ K (xp c, some (1, k))) $$ HR
  ihave #Hr0 := (reached_at m ρ K (c, some (0, k))) $$ HR
  ihave #Hr1 := (reached_at m ρ K (xp c, some (1, k))) $$ HR
  iapply (Rounds.wp_send_pointsTo 𝒱₀ ER (rsRd m ρ) (c : Thread nD τ) none (κ₁ := K (c, some (0, k))) (κ₂ := K (xp c, some (1, k)))
    (r₁ := 0) (r₂ := 0) (d₁ := false) (d₂ := false) (fd := fd) (fs := stageVal m ρ c) (q := fullShare)
    (by rw [duties_d]; exact Finset.mem_singleton_self _) (by rw [duties_d]; exact Finset.mem_singleton_self _)
    () () N rfl (amount_d m ρ c 0 k false) (amount_d m ρ (xp c) 1 k false) O rfl (W := W)
    (by rw [payload_xs])
    (by rw [payload_xr, xp_xp, landing_xs k (xp c) fullShare fd (stageVal m ρ c)])) $$ [Hsrc Hdst HO Ht0 Ht1]
  · isplitr; · iexact HI0
    isplitr; · iexact HI1
    isplitl [Hsrc]; · iexact Hsrc
    isplitl [Hdst]; · iexact Hdst
    isplitl [HO]; · iexact HO
    isplitl [Ht0]; · iexact Ht0
    isplitr; · iexact Hr0
    isplitl [Ht1]; · iexact Ht1
    iexact Hr1

/-- Landed chunk `k` is forwarded to the row peer `n = yp c` at half its share; the other half stays for the load. -/
theorem ysend_step (c n : Dev nD) (hn : n = yp c) (k : Fin 8)
    {hsc : (sl cyM k : Memref sig (Dev.tc n : Thread nD τ).2.kind .vmem S128x256 .bf16).view.ref.isScScratch = false}
    {hsrc : (sl cxM k).view.WordExact} {hdst : (sl cyM k).view.WordExact}
    {hsem : DmaTarget.Typed .vmem (.dma (semAt (fam 3) k)) (.remote (Dev.tc n : Thread nD τ) (sl cyM k) (.dma (semAt (fam 2) k)) hsc)}
    {α : Type} {Q : α → sProp 𝕄} {kont : PUnit → Prog (TpuEff nD τ sig (Elt F) Λ₀ .tc) α}
    (fd : Buf (Elt F) ((sl cyM k).view.loc (yp c : Thread nD τ))) (O : CellTallies nD τ sig Unit) (W : Waits sig Unit) :
    iprop(records m ρ K ∗ slPts cxM k c fullShare.left (stageVal m ρ (xp c)) ∗ slPts cyM k (yp c) fullShare fd
        ∗ owes (c : Thread nD τ) (O + tallyAt (dCell 3 k (yp c)) () N) W
        ∗ dutyTok ER (dCell 2 k c) 0 false ∗ dutyTok ER (dCell 3 k (yp c)) 0 false)
      ⊢ iprop(((cred (tallyAt (dCell 2 k c) () N) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (sl cxM k) (.remote (Dev.tc n : Thread nD τ) (sl cyM k) (.dma (semAt (fam 2) k)) hsc) (.dma (semAt (fam 3) k)) hsrc hdst hsem) kont) Q) := by
  subst hn
  iintro ⟨#HR, Hsrc, Hdst, HO, Ht0, Ht1⟩
  ihave #HI0 := (inv_at m ρ K (c, some (2, k))) $$ HR
  ihave #HI1 := (inv_at m ρ K (yp c, some (3, k))) $$ HR
  ihave #Hr0 := (reached_at m ρ K (c, some (2, k))) $$ HR
  ihave #Hr1 := (reached_at m ρ K (yp c, some (3, k))) $$ HR
  iapply (Rounds.wp_send_pointsTo 𝒱₀ ER (rsRd m ρ) (c : Thread nD τ) none (κ₁ := K (c, some (2, k))) (κ₂ := K (yp c, some (3, k)))
    (r₁ := 0) (r₂ := 0) (d₁ := false) (d₂ := false) (fd := fd) (fs := stageVal m ρ (xp c)) (q := fullShare.left)
    (by rw [duties_d]; exact Finset.mem_singleton_self _) (by rw [duties_d]; exact Finset.mem_singleton_self _)
    () () N rfl (amount_d m ρ c 2 k false) (amount_d m ρ (yp c) 3 k false) O rfl (W := W)
    (by rw [payload_ys])
    (by rw [payload_yr, yp_yp, landing_ys k (yp c) fullShare fd (stageVal m ρ (xp c))])) $$ [Hsrc Hdst HO Ht0 Ht1]
  · isplitr; · iexact HI0
    isplitr; · iexact HI1
    isplitl [Hsrc]; · iexact Hsrc
    isplitl [Hdst]; · iexact Hdst
    isplitl [HO]; · iexact HO
    isplitl [Ht0]; · iexact Ht0
    isplitr; · iexact Hr0
    isplitl [Ht1]; · iexact Ht1
    iexact Hr1

/-- The wait on transfer cell `(a, k)` for the whole of its one round: its payload comes back, and the cell,
    which has no later round, closes with its counter at zero. -/
theorem dwait_step (c : Dev nD) (a : Fin 4) (k : Fin 8)
    {src dst : Memref sig .tc .vmem S128x256 .bf16} {hsrc : src.view.WordExact} {hdst : dst.view.WordExact}
    (hdN : dst.view.dmaCredit = N) {P : sProp 𝕄} (hP : dmaPay m ρ a.val k c = P)
    {α : Type} {Q : α → sProp 𝕄} {kont : PUnit → Prog (TpuEff nD τ sig (Elt F) Λ₀ .tc) α}
    (O : CellTallies nD τ sig Unit) (W : Waits sig Unit)
    (hmw : (levAts L lv : sProp 𝕄) ⊢ MayWait (c : Thread nD τ) (.dma (semAt (fam a) k)) () O) :
    iprop(records m ρ K ∗ levAts L lv ∗ cred (tallyAt (dCell a k c) () N) ∗ owes (c : Thread nD τ) O W ∗ atPos ER (dCell a k c) 0 ∅ 0)
      ⊢ iprop(((owes (c : Thread nD τ) O (insert (SemLoc.dma (semAt (fam a) k), ()) W) ∗ P ∗ semVal (dCell a k c) 0)
            -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 (semAt (fam a) k) src dst hsrc hdst) kont) Q) := by
  iintro ⟨#HR, #Hlev, Hc, HO, Hat⟩ Hk
  ihave #HI := (inv_at m ρ K (c, some (a, k))) $$ HR
  iapply (Rounds.wp_wait_rest_token 𝒱₀ ER (rsRd m ρ) (c : Thread nD τ) none (κ := K (c, some (a, k)))
      (wpE_waitDma2_eq 𝒱₀ (c : Thread nD τ) none Set.univ) (Set.mem_univ _) () (O := O) (W := W) (R := 0) (m := 0) (T := ∅)
      (by rw [Nat.zero_add, expect_d, hdN])) $$ [Hc HO Hat]
  · isplitr; · iexact HI
    isplitl [Hc]; · rw [hdN]; iexact Hc
    isplitl [HO]; · iexact HO
    isplitr; · iapply hmw; iexact Hlev
    iexact Hat
  iintro ⟨HO, Hat, -, Hpay⟩
  ihave Hp := (Entails.of_eq ((rest_d m ρ c a k).trans hP)) $$ Hpay
  imod (Rounds.cell_close ER (rsRd m ρ) (Set.mem_univ (K (c, some (a, k)))) (fun h => h) (R := 0 + 1) (duties_later m ρ (dCell a k c))) $$ [Hat] with Hz
  · isplitr; · iexact HI
    iexact Hat
  iapply Hk
  isplitl [HO]; · iexact HO
  isplitl [Hp]; · iexact Hp
  iexact Hz

end Cert.KernelIdealProof

end
-- ==== Proof.StepsB.lean ====
import proofs.«900287_g7700000000000288_dist_rs_v7x_xy2x2_x_m1024_n512_f32_1_alg».proof.Proof.StepsA

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ UU ℕ

variable (m : (ℓ : Loc nD τ sig) → Buf (Elt F) ℓ) (ρ : Dev nD → PrngReg)

variable (K : Dev nD × CK → ℕ)

/-- One trip of the second loop at chunk `k`: the column peer's chunk has arrived; it is forwarded to the row peer at
    half its share, and with the other half the own quarter's rows plus the chunk go into the result. -/
theorem loop2_iter (c n : Dev nD) (hn : n = yp c) (k : Fin 8)
    {hsrcW : (sl stgM k).view.WordExact} {hdstW : (sl cxM k).view.WordExact}
    {hsc : (sl cyM k : Memref sig (Dev.tc n : Thread nD τ).2.kind .vmem S128x256 .bf16).view.ref.isScScratch = false}
    {hsrc : (sl cxM k).view.WordExact} {hdst : (sl cyM k).view.WordExact}
    {hsem : DmaTarget.Typed .vmem (.dma (semAt (fam 3) k)) (.remote (Dev.tc n : Thread nD τ) (sl cyM k) (.dma (semAt (fam 2) k)) hsc)}
    {hl1 : (xM : Memref sig .tc .vmem S1x1024x1024 .f32).view.LoadsAt (Rect.unit (s := S1x1024x1024) (lx2 k c) S1x128x256.size (lx2_inb k c)).toLoadRect}
    {hl2 : (cxM : Memref sig .tc .vmem S1024x256 .bf16).view.LoadsAt (rowsR k).toLoadRect}
    {hl3 : (oM : Memref sig .tc .vmem S1024x512 .f32).view.LoadsAt (Rect.unit (s := S1024x512) (so2 k c) S128x256.size (so2_inb k c)).toLoadRect}
    {hx : ((oM : Memref sig .tc .vmem S1024x512 .f32).access (Rect.unit (s := S1024x512) (so2 k c) S128x256.size (so2_inb k c))).Stores Finset.univ}
    {hm : Finset.univ = Finset.univ ∨ ∀ a, (Rect.unit (s := S1024x512) (so2 k c) S128x256.size (so2_inb k c)).stride a = 1}
    {α : Type} {Q : α → sProp 𝕄} {kont : PUnit → Prog (TpuEff nD τ sig (Elt F) Λ₀ .tc) α}
    (fd : Buf (Elt F) ((sl cyM k).view.loc (yp c : Thread nD τ))) (O : CellTallies nD τ sig Unit) (W : Waits sig Unit)
    (g : Buf (Elt F) ((oM : Memref sig .tc .vmem S1024x512 .f32).view.loc (c : Thread nD τ))) (Ls : List (View.Piece (Elt F) S1024x512 .f32))
    (hmw : (levAts L lv : sProp 𝕄) ⊢ MayWait (c : Thread nD τ) (.dma (semAt (fam 1) k)) () (O + tallyAt (dCell 3 k (yp c)) () N)) :
    iprop(records m ρ K ∗ levAts L lv ∗ cred (tallyAt (dCell 1 k c) () N) ∗ atPos ER (dCell 1 k c) 0 ∅ 0
        ∗ owes (c : Thread nD τ) (O + tallyAt (dCell 3 k (yp c)) () N) W
        ∗ slPts cyM k (yp c) fullShare fd ∗ dutyTok ER (dCell 2 k c) 0 false ∗ dutyTok ER (dCell 3 k (yp c)) 0 false
        ∗ (((c : Thread nD τ).loc cc0_stg0_0) ↦{fullShare} xstg m ρ c)
        ∗ ((oM : Memref sig .tc .vmem S1024x512 .f32).view.loc (c : Thread nD τ) ↦[Finset.univ]{fullShare} (oM : Memref sig .tc .vmem S1024x512 .f32).view.writes (Elt F) g Ls))
      ⊢ iprop(((owes (c : Thread nD τ) O (insert (SemLoc.dma (semAt (fam 1) k), ()) W) ∗ semVal (dCell 1 k c) 0
              ∗ cred (tallyAt (dCell 2 k c) () N) ∗ slPts cxM k c fullShare.right (stageVal m ρ (xp c))
              ∗ (((c : Thread nD τ).loc cc0_stg0_0) ↦{fullShare} xstg m ρ c)
              ∗ ((oM : Memref sig .tc .vmem S1024x512 .f32).view.loc (c : Thread nD τ) ↦[Finset.univ]{fullShare} (oM : Memref sig .tc .vmem S1024x512 .f32).view.writes (Elt F) g (piece2 m ρ k c :: Ls)))
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (semAt (fam 1) k) (sl stgM k) (sl cxM k) hsrcW hdstW) fun _ =>
               .op (.enqueueDma (sl cxM k) (.remote (Dev.tc n : Thread nD τ) (sl cyM k) (.dma (semAt (fam 2) k)) hsc) (.dma (semAt (fam 3) k)) hsrc hdst hsem) fun _ =>
               .op (.load xM (Rect.unit (s := S1x1024x1024) (lx2 k c) S1x128x256.size (lx2_inb k c)).toLoadRect hl1) fun x =>
               .op (.load cxM (rowsR k).toLoadRect hl2) fun x2 =>
               .op (.load oM (Rect.unit (s := S1024x512) (so2 k c) S128x256.size (so2_inb k c)).toLoadRect hl3) fun _ =>
               .op (.store oM (Rect.unit (s := S1024x512) (so2 k c) S128x256.size (so2_inb k c)) (k0_pay2 x x2) Finset.univ hx hm) kont) Q) := by
  subst hn
  iintro ⟨#HR, #Hlev, Hc, Hat, HO, Hdst, Ht2, Ht3, Hx, Hout⟩ Hk
  iapply (dwait_step m ρ K c 1 k (src := sl stgM k) (dst := sl cxM k) (credit_cx k) (dmaPay_1 m ρ c k) (O + tallyAt (dCell 3 k (yp c)) () N) W hmw) $$ [Hc HO Hat]
  · isplitr; · iexact HR
    isplitr; · iexact Hlev
    isplitl [Hc]; · iexact Hc
    isplitl [HO]; · iexact HO
    iexact Hat
  iintro ⟨HO, Hpay, Hz⟩
  ihave Hpay' := (pointsTo_share (PosShare.mem_left_op_right fullShare)).1 $$ Hpay
  icases Hpay' with ⟨Hl, Hr⟩
  iapply (ysend_step m ρ K c (yp c) rfl k fd O (insert (SemLoc.dma (semAt (fam 1) k), ()) W)) $$ [Hl Hdst HO Ht2 Ht3]
  · isplitr; · iexact HR
    isplitl [Hl]; · iexact Hl
    isplitl [Hdst]; · iexact Hdst
    isplitl [HO]; · iexact HO
    isplitl [Ht2]; · iexact Ht2
    iexact Ht3
  iintro ⟨Hcs, HO⟩
  iapply (wp_load 𝒱₀ (c : Thread nD τ) none Set.univ (m := xM) (Finset.subset_univ _)) $$ Hx; iintro Hx
  iapply (wp_load 𝒱₀ (c : Thread nD τ) none Set.univ (m := cxM) (chunk_load_subset cxM k)) $$ Hr; iintro Hr
  iapply (wp_load 𝒱₀ (c : Thread nD τ) none Set.univ (m := oM) (Finset.subset_univ _)) $$ Hout; iintro Hout
  iapply (wp_store_writes 𝒱₀ (c : Thread nD τ) none Set.univ (m := oM) (r := (piece2 m ρ k c).1) (w := (piece2 m ρ k c).2) (f := g) (L := Ls) (S := Finset.univ) (k := kont) (Finset.subset_univ _)) $$ Hout; iintro Hout
  iapply Hk
  isplitl [HO]; · iexact HO
  isplitl [Hz]; · iexact Hz
  isplitl [Hcs]; · iexact Hcs
  isplitl [Hr]; · iexact Hr
  isplitl [Hx]; · iexact Hx
  iexact Hout

end Cert.KernelIdealProof

end
-- ==== Proof.StepsC.lean ====
import proofs.«900287_g7700000000000288_dist_rs_v7x_xy2x2_x_m1024_n512_f32_1_alg».proof.Proof.StepsA

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ UU ℕ

variable (m : (ℓ : Loc nD τ sig) → Buf (Elt F) ℓ) (ρ : Dev nD → PrngReg)

variable (K : Dev nD × CK → ℕ)

/-- One trip of the third loop at chunk `k`: the forwarded chunk has arrived; the other quarter's rows plus the chunk
    go into the result. -/
theorem loop3_iter (c : Dev nD) (k : Fin 8)
    {srcW dstW : Memref sig .tc .vmem S128x256 .bf16} {hsrcW : srcW.view.WordExact} {hdstW : dstW.view.WordExact} (hdN : dstW.view.dmaCredit = N)
    {hl1 : (xM : Memref sig .tc .vmem S1x1024x1024 .f32).view.LoadsAt (Rect.unit (s := S1x1024x1024) (lx3 k c) S1x128x256.size (lx3_inb k c)).toLoadRect}
    {hl2 : (cyM : Memref sig .tc .vmem S1024x256 .bf16).view.LoadsAt (rowsR k).toLoadRect}
    {hl3 : (oM : Memref sig .tc .vmem S1024x512 .f32).view.LoadsAt (Rect.unit (s := S1024x512) (so3 k c) S128x256.size (so3_inb k c)).toLoadRect}
    {hx : ((oM : Memref sig .tc .vmem S1024x512 .f32).access (Rect.unit (s := S1024x512) (so3 k c) S128x256.size (so3_inb k c))).Stores Finset.univ}
    {hm : Finset.univ = Finset.univ ∨ ∀ a, (Rect.unit (s := S1024x512) (so3 k c) S128x256.size (so3_inb k c)).stride a = 1}
    {α : Type} {Q : α → sProp 𝕄} {kont : PUnit → Prog (TpuEff nD τ sig (Elt F) Λ₀ .tc) α}
    (W : Waits sig Unit)
    (g : Buf (Elt F) ((oM : Memref sig .tc .vmem S1024x512 .f32).view.loc (c : Thread nD τ))) (Ls : List (View.Piece (Elt F) S1024x512 .f32)) :
    iprop(records m ρ K ∗ levAts L lv ∗ cred (tallyAt (dCell 3 k c) () N) ∗ atPos ER (dCell 3 k c) 0 ∅ 0
        ∗ owes (c : Thread nD τ) 0 W
        ∗ (((c : Thread nD τ).loc cc0_stg0_0) ↦{fullShare} xstg m ρ c)
        ∗ ((oM : Memref sig .tc .vmem S1024x512 .f32).view.loc (c : Thread nD τ) ↦[Finset.univ]{fullShare} (oM : Memref sig .tc .vmem S1024x512 .f32).view.writes (Elt F) g Ls))
      ⊢ iprop(((owes (c : Thread nD τ) 0 (insert (SemLoc.dma (semAt (fam 3) k), ()) W) ∗ semVal (dCell 3 k c) 0
              ∗ slPts cyM k c fullShare (stageVal m ρ (xp (yp c)))
              ∗ (((c : Thread nD τ).loc cc0_stg0_0) ↦{fullShare} xstg m ρ c)
              ∗ ((oM : Memref sig .tc .vmem S1024x512 .f32).view.loc (c : Thread nD τ) ↦[Finset.univ]{fullShare} (oM : Memref sig .tc .vmem S1024x512 .f32).view.writes (Elt F) g (piece3 m ρ k c :: Ls)))
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (semAt (fam 3) k) srcW dstW hsrcW hdstW) fun _ =>
               .op (.load xM (Rect.unit (s := S1x1024x1024) (lx3 k c) S1x128x256.size (lx3_inb k c)).toLoadRect hl1) fun x =>
               .op (.load cyM (rowsR k).toLoadRect hl2) fun x2 =>
               .op (.load oM (Rect.unit (s := S1024x512) (so3 k c) S128x256.size (so3_inb k c)).toLoadRect hl3) fun _ =>
               .op (.store oM (Rect.unit (s := S1024x512) (so3 k c) S128x256.size (so3_inb k c)) (k0_pay2 x x2) Finset.univ hx hm) kont) Q) := by
  iintro ⟨#HR, #Hlev, Hc, Hat, HO, Hx, Hout⟩ Hk
  iapply (dwait_step m ρ K c 3 k hdN (dmaPay_3 m ρ c k) 0 W (by rw [MayWait_zero]; iintro -; iempintro)) $$ [Hc HO Hat]
  · isplitr; · iexact HR
    isplitr; · iexact Hlev
    isplitl [Hc]; · iexact Hc
    isplitl [HO]; · iexact HO
    iexact Hat
  iintro ⟨HO, Hpay, Hz⟩
  iapply (wp_load 𝒱₀ (c : Thread nD τ) none Set.univ (m := xM) (Finset.subset_univ _)) $$ Hx; iintro Hx
  iapply (wp_load 𝒱₀ (c : Thread nD τ) none Set.univ (m := cyM) (chunk_load_subset cyM k)) $$ Hpay; iintro Hpay
  iapply (wp_load 𝒱₀ (c : Thread nD τ) none Set.univ (m := oM) (Finset.subset_univ _)) $$ Hout; iintro Hout
  iapply (wp_store_writes 𝒱₀ (c : Thread nD τ) none Set.univ (m := oM) (r := (piece3 m ρ k c).1) (w := (piece3 m ρ k c).2) (f := g) (L := Ls) (S := Finset.univ) (k := kont) (Finset.subset_univ _)) $$ Hout; iintro Hout
  iapply Hk
  isplitl [HO]; · iexact HO
  isplitl [Hz]; · iexact Hz
  isplitl [Hpay]; · iexact Hpay
  isplitl [Hx]; · iexact Hx
  iexact Hout

end Cert.KernelIdealProof

end
-- ==== Proof.StepsD.lean ====
import proofs.«900287_g7700000000000288_dist_rs_v7x_xy2x2_x_m1024_n512_f32_1_alg».proof.Proof.StepsA

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ UU ℕ

variable (m : (ℓ : Loc nD τ sig) → Buf (Elt F) ℓ) (ρ : Dev nD → PrngReg)

variable (K : Dev nD × CK → ℕ)

/-- The two departure waits of chunk `k`: the staged chunk and the forwarded half come back, both cells close. -/
theorem sendwait_iter (c : Dev nD) (k : Fin 8)
    {src1 dst1 src2 dst2 : Memref sig .tc .vmem S128x256 .bf16} {hs1 : src1.view.WordExact} {hd1 : dst1.view.WordExact}
    {hs2 : src2.view.WordExact} {hd2 : dst2.view.WordExact} (hN1 : dst1.view.dmaCredit = N) (hN2 : dst2.view.dmaCredit = N)
    {α : Type} {Q : α → sProp 𝕄} {kont : PUnit → Prog (TpuEff nD τ sig (Elt F) Λ₀ .tc) α}
    (W : Waits sig Unit) :
    iprop(records m ρ K ∗ levAts L lv ∗ cred (tallyAt (dCell 0 k c) () N) ∗ atPos ER (dCell 0 k c) 0 ∅ 0
        ∗ cred (tallyAt (dCell 2 k c) () N) ∗ atPos ER (dCell 2 k c) 0 ∅ 0 ∗ owes (c : Thread nD τ) 0 W)
      ⊢ iprop(((owes (c : Thread nD τ) 0 (insert (SemLoc.dma (semAt (fam 2) k), ()) (insert (SemLoc.dma (semAt (fam 0) k), ()) W))
              ∗ semVal (dCell 0 k c) 0 ∗ semVal (dCell 2 k c) 0
              ∗ slPts stgM k c fullShare (stageVal m ρ c) ∗ slPts cxM k c fullShare.left (stageVal m ρ (xp c)))
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (semAt (fam 0) k) src1 dst1 hs1 hd1) fun _ => .op (.waitDma2 (semAt (fam 2) k) src2 dst2 hs2 hd2) kont) Q) := by
  iintro ⟨#HR, #Hlev, Hc0, Hat0, Hc2, Hat2, HO⟩ Hk
  iapply (dwait_step m ρ K c 0 k hN1 (dmaPay_0 m ρ c k) 0 W (by rw [MayWait_zero]; iintro -; iempintro)) $$ [Hc0 HO Hat0]
  · isplitr; · iexact HR
    isplitr; · iexact Hlev
    isplitl [Hc0]; · iexact Hc0
    isplitl [HO]; · iexact HO
    iexact Hat0
  iintro ⟨HO, Hp0, Hz0⟩
  iapply (dwait_step m ρ K c 2 k hN2 (dmaPay_2 m ρ c k) 0 (insert (SemLoc.dma (semAt (fam 0) k), ()) W) (by rw [MayWait_zero]; iintro -; iempintro)) $$ [Hc2 HO Hat2]
  · isplitr; · iexact HR
    isplitr; · iexact Hlev
    isplitl [Hc2]; · iexact Hc2
    isplitl [HO]; · iexact HO
    iexact Hat2
  iintro ⟨HO, Hp2, Hz2⟩
  iapply Hk
  isplitl [HO]; · iexact HO
  isplitl [Hz0]; · iexact Hz0
  isplitl [Hz2]; · iexact Hz2
  isplitl [Hp0]; · iexact Hp0
  iexact Hp2

end Cert.KernelIdealProof

end
-- ==== Proof.StepsE.lean ====
import proofs.«900287_g7700000000000288_dist_rs_v7x_xy2x2_x_m1024_n512_f32_1_alg».proof.Proof.StepsB
import proofs.«900287_g7700000000000288_dist_rs_v7x_xy2x2_x_m1024_n512_f32_1_alg».proof.Proof.StepsC
import proofs.«900287_g7700000000000288_dist_rs_v7x_xy2x2_x_m1024_n512_f32_1_alg».proof.Proof.StepsD

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ UU ℕ

variable (m : (ℓ : Loc nD τ sig) → Buf (Elt F) ℓ) (ρ : Dev nD → PrngReg)

variable (K : Dev nD × CK → ℕ)

/-! ## The same steps over the per-chunk bundles -/

theorem xsend_b (c n : Dev nD) (hn : n = xp c) (k : Fin 8) (j : ℕ) (hk : fk (7 - j) = k)
    {hsc : (sl cxM k : Memref sig (Dev.tc n : Thread nD τ).2.kind .vmem S128x256 .bf16).view.ref.isScScratch = false}
    {hsrc : (sl stgM k).view.WordExact} {hdst : (sl cxM k).view.WordExact}
    {hsem : DmaTarget.Typed .vmem (.dma (semAt (fam 1) k)) (.remote (Dev.tc n : Thread nD τ) (sl cxM k) (.dma (semAt (fam 0) k)) hsc)}
    {α : Type} {Q : α → sProp 𝕄} {kont : PUnit → Prog (TpuEff nD τ sig (Elt F) Λ₀ .tc) α} {W : Waits sig Unit} :
    iprop(records m ρ K ∗ A0 m ρ c k ∗ owes (c : Thread nD τ) (oxy c (j + 1)) W)
      ⊢ iprop(((A1 c k ∗ owes (c : Thread nD τ) (oxy c j) W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (sl stgM k) (.remote (Dev.tc n : Thread nD τ) (sl cxM k) (.dma (semAt (fam 0) k)) hsc) (.dma (semAt (fam 1) k)) hsrc hdst hsem) kont) Q) := by
  subst hk
  unfold A0 A1 toksK
  iintro ⟨#HR, ⟨Hpos, ⟨Ht0, Ht1, Ht2, Ht3⟩, Hcx, Hcy, Hstg, ⟨%fdx, Hdx⟩, Hdy⟩, HO⟩ Hk
  iapply (xsend_step m ρ K c n hn (fk (7 - j)) fdx (oxy c j) W) $$ [Hstg Hdx HO Ht0 Ht1]
  · isplitr; · iexact HR
    isplitl [Hstg]; · iexact Hstg
    isplitl [Hdx]; · iexact Hdx
    isplitl [HO]; · iexact HO
    isplitl [Ht0]; · iexact Ht0
    iexact Ht1
  iintro ⟨Hcs, HO⟩
  iapply Hk
  isplitr [HO]
  · isplitl [Hpos]; · iexact Hpos
    isplitl [Ht2]; · iexact Ht2
    isplitl [Ht3]; · iexact Ht3
    isplitl [Hcx]; · iexact Hcx
    isplitl [Hcy]; · iexact Hcy
    isplitl [Hcs]; · iexact Hcs
    iexact Hdy
  · iexact HO

theorem loop2_b (c n : Dev nD) (hn : n = yp c) (k : Fin 8) (j : ℕ) (hk : fk (7 - j) = k)
    {hsrcW : (sl stgM k).view.WordExact} {hdstW : (sl cxM k).view.WordExact}
    {hsc : (sl cyM k : Memref sig (Dev.tc n : Thread nD τ).2.kind .vmem S128x256 .bf16).view.ref.isScScratch = false}
    {hsrc : (sl cxM k).view.WordExact} {hdst : (sl cyM k).view.WordExact}
    {hsem : DmaTarget.Typed .vmem (.dma (semAt (fam 3) k)) (.remote (Dev.tc n : Thread nD τ) (sl cyM k) (.dma (semAt (fam 2) k)) hsc)}
    {hl1 : (xM : Memref sig .tc .vmem S1x1024x1024 .f32).view.LoadsAt (Rect.unit (s := S1x1024x1024) (lx2 k c) S1x128x256.size (lx2_inb k c)).toLoadRect}
    {hl2 : (cxM : Memref sig .tc .vmem S1024x256 .bf16).view.LoadsAt (rowsR k).toLoadRect}
    {hl3 : (oM : Memref sig .tc .vmem S1024x512 .f32).view.LoadsAt (Rect.unit (s := S1024x512) (so2 k c) S128x256.size (so2_inb k c)).toLoadRect}
    {hx : ((oM : Memref sig .tc .vmem S1024x512 .f32).access (Rect.unit (s := S1024x512) (so2 k c) S128x256.size (so2_inb k c))).Stores Finset.univ}
    {hm : Finset.univ = Finset.univ ∨ ∀ a, (Rect.unit (s := S1024x512) (so2 k c) S128x256.size (so2_inb k c)).stride a = 1}
    {α : Type} {Q : α → sProp 𝕄} {kont : PUnit → Prog (TpuEff nD τ sig (Elt F) Λ₀ .tc) α} {W : Waits sig Unit}
    {g : Buf (Elt F) ((oM : Memref sig .tc .vmem S1024x512 .f32).view.loc (c : Thread nD τ))} {Ls : List (View.Piece (Elt F) S1024x512 .f32)} :
    iprop(records m ρ K ∗ levAts L lv ∗ A1 c k ∗ owes (c : Thread nD τ) (oy c (j + 1)) W
        ∗ (((c : Thread nD τ).loc cc0_stg0_0) ↦{fullShare} xstg m ρ c)
        ∗ ((oM : Memref sig .tc .vmem S1024x512 .f32).view.loc (c : Thread nD τ) ↦[Finset.univ]{fullShare} (oM : Memref sig .tc .vmem S1024x512 .f32).view.writes (Elt F) g Ls))
      ⊢ iprop(((A2 m ρ c k ∗ owes (c : Thread nD τ) (oy c j) (insert (SemLoc.dma (semAt (fam 1) k), ()) W)
              ∗ (((c : Thread nD τ).loc cc0_stg0_0) ↦{fullShare} xstg m ρ c)
              ∗ ((oM : Memref sig .tc .vmem S1024x512 .f32).view.loc (c : Thread nD τ) ↦[Finset.univ]{fullShare} (oM : Memref sig .tc .vmem S1024x512 .f32).view.writes (Elt F) g (piece2 m ρ k c :: Ls)))
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (semAt (fam 1) k) (sl stgM k) (sl cxM k) hsrcW hdstW) fun _ =>
               .op (.enqueueDma (sl cxM k) (.remote (Dev.tc n : Thread nD τ) (sl cyM k) (.dma (semAt (fam 2) k)) hsc) (.dma (semAt (fam 3) k)) hsrc hdst hsem) fun _ =>
               .op (.load xM (Rect.unit (s := S1x1024x1024) (lx2 k c) S1x128x256.size (lx2_inb k c)).toLoadRect hl1) fun x =>
               .op (.load cxM (rowsR k).toLoadRect hl2) fun x2 =>
               .op (.load oM (Rect.unit (s := S1024x512) (so2 k c) S128x256.size (so2_inb k c)).toLoadRect hl3) fun _ =>
               .op (.store oM (Rect.unit (s := S1024x512) (so2 k c) S128x256.size (so2_inb k c)) (k0_pay2 x x2) Finset.univ hx hm) kont) Q) := by
  subst hk
  unfold A1 A2 posK
  iintro ⟨#HR, #Hlev, ⟨⟨Hp0, Hp1, Hp2, Hp3⟩, Ht2, Ht3, Hcx, Hcy, Hcs, ⟨%fdy, Hdy⟩⟩, HO, Hx, Hout⟩ Hk
  iapply (loop2_iter m ρ K c n hn (fk (7 - j)) fdy (oy c j) W g Ls (mayWait_xr c (fk (7 - j)) (j + 1))) $$ [Hcx Hp1 HO Hdy Ht2 Ht3 Hx Hout]
  · isplitr; · iexact HR
    isplitr; · iexact Hlev
    isplitl [Hcx]; · iexact Hcx
    isplitl [Hp1]; · iexact Hp1
    isplitl [HO]; · iexact HO
    isplitl [Hdy]; · iexact Hdy
    isplitl [Ht2]; · iexact Ht2
    isplitl [Ht3]; · iexact Ht3
    isplitl [Hx]; · iexact Hx
    iexact Hout
  iintro ⟨HO, Hz, Hcys, Hr, Hx, Hout⟩
  iapply Hk
  isplitl [Hp0 Hp2 Hp3 Hcy Hcs Hcys Hz Hr]
  · isplitl [Hp0]; · iexact Hp0
    isplitl [Hp2]; · iexact Hp2
    isplitl [Hp3]; · iexact Hp3
    isplitl [Hcy]; · iexact Hcy
    isplitl [Hcs]; · iexact Hcs
    isplitl [Hcys]; · iexact Hcys
    isplitl [Hz]; · iexact Hz
    iexact Hr
  isplitl [HO]; · iexact HO
  isplitl [Hx]; · iexact Hx
  iexact Hout

theorem loop3_b (c : Dev nD) (k : Fin 8)
    {srcW dstW : Memref sig .tc .vmem S128x256 .bf16} {hsrcW : srcW.view.WordExact} {hdstW : dstW.view.WordExact} (hdN : dstW.view.dmaCredit = N)
    {hl1 : (xM : Memref sig .tc .vmem S1x1024x1024 .f32).view.LoadsAt (Rect.unit (s := S1x1024x1024) (lx3 k c) S1x128x256.size (lx3_inb k c)).toLoadRect}
    {hl2 : (cyM : Memref sig .tc .vmem S1024x256 .bf16).view.LoadsAt (rowsR k).toLoadRect}
    {hl3 : (oM : Memref sig .tc .vmem S1024x512 .f32).view.LoadsAt (Rect.unit (s := S1024x512) (so3 k c) S128x256.size (so3_inb k c)).toLoadRect}
    {hx : ((oM : Memref sig .tc .vmem S1024x512 .f32).access (Rect.unit (s := S1024x512) (so3 k c) S128x256.size (so3_inb k c))).Stores Finset.univ}
    {hm : Finset.univ = Finset.univ ∨ ∀ a, (Rect.unit (s := S1024x512) (so3 k c) S128x256.size (so3_inb k c)).stride a = 1}
    {α : Type} {Q : α → sProp 𝕄} {kont : PUnit → Prog (TpuEff nD τ sig (Elt F) Λ₀ .tc) α} {W : Waits sig Unit}
    {g : Buf (Elt F) ((oM : Memref sig .tc .vmem S1024x512 .f32).view.loc (c : Thread nD τ))} {Ls : List (View.Piece (Elt F) S1024x512 .f32)} :
    iprop(records m ρ K ∗ levAts L lv ∗ A2 m ρ c k ∗ owes (c : Thread nD τ) 0 W
        ∗ (((c : Thread nD τ).loc cc0_stg0_0) ↦{fullShare} xstg m ρ c)
        ∗ ((oM : Memref sig .tc .vmem S1024x512 .f32).view.loc (c : Thread nD τ) ↦[Finset.univ]{fullShare} (oM : Memref sig .tc .vmem S1024x512 .f32).view.writes (Elt F) g Ls))
      ⊢ iprop(((A3 m ρ c k ∗ owes (c : Thread nD τ) 0 (insert (SemLoc.dma (semAt (fam 3) k), ()) W)
              ∗ (((c : Thread nD τ).loc cc0_stg0_0) ↦{fullShare} xstg m ρ c)
              ∗ ((oM : Memref sig .tc .vmem S1024x512 .f32).view.loc (c : Thread nD τ) ↦[Finset.univ]{fullShare} (oM : Memref sig .tc .vmem S1024x512 .f32).view.writes (Elt F) g (piece3 m ρ k c :: Ls)))
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (semAt (fam 3) k) srcW dstW hsrcW hdstW) fun _ =>
               .op (.load xM (Rect.unit (s := S1x1024x1024) (lx3 k c) S1x128x256.size (lx3_inb k c)).toLoadRect hl1) fun x =>
               .op (.load cyM (rowsR k).toLoadRect hl2) fun x2 =>
               .op (.load oM (Rect.unit (s := S1024x512) (so3 k c) S128x256.size (so3_inb k c)).toLoadRect hl3) fun _ =>
               .op (.store oM (Rect.unit (s := S1024x512) (so3 k c) S128x256.size (so3_inb k c)) (k0_pay2 x x2) Finset.univ hx hm) kont) Q) := by
  unfold A2 A3
  iintro ⟨#HR, #Hlev, ⟨Hp0, Hp2, Hp3, Hcy, Hcs, Hcys, Hz1, Hr⟩, HO, Hx, Hout⟩ Hk
  iapply (loop3_iter m ρ K c k (srcW := srcW) (dstW := dstW) hdN W g Ls) $$ [Hcy Hp3 HO Hx Hout]
  · isplitr; · iexact HR
    isplitr; · iexact Hlev
    isplitl [Hcy]; · iexact Hcy
    isplitl [Hp3]; · iexact Hp3
    isplitl [HO]; · iexact HO
    isplitl [Hx]; · iexact Hx
    iexact Hout
  iintro ⟨HO, Hz3, Hy, Hx, Hout⟩
  iapply Hk
  isplitl [Hp0 Hp2 Hcs Hcys Hz1 Hz3 Hr Hy]
  · isplitl [Hp0]; · iexact Hp0
    isplitl [Hp2]; · iexact Hp2
    isplitl [Hcs]; · iexact Hcs
    isplitl [Hcys]; · iexact Hcys
    isplitl [Hz1]; · iexact Hz1
    isplitl [Hz3]; · iexact Hz3
    isplitl [Hr]; · iexact Hr
    iexact Hy
  isplitl [HO]; · iexact HO
  isplitl [Hx]; · iexact Hx
  iexact Hout

theorem sendwait_b (c : Dev nD) (k : Fin 8)
    {src1 dst1 src2 dst2 : Memref sig .tc .vmem S128x256 .bf16} {hs1 : src1.view.WordExact} {hd1 : dst1.view.WordExact}
    {hs2 : src2.view.WordExact} {hd2 : dst2.view.WordExact} (hN1 : dst1.view.dmaCredit = N) (hN2 : dst2.view.dmaCredit = N)
    {α : Type} {Q : α → sProp 𝕄} {kont : PUnit → Prog (TpuEff nD τ sig (Elt F) Λ₀ .tc) α} {W : Waits sig Unit} :
    iprop(records m ρ K ∗ levAts L lv ∗ A3 m ρ c k ∗ owes (c : Thread nD τ) 0 W)
      ⊢ iprop(((A4 m ρ c k ∗ owes (c : Thread nD τ) 0 (insert (SemLoc.dma (semAt (fam 2) k), ()) (insert (SemLoc.dma (semAt (fam 0) k), ()) W)))
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (semAt (fam 0) k) src1 dst1 hs1 hd1) fun _ => .op (.waitDma2 (semAt (fam 2) k) src2 dst2 hs2 hd2) kont) Q) := by
  unfold A3 A4
  iintro ⟨#HR, #Hlev, ⟨Hp0, Hp2, Hcs, Hcys, Hz1, Hz3, Hr, Hy⟩, HO⟩ Hk
  iapply (sendwait_iter m ρ K c k (src1 := src1) (dst1 := dst1) (src2 := src2) (dst2 := dst2) hN1 hN2 W) $$ [Hcs Hp0 Hcys Hp2 HO]
  · isplitr; · iexact HR
    isplitr; · iexact Hlev
    isplitl [Hcs]; · iexact Hcs
    isplitl [Hp0]; · iexact Hp0
    isplitl [Hcys]; · iexact Hcys
    isplitl [Hp2]; · iexact Hp2
    iexact HO
  iintro ⟨HO, Hz0, Hz2, Hs, Hl⟩
  ihave Hcx := (pointsTo_share (PosShare.mem_left_op_right fullShare)).2 $$ [Hl Hr]
  · isplitl [Hl]; · iexact Hl
    iexact Hr
  iapply Hk
  isplitr [HO]
  · isplitl [Hz0]; · iexact Hz0
    isplitl [Hz1]; · iexact Hz1
    isplitl [Hz2]; · iexact Hz2
    isplitl [Hz3]; · iexact Hz3
    isplitl [Hs]; · iexact Hs
    isplitl [Hcx]; · iexact Hcx
    iexact Hy
  · iexact HO

end Cert.KernelIdealProof

end
-- ==== Proof.Regroup.lean ====
import proofs.«900287_g7700000000000288_dist_rs_v7x_xy2x2_x_m1024_n512_f32_1_alg».proof.Proof.Bundle
import proofs.«900287_g7700000000000288_dist_rs_v7x_xy2x2_x_m1024_n512_f32_1_alg».proof.Proof.Chunks

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ UU ℕ

variable (m : (ℓ : Loc nD τ sig) → Buf (Elt F) ℓ) (ρ : Dev nD → PrngReg)

/-- After the handshake the per-family resources regroup chunk by chunk. -/
theorem init_bundles (c : Dev nD) :
    iprop((bigSep Finset.univ fun k : Fin 8 => posK c k) ∗ (bigSep Finset.univ fun k : Fin 8 => toksK c k)
        ∗ (bigSep Finset.univ fun k : Fin 8 => cred (tallyAt (dCell 1 k c) () N))
        ∗ (bigSep Finset.univ fun k : Fin 8 => cred (tallyAt (dCell 3 k c) () N))
        ∗ (((c : Thread nD τ).loc cc0_scratch0) ↦{fullShare} stageVal m ρ c)
        ∗ (∃ f : Buf (Elt F) (((xp c : Dev nD) : Thread nD τ).loc cc0_scratch1), (((xp c : Dev nD) : Thread nD τ).loc cc0_scratch1) ↦{fullShare} f)
        ∗ (∃ f : Buf (Elt F) (((yp c : Dev nD) : Thread nD τ).loc cc0_scratch2), (((yp c : Dev nD) : Thread nD τ).loc cc0_scratch2) ↦{fullShare} f))
      ⊢ (iprop(A0 m ρ c 0 ∗ A0 m ρ c 1 ∗ A0 m ρ c 2 ∗ A0 m ρ c 3 ∗ A0 m ρ c 4 ∗ A0 m ρ c 5 ∗ A0 m ρ c 6 ∗ A0 m ρ c 7) : sProp 𝕄) := by
  have hgoal : (bigSep Finset.univ fun k : Fin 8 => A0 m ρ c k)
      = (iprop(A0 m ρ c 0 ∗ A0 m ρ c 1 ∗ A0 m ρ c 2 ∗ A0 m ρ c 3 ∗ A0 m ρ c 4 ∗ A0 m ρ c 5 ∗ A0 m ρ c 6 ∗ A0 m ρ c 7) : sProp 𝕄) := by
    rw [bigSep_univ_eq_bigSepL [0, 1, 2, 3, 4, 5, 6, 7] fin8_list fin8_nodup]; rfl
  rw [← hgoal]
  unfold A0
  simp only [bigSep_sep']
  -- the staging buffer, cut into its chunks
  have hS : (((c : Thread nD τ).loc cc0_scratch0) ↦{fullShare} stageVal m ρ c : sProp 𝕄)
      ⊢ bigSep Finset.univ fun k : Fin 8 => slPts stgM k c fullShare (stageVal m ρ c) :=
    (split8_stg (F := F) c fullShare (stageVal m ρ c)).1.trans
      (Entails.of_eq (bigSep_univ_eq_bigSepL [0, 1, 2, 3, 4, 5, 6, 7] fin8_list fin8_nodup _).symm)
  -- each peer's landing buffer, cut into its chunks, each chunk at contents of its own
  have hX : ∀ f : Buf (Elt F) (((xp c : Dev nD) : Thread nD τ).loc cc0_scratch1),
      ((((xp c : Dev nD) : Thread nD τ).loc cc0_scratch1) ↦{fullShare} f : sProp 𝕄)
        ⊢ bigSep Finset.univ fun k : Fin 8 => iprop(∃ fd, slPts cxM k (xp c) fullShare fd) := fun f =>
    ((split8_cx (F := F) (xp c) fullShare f).1.trans
      (Entails.of_eq (bigSep_univ_eq_bigSepL [0, 1, 2, 3, 4, 5, 6, 7] fin8_list fin8_nodup _).symm)).trans
      (bigSep_mono fun k _ => (show (slPts cxM k (xp c) fullShare f : sProp 𝕄) ⊢ iprop(∃ fd, slPts cxM k (xp c) fullShare fd) from by
        iintro H; iexists f; iexact H))
  have hY : ∀ f : Buf (Elt F) (((yp c : Dev nD) : Thread nD τ).loc cc0_scratch2),
      ((((yp c : Dev nD) : Thread nD τ).loc cc0_scratch2) ↦{fullShare} f : sProp 𝕄)
        ⊢ bigSep Finset.univ fun k : Fin 8 => iprop(∃ fd, slPts cyM k (yp c) fullShare fd) := fun f =>
    ((split8_cy (F := F) (yp c) fullShare f).1.trans
      (Entails.of_eq (bigSep_univ_eq_bigSepL [0, 1, 2, 3, 4, 5, 6, 7] fin8_list fin8_nodup _).symm)).trans
      (bigSep_mono fun k _ => (show (slPts cyM k (yp c) fullShare f : sProp 𝕄) ⊢ iprop(∃ fd, slPts cyM k (yp c) fullShare fd) from by
        iintro H; iexists f; iexact H))
  iintro ⟨HP, HT, HC, HD, HS, ⟨%fx, HX⟩, ⟨%fy, HY⟩⟩
  isplitl [HP]; · iexact HP
  isplitl [HT]; · iexact HT
  isplitl [HC]; · iexact HC
  isplitl [HD]; · iexact HD
  isplitl [HS]; · iapply hS; iexact HS
  isplitl [HX]
  · iapply (hX fx); iexact HX
  · iapply (hY fy); iexact HY

/-- At the end the chunks rejoin into the three scratch buffers, and the thirty-two cells are closed at zero. -/
theorem final_bundles (c : Dev nD) :
    (iprop(A4 m ρ c 0 ∗ A4 m ρ c 1 ∗ A4 m ρ c 2 ∗ A4 m ρ c 3 ∗ A4 m ρ c 4 ∗ A4 m ρ c 5 ∗ A4 m ρ c 6 ∗ A4 m ρ c 7) : sProp 𝕄) ⊢ Φ₁ c := by
  have hlhs : (bigSep Finset.univ fun k : Fin 8 => A4 m ρ c k)
      = (iprop(A4 m ρ c 0 ∗ A4 m ρ c 1 ∗ A4 m ρ c 2 ∗ A4 m ρ c 3 ∗ A4 m ρ c 4 ∗ A4 m ρ c 5 ∗ A4 m ρ c 6 ∗ A4 m ρ c 7) : sProp 𝕄) := by
    rw [bigSep_univ_eq_bigSepL [0, 1, 2, 3, 4, 5, 6, 7] fin8_list fin8_nodup]; rfl
  rw [← hlhs]
  unfold A4 Φ₁ scratch
  simp only [bigSep_sep']
  -- the thirty-two cells, family by family
  have hsem : (bigSep Finset.univ fun ak : Fin 4 × Fin 8 => (semVal ((c : Thread nD τ), osem ak) 0 : sProp 𝕄))
      = iprop((bigSep Finset.univ fun k : Fin 8 => semVal (dCell 0 k c) 0) ∗ (bigSep Finset.univ fun k : Fin 8 => semVal (dCell 1 k c) 0)
          ∗ (bigSep Finset.univ fun k : Fin 8 => semVal (dCell 2 k c) 0) ∗ (bigSep Finset.univ fun k : Fin 8 => semVal (dCell 3 k c) 0)) := by
    rw [bigSep_univ_prod, bigSep_univ_eq_bigSepL [0, 1, 2, 3] (by decide) (by decide)]; rfl
  rw [hsem]
  -- the three buffers, rebuilt from their chunks
  have hS : (bigSep Finset.univ fun k : Fin 8 => slPts stgM k c fullShare (stageVal m ρ c))
      ⊢ (iprop(∃ f : Buf (Elt F) ((c : Thread nD τ).loc cc0_scratch0), ((c : Thread nD τ).loc cc0_scratch0) ↦{fullShare} f) : sProp 𝕄) :=
    ((Entails.of_eq (bigSep_univ_eq_bigSepL [0, 1, 2, 3, 4, 5, 6, 7] fin8_list fin8_nodup _)).trans
      (split8_stg (F := F) c fullShare (stageVal m ρ c)).2).trans (by iintro H; iexists (stageVal m ρ c); iexact H)
  have hX : (bigSep Finset.univ fun k : Fin 8 => slPts cxM k c fullShare (stageVal m ρ (xp c)))
      ⊢ (iprop(∃ f : Buf (Elt F) ((c : Thread nD τ).loc cc0_scratch1), ((c : Thread nD τ).loc cc0_scratch1) ↦{fullShare} f) : sProp 𝕄) :=
    ((Entails.of_eq (bigSep_univ_eq_bigSepL [0, 1, 2, 3, 4, 5, 6, 7] fin8_list fin8_nodup _)).trans
      (split8_cx (F := F) c fullShare (stageVal m ρ (xp c))).2).trans (by iintro H; iexists (stageVal m ρ (xp c)); iexact H)
  have hY : (bigSep Finset.univ fun k : Fin 8 => slPts cyM k c fullShare (stageVal m ρ (xp (yp c))))
      ⊢ (iprop(∃ f : Buf (Elt F) ((c : Thread nD τ).loc cc0_scratch2), ((c : Thread nD τ).loc cc0_scratch2) ↦{fullShare} f) : sProp 𝕄) :=
    ((Entails.of_eq (bigSep_univ_eq_bigSepL [0, 1, 2, 3, 4, 5, 6, 7] fin8_list fin8_nodup _)).trans
      (split8_cy (F := F) c fullShare (stageVal m ρ (xp (yp c)))).2).trans (by iintro H; iexists (stageVal m ρ (xp (yp c))); iexact H)
  iintro ⟨H0, H1, H2, H3, HS, HX, HY⟩
  isplitl [HS HX HY]
  · isplitl [HS]; · iapply hS; iexact HS
    isplitl [HX]
    · iapply hX; iexact HX
    · iapply hY; iexact HY
  · isplitl [H0]; · iexact H0
    isplitl [H1]; · iexact H1
    isplitl [H2]
    · iexact H2
    · iexact H3

end Cert.KernelIdealProof

end
-- ==== Proof.Body.lean ====
import proofs.«900287_g7700000000000288_dist_rs_v7x_xy2x2_x_m1024_n512_f32_1_alg».proof.Proof.StepsE
import proofs.«900287_g7700000000000288_dist_rs_v7x_xy2x2_x_m1024_n512_f32_1_alg».proof.Proof.Regroup

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ UU ℕ

variable (m : (ℓ : Loc nD τ sig) → Buf (Elt F) ℓ) (ρ : Dev nD → PrngReg)

/-! # The body of one device, step by step -/

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The kernel's `device_id` chains: the first signal and the staged chunks go to the column peer, the second
    signal and the forwarded chunks to the row peer. -/
theorem devx (c : Dev nD) (v : ℕ) (h : v < nD) (hv : v = ((c.val % 2) + 2) - 2 * (c.val / 2)) : (⟨v, h⟩ : Dev nD) = xp c := Fin.ext hv
theorem devy (c : Dev nD) (v : ℕ) (h : v < nD) (hv : v = (2 * (c.val / 2) + 1) - (c.val % 2)) : (⟨v, h⟩ : Dev nD) = yp c := Fin.ext hv
theorem dev1_eq (c : Dev nD) : (⟨k0_dev1 c, k0_dev1_lt c⟩ : Dev nD) = xp c := Fin.ext (k0_dev1_eq c)
theorem dev2_eq (c : Dev nD) : (⟨k0_dev2 c, k0_dev2_lt c⟩ : Dev nD) = yp c := Fin.ext (k0_dev2_eq c)

theorem hz2 : (![0, 0] : Fin 2 → Nat) = fun _ => 0 := funext fun a => by fin_cases a <;> rfl
/-- Writing the whole staging buffer leaves what is written. -/
theorem write_stage (f w : (cc0_scratch0 : Ref sig .tc).ty.Contents (Elt F)) :
    ((stgM : Memref sig .tc .vmem S1024x256 .bf16).access (Rect.unit (s := S1024x256) ![0, 0] S1024x256.size inb_S1024x256_S1024x256_0_0) : View sig .tc _ _ _).write (Elt F) f w Finset.univ = w :=
  Memref.write_access_unit_zero_univ (Elt F) cc0_scratch0 hz2 _ f w

theorem barPay_false (c : Dev nD) : (barPay false c : sProp 𝕄)
    = iprop(∃ f : Buf (Elt F) (((xp c : Dev nD) : Thread nD τ).loc cc0_scratch1), (((xp c : Dev nD) : Thread nD τ).loc cc0_scratch1) ↦{fullShare} f) := rfl
theorem barPay_true (c : Dev nD) : (barPay true c : sProp 𝕄)
    = iprop(∃ f : Buf (Elt F) (((yp c : Dev nD) : Thread nD τ).loc cc0_scratch2), (((yp c : Dev nD) : Thread nD τ).loc cc0_scratch2) ↦{fullShare} f) := rfl

theorem credit_stg (k : Fin 8) : (sl stgM k).view.dmaCredit = N := rfl

section Body

variable (K : Dev nD × CK → ℕ)

def bodyPre (c : Dev nD) : sProp 𝕄 :=
  iprop(((ghost m ρ K c ∗ cred (tallyAt (barCell c) () 2)
      ∗ (bigSep Finset.univ fun k : Fin 8 => cred (tallyAt (dCell 1 k c) () N))
      ∗ (bigSep Finset.univ fun k : Fin 8 => cred (tallyAt (dCell 3 k c) () N)) ∗ levAts L lv) ∗ scratch c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (outAt m ρ c))

set_option maxRecDepth 65536 in
set_option maxHeartbeats 4000000 in
/-- The body, from `bodyPre`, one rule per step in program order, to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton, k0_part17_eq_skeleton, k0_part18_eq_skeleton]
  unfold k0_part1_skel k0_part2_skel k0_part3_skel k0_part4_skel k0_part5_skel k0_part6_skel k0_part7_skel k0_part8_skel k0_part9_skel
    k0_part10_skel k0_part11_skel k0_part12_skel k0_part13_skel k0_part14_skel k0_part15_skel k0_part16_skel k0_part17_skel k0_part18_skel
  simp only [semSignalWord, semWaitWord, Prog.lift, Prog.bind_op, Prog.bind_ret, Prog.pure_eq_ret, wp_deviceId]
  unfold bodyPre ghost linear payToks scratch
  iintro ⟨⟨⟨⟨⟨#HR, ⟨HatB, Hpos⟩, HtX, HtY, Htok⟩, HcB, HcX, HcY, #Hlev⟩, ⟨%f0, Hs0⟩, ⟨%f1, Hs1⟩, ⟨%f2, Hs2⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  simp only [dev1_eq c, dev2_eq c]
  -- the quarter for the column peer is read, converted and staged
  iapply (wp_load 𝒱₀ (c : Thread nD τ) none Set.univ (m := xM) (Finset.subset_univ _)) $$ Hx; iintro Hx
  iapply (wp_load 𝒱₀ (c : Thread nD τ) none Set.univ (m := stgM) (Finset.subset_univ _)) $$ Hs0; iintro Hs0
  iapply (wp_store 𝒱₀ (c : Thread nD τ) none Set.univ (m := stgM) (r := Rect.unit (s := S1024x256) ![0, 0] S1024x256.size inb_S1024x256_S1024x256_0_0)
    (Mk := Finset.univ) (Finset.subset_univ _)) $$ Hs0; iintro Hs0
  rw [write_stage]
  -- the handshake: one unit to each peer's barrier cell, handing over the landing buffer that peer will fill
  iapply (Rounds.wp_signal 𝒱₀ ER (rsRd m ρ) (c : Thread nD τ) none (dst := (xp c : Thread nD τ)) (κ := K (xp c, none))
      (d := false) (by rw [duties_bar]; exact Finset.mem_univ _) ((amount_bar m ρ (xp c) false).trans (by decide)) () (O₁ c) rfl)
    $$ [HO HtX Hs1]
  · isplitr; · iapply (inv_at m ρ K (xp c, none)); iexact HR
    isplitl [HO]; · iexact HO
    isplitl [HtX]; · iexact HtX
    isplitl [Hs1]; · rw [payload_bar, barPay_false, xp_xp]; iexists f1; iexact Hs1
    iapply (reached_at m ρ K (xp c, none)); iexact HR
  iintro HO
  unfold O₁
  iapply (Rounds.wp_signal 𝒱₀ ER (rsRd m ρ) (c : Thread nD τ) none (dst := (yp c : Thread nD τ)) (κ := K (yp c, none))
      (d := true) (by rw [duties_bar]; exact Finset.mem_univ _) ((amount_bar m ρ (yp c) true).trans (by decide)) () (oxy c 8) rfl)
    $$ [HO HtY Hs2]
  · isplitr; · iapply (inv_at m ρ K (yp c, none)); iexact HR
    isplitl [HO]; · iexact HO
    isplitl [HtY]; · iexact HtY
    isplitl [Hs2]; · rw [payload_bar, barPay_true, yp_yp]; iexists f2; iexact Hs2
    iapply (reached_at m ρ K (yp c, none)); iexact HR
  iintro HO
  -- the wait for both peers: their landing buffers come with it
  iapply (Rounds.wp_wait_rest_token 𝒱₀ ER (rsRd m ρ) (c : Thread nD τ) none (κ := K (c, none))
      (wpE_semWait_eq 𝒱₀ (c : Thread nD τ) none Set.univ) (Set.mem_univ _) () (O := oxy c 8) (W := W) (R := 0) (m := 0) (T := ∅)
      (by rw [expect_bar]; decide)) $$ [HcB HO HatB]
  · isplitr; · iapply (inv_at m ρ K (c, none)); iexact HR
    isplitl [HcB]; · iexact HcB
    isplitl [HO]; · iexact HO
    isplitr; · iapply (mayWait_bar c); iexact Hlev
    iexact HatB
  iintro ⟨HO, HatB, -, Hpay⟩
  ihave Hp := (Entails.of_eq (rest_bar m ρ c)) $$ Hpay
  rw [barPay_false, barPay_true]
  icases Hp with ⟨Hpx, Hpy⟩
  -- chunk by chunk from here on
  ihave HB := (init_bundles m ρ c) $$ [Hpos Htok HcX HcY Hs0 Hpx Hpy]
  · isplitl [Hpos]; · iexact Hpos
    isplitl [Htok]; · iexact Htok
    isplitl [HcX]; · iexact HcX
    isplitl [HcY]; · iexact HcY
    isplitl [Hs0]; · iexact Hs0
    isplitl [Hpx]; · iexact Hpx
    iexact Hpy
  icases HB with ⟨B0, B1, B2, B3, B4, B5, B6, B7⟩
  -- the eight staged chunks leave for the column peer
  iapply (xsend_b m ρ K c (⟨k0_dev3 c, k0_dev3_lt c⟩ : Dev nD) (Fin.ext (k0_dev3_eq c)) 0 7 rfl) $$ [B0 HO]
  · isplitr; · iexact HR
    isplitl [B0]; · iexact B0
    iexact HO
  iintro ⟨B0, HO⟩
  iapply (xsend_b m ρ K c (⟨k0_dev4 c, k0_dev4_lt c⟩ : Dev nD) (Fin.ext (k0_dev4_eq c)) 1 6 rfl) $$ [B1 HO]
  · isplitr; · iexact HR
    isplitl [B1]; · iexact B1
    iexact HO
  iintro ⟨B1, HO⟩
  iapply (xsend_b m ρ K c (⟨k0_dev5 c, k0_dev5_lt c⟩ : Dev nD) (Fin.ext (k0_dev5_eq c)) 2 5 rfl) $$ [B2 HO]
  · isplitr; · iexact HR
    isplitl [B2]; · iexact B2
    iexact HO
  iintro ⟨B2, HO⟩
  iapply (xsend_b m ρ K c (⟨k0_dev6 c, k0_dev6_lt c⟩ : Dev nD) (Fin.ext (k0_dev6_eq c)) 3 4 rfl) $$ [B3 HO]
  · isplitr; · iexact HR
    isplitl [B3]; · iexact B3
    iexact HO
  iintro ⟨B3, HO⟩
  iapply (xsend_b m ρ K c (⟨k0_dev7 c, k0_dev7_lt c⟩ : Dev nD) (Fin.ext (k0_dev7_eq c)) 4 3 rfl) $$ [B4 HO]
  · isplitr; · iexact HR
    isplitl [B4]; · iexact B4
    iexact HO
  iintro ⟨B4, HO⟩
  iapply (xsend_b m ρ K c (⟨k0_dev8 c, k0_dev8_lt c⟩ : Dev nD) (Fin.ext (k0_dev8_eq c)) 5 2 rfl) $$ [B5 HO]
  · isplitr; · iexact HR
    isplitl [B5]; · iexact B5
    iexact HO
  iintro ⟨B5, HO⟩
  iapply (xsend_b m ρ K c (⟨k0_dev9 c, k0_dev9_lt c⟩ : Dev nD) (Fin.ext (k0_dev9_eq c)) 6 1 rfl) $$ [B6 HO]
  · isplitr; · iexact HR
    isplitl [B6]; · iexact B6
    iexact HO
  iintro ⟨B6, HO⟩
  iapply (xsend_b m ρ K c (⟨k0_dev10 c, k0_dev10_lt c⟩ : Dev nD) (Fin.ext (k0_dev10_eq c)) 7 0 rfl) $$ [B7 HO]
  · isplitr; · iexact HR
    isplitl [B7]; · iexact B7
    iexact HO
  iintro ⟨B7, HO⟩
  -- second loop: each arrival from the column peer is forwarded and added to the own quarter
  iapply (loop2_b m ρ K c (⟨k0_dev11 c, k0_dev11_lt c⟩ : Dev nD) (Fin.ext (k0_dev11_eq c)) 0 7 rfl (g := g1) (Ls := [])) $$ [B0 HO Hx Hout]
  · isplitr; · iexact HR
    isplitr; · iexact Hlev
    isplitl [B0]; · iexact B0
    isplitl [HO]; · iexact HO
    isplitl [Hx]; · iexact Hx
    iexact Hout
  iintro ⟨B0, HO, Hx, Hout⟩
  iapply (loop2_b m ρ K c (⟨k0_dev12 c, k0_dev12_lt c⟩ : Dev nD) (Fin.ext (k0_dev12_eq c)) 1 6 rfl) $$ [B1 HO Hx Hout]
  · isplitr; · iexact HR
    isplitr; · iexact Hlev
    isplitl [B1]; · iexact B1
    isplitl [HO]; · iexact HO
    isplitl [Hx]; · iexact Hx
    iexact Hout
  iintro ⟨B1, HO, Hx, Hout⟩
  iapply (loop2_b m ρ K c (⟨k0_dev13 c, k0_dev13_lt c⟩ : Dev nD) (Fin.ext (k0_dev13_eq c)) 2 5 rfl) $$ [B2 HO Hx Hout]
  · isplitr; · iexact HR
    isplitr; · iexact Hlev
    isplitl [B2]; · iexact B2
    isplitl [HO]; · iexact HO
    isplitl [Hx]; · iexact Hx
    iexact Hout
  iintro ⟨B2, HO, Hx, Hout⟩
  iapply (loop2_b m ρ K c (⟨k0_dev14 c, k0_dev14_lt c⟩ : Dev nD) (Fin.ext (k0_dev14_eq c)) 3 4 rfl) $$ [B3 HO Hx Hout]
  · isplitr; · iexact HR
    isplitr; · iexact Hlev
    isplitl [B3]; · iexact B3
    isplitl [HO]; · iexact HO
    isplitl [Hx]; · iexact Hx
    iexact Hout
  iintro ⟨B3, HO, Hx, Hout⟩
  iapply (loop2_b m ρ K c (⟨k0_dev15 c, k0_dev15_lt c⟩ : Dev nD) (Fin.ext (k0_dev15_eq c)) 4 3 rfl) $$ [B4 HO Hx Hout]
  · isplitr; · iexact HR
    isplitr; · iexact Hlev
    isplitl [B4]; · iexact B4
    isplitl [HO]; · iexact HO
    isplitl [Hx]; · iexact Hx
    iexact Hout
  iintro ⟨B4, HO, Hx, Hout⟩
  iapply (loop2_b m ρ K c (⟨k0_dev16 c, k0_dev16_lt c⟩ : Dev nD) (Fin.ext (k0_dev16_eq c)) 5 2 rfl) $$ [B5 HO Hx Hout]
  · isplitr; · iexact HR
    isplitr; · iexact Hlev
    isplitl [B5]; · iexact B5
    isplitl [HO]; · iexact HO
    isplitl [Hx]; · iexact Hx
    iexact Hout
  iintro ⟨B5, HO, Hx, Hout⟩
  iapply (loop2_b m ρ K c (⟨k0_dev17 c, k0_dev17_lt c⟩ : Dev nD) (Fin.ext (k0_dev17_eq c)) 6 1 rfl) $$ [B6 HO Hx Hout]
  · isplitr; · iexact HR
    isplitr; · iexact Hlev
    isplitl [B6]; · iexact B6
    isplitl [HO]; · iexact HO
    isplitl [Hx]; · iexact Hx
    iexact Hout
  iintro ⟨B6, HO, Hx, Hout⟩
  iapply (loop2_b m ρ K c (⟨k0_dev18 c, k0_dev18_lt c⟩ : Dev nD) (Fin.ext (k0_dev18_eq c)) 7 0 rfl) $$ [B7 HO Hx Hout]
  · isplitr; · iexact HR
    isplitr; · iexact Hlev
    isplitl [B7]; · iexact B7
    isplitl [HO]; · iexact HO
    isplitl [Hx]; · iexact Hx
    iexact Hout
  iintro ⟨B7, HO, Hx, Hout⟩
  -- third loop: each forwarded arrival is added to the other quarter
  iapply (loop3_b m ρ K c 0 (credit_cy 0)) $$ [B0 HO Hx Hout]
  · isplitr; · iexact HR
    isplitr; · iexact Hlev
    isplitl [B0]; · iexact B0
    isplitl [HO]; · iexact HO
    isplitl [Hx]; · iexact Hx
    iexact Hout
  iintro ⟨B0, HO, Hx, Hout⟩
  iapply (loop3_b m ρ K c 1 (credit_cy 1)) $$ [B1 HO Hx Hout]
  · isplitr; · iexact HR
    isplitr; · iexact Hlev
    isplitl [B1]; · iexact B1
    isplitl [HO]; · iexact HO
    isplitl [Hx]; · iexact Hx
    iexact Hout
  iintro ⟨B1, HO, Hx, Hout⟩
  iapply (loop3_b m ρ K c 2 (credit_cy 2)) $$ [B2 HO Hx Hout]
  · isplitr; · iexact HR
    isplitr; · iexact Hlev
    isplitl [B2]; · iexact B2
    isplitl [HO]; · iexact HO
    isplitl [Hx]; · iexact Hx
    iexact Hout
  iintro ⟨B2, HO, Hx, Hout⟩
  iapply (loop3_b m ρ K c 3 (credit_cy 3)) $$ [B3 HO Hx Hout]
  · isplitr; · iexact HR
    isplitr; · iexact Hlev
    isplitl [B3]; · iexact B3
    isplitl [HO]; · iexact HO
    isplitl [Hx]; · iexact Hx
    iexact Hout
  iintro ⟨B3, HO, Hx, Hout⟩
  iapply (loop3_b m ρ K c 4 (credit_cy 4)) $$ [B4 HO Hx Hout]
  · isplitr; · iexact HR
    isplitr; · iexact Hlev
    isplitl [B4]; · iexact B4
    isplitl [HO]; · iexact HO
    isplitl [Hx]; · iexact Hx
    iexact Hout
  iintro ⟨B4, HO, Hx, Hout⟩
  iapply (loop3_b m ρ K c 5 (credit_cy 5)) $$ [B5 HO Hx Hout]
  · isplitr; · iexact HR
    isplitr; · iexact Hlev
    isplitl [B5]; · iexact B5
    isplitl [HO]; · iexact HO
    isplitl [Hx]; · iexact Hx
    iexact Hout
  iintro ⟨B5, HO, Hx, Hout⟩
  iapply (loop3_b m ρ K c 6 (credit_cy 6)) $$ [B6 HO Hx Hout]
  · isplitr; · iexact HR
    isplitr; · iexact Hlev
    isplitl [B6]; · iexact B6
    isplitl [HO]; · iexact HO
    isplitl [Hx]; · iexact Hx
    iexact Hout
  iintro ⟨B6, HO, Hx, Hout⟩
  iapply (loop3_b m ρ K c 7 (credit_cy 7)) $$ [B7 HO Hx Hout]
  · isplitr; · iexact HR
    isplitr; · iexact Hlev
    isplitl [B7]; · iexact B7
    isplitl [HO]; · iexact HO
    isplitl [Hx]; · iexact Hx
    iexact Hout
  iintro ⟨B7, HO, Hx, Hout⟩
  -- the departures are waited, chunk by chunk
  iapply (sendwait_b m ρ K c 0 (credit_stg 0) (credit_cx 0)) $$ [B0 HO]
  · isplitr; · iexact HR
    isplitr; · iexact Hlev
    isplitl [B0]; · iexact B0
    iexact HO
  iintro ⟨B0, HO⟩
  iapply (sendwait_b m ρ K c 1 (credit_stg 1) (credit_cx 1)) $$ [B1 HO]
  · isplitr; · iexact HR
    isplitr; · iexact Hlev
    isplitl [B1]; · iexact B1
    iexact HO
  iintro ⟨B1, HO⟩
  iapply (sendwait_b m ρ K c 2 (credit_stg 2) (credit_cx 2)) $$ [B2 HO]
  · isplitr; · iexact HR
    isplitr; · iexact Hlev
    isplitl [B2]; · iexact B2
    iexact HO
  iintro ⟨B2, HO⟩
  iapply (sendwait_b m ρ K c 3 (credit_stg 3) (credit_cx 3)) $$ [B3 HO]
  · isplitr; · iexact HR
    isplitr; · iexact Hlev
    isplitl [B3]; · iexact B3
    iexact HO
  iintro ⟨B3, HO⟩
  iapply (sendwait_b m ρ K c 4 (credit_stg 4) (credit_cx 4)) $$ [B4 HO]
  · isplitr; · iexact HR
    isplitr; · iexact Hlev
    isplitl [B4]; · iexact B4
    iexact HO
  iintro ⟨B4, HO⟩
  iapply (sendwait_b m ρ K c 5 (credit_stg 5) (credit_cx 5)) $$ [B5 HO]
  · isplitr; · iexact HR
    isplitr; · iexact Hlev
    isplitl [B5]; · iexact B5
    iexact HO
  iintro ⟨B5, HO⟩
  iapply (sendwait_b m ρ K c 6 (credit_stg 6) (credit_cx 6)) $$ [B6 HO]
  · isplitr; · iexact HR
    isplitr; · iexact Hlev
    isplitl [B6]; · iexact B6
    iexact HO
  iintro ⟨B6, HO⟩
  iapply (sendwait_b m ρ K c 7 (credit_stg 7) (credit_cx 7)) $$ [B7 HO]
  · isplitr; · iexact HR
    isplitr; · iexact Hlev
    isplitl [B7]; · iexact B7
    iexact HO
  iintro ⟨B7, HO⟩
  rw [wp_ret]; imodintro
  iapply Hk
  unfold bodyPost Dat.owesAt Pipeline.owesWithin
  rw [show (dats m ρ 0 c).owed t₀.succ = 0 from rfl]
  isplitl [B0 B1 B2 B3 B4 B5 B6 B7]
  · iapply (final_bundles m ρ c)
    isplitl [B0]; · iexact B0
    isplitl [B1]; · iexact B1
    isplitl [B2]; · iexact B2
    isplitl [B3]; · iexact B3
    isplitl [B4]; · iexact B4
    isplitl [B5]; · iexact B5
    isplitl [B6]; · iexact B6
    iexact B7
  isplitl [HO]
  · iexists _
    isplitr
    rotate_left
    · iexact HO
    · ipureintro; exact fun _ _ => Or.inl trivial
  isplitl [Hx]
  · iexists _; isplitr; · (ipureintro; rfl)
    iexact Hx
  iexists _; isplitr; · (ipureintro; exact out_indep m ρ c g1)
  iexact Hout

end Body

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 65536 in
/-- The library's body obligation on core `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      (Memref.whole cc0_scratch2) (Memref.isWhole_whole _) cc0_scratch3 cc0_scratch4 cc0_scratch5 cc0_scratch6) (fun _ => bodyPost m ρ c)
  unfold bodyPre' Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg Hrest]
      · isplitl [Hg]; · iexact Hg
        iexact Hrest
      iexact Hscr
    isplitl [Ho]; · iexact Ho
    isplitl [Hx] <;> iassumption
  · iintro H; iexact H

end Cert.KernelIdealProof

end
-- ==== Proof.Launch.lean ====
import proofs.«900287_g7700000000000288_dist_rs_v7x_xy2x2_x_m1024_n512_f32_1_alg».proof.Proof.Body

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ UU ℕ

variable (m : (ℓ : Loc nD τ sig) → Buf (Elt F) ℓ) (ρ : Dev nD → PrngReg)

/-! ## The layout: own semaphores, cells, tokens -/

/-- Distinct (family, chunk) pairs name distinct transfer semaphores: semaphore `(a, k)` is number `2 + 8 a + k`. -/
theorem osem_injective : Function.Injective (osem : Fin 4 × Fin 8 → SemLoc sig) := by
  rintro ⟨a, k⟩ ⟨a', k'⟩ h
  have h1 : semAt (fam a) k = semAt (fam a') k' := SemLoc.dma.inj h
  have h2 : (semAt (fam a) k).val = (semAt (fam a') k').val := congrArg (fun s : DmaSem sig => s.val) h1
  rw [semAt_val, semAt_val] at h2
  have ha := a.isLt; have hk := k.isLt; have ha' := a'.isLt; have hk' := k'.isLt
  have e1 : a = a' := Fin.ext (by omega)
  have e2 : k = k' := Fin.ext (by omega)
  rw [e1, e2]

/-- The thirty-two transfer semaphores are scoped, distinct, and none is a staging semaphore (those are numbers 0 and 1). -/
theorem ownSemFacts : Pipeline.OwnSemFacts cfg0.spec osem :=
  ⟨by decide, osem_injective, fun ak w s h => by
    have h1 := congrArg (fun l : SemLoc sig => match l with | .dma q => q.val | .reg _ => 0) h
    revert h1; revert ak w s; decide⟩

theorem share_eq (c : Dev nD) (w : Fin cfg0.W) : (dats m ρ 0 c).share w = fullShare := by unfold Dat.share; split <;> rfl

theorem csem_injective : Function.Injective (csem : CK → SemLoc sig) := by
  rintro (_ | ak) (_ | ak') h
  · rfl
  · exact absurd h.symm (dma_ne_bar _)
  · exact absurd h (dma_ne_bar _)
  · exact congrArg some (osem_injective h)

theorem kcell_injective : Function.Injective (kcell : Dev nD × CK → GSem nD τ sig) := by
  rintro ⟨c, o⟩ ⟨c', o'⟩ h
  have h1 : c = c' := by have := congrArg (fun g : GSem nD τ sig => g.1.1) h; exact this
  subst h1
  have h2 : o = o' := csem_injective (congrArg Prod.snd h)
  subst h2; rfl

/-- Every device's thirty-three cells. -/
def rsCells : Finset (GSem nD τ sig) := Finset.univ.map ⟨kcell, kcell_injective⟩

/-- The duties of a device's own cells: both duties of its barrier cell, the one duty of each transfer cell
    (indexed chunk first). -/
abbrev TK : Type := Bool ⊕ (Fin 8 × Fin 4)
abbrev tokOf (cj : Dev nD × TK) : GSem nD τ sig × ℕ × Bool := match cj.2 with
  | .inl d => (barCell cj.1, 0, d)
  | .inr ka => (dCell ka.2 ka.1 cj.1, 0, false)

theorem tokOf_injective : Function.Injective (tokOf : Dev nD × TK → GSem nD τ sig × ℕ × Bool) := by
  rintro ⟨c, j⟩ ⟨c', j'⟩ h
  have h1 : c = c' := by
    have := congrArg (fun x : GSem nD τ sig × ℕ × Bool => x.1.1.1) h
    rcases j with d | ka <;> rcases j' with d' | ka' <;> exact this
  subst h1
  have h2 : j = j' := by
    rcases j with d | ⟨k, a⟩ <;> rcases j' with d' | ⟨k', a'⟩
    · exact congrArg Sum.inl (congrArg (fun x : GSem nD τ sig × ℕ × Bool => x.2.2) h)
    · exact absurd (congrArg (fun x : GSem nD τ sig × ℕ × Bool => x.1.2) h).symm (dma_ne_bar _)
    · exact absurd (congrArg (fun x : GSem nD τ sig × ℕ × Bool => x.1.2) h) (dma_ne_bar _)
    · have h3 : (a, k) = (a', k') := osem_injective (congrArg (fun x : GSem nD τ sig × ℕ × Bool => x.1.2) h)
      rw [(Prod.mk.inj h3).1, (Prod.mk.inj h3).2]
  subst h2; rfl

def rsToks : Finset (GSem nD τ sig × ℕ × Bool) := Finset.univ.map ⟨tokOf, tokOf_injective⟩

/-- The launch element: the pipeline's staging cells, and the protocol's cells with their duty tokens. -/
def u₀ : UU :=
  (initOf (Pipeline.cells cfgs cellOf_inj) (Pipeline.launchToks cfgs cellOf_inj), initOf rsCells rsToks)

/-- The duty tokens of device `c`'s own cells. -/
def toks (c : Dev nD) : sProp 𝕄 :=
  iprop((dutyTok ER (barCell c) 0 false ∗ dutyTok ER (barCell c) 0 true)
    ∗ bigSep Finset.univ fun k : Fin 8 => iprop(dutyTok ER (dCell 0 k c) 0 false ∗ dutyTok ER (dCell 1 k c) 0 false
        ∗ dutyTok ER (dCell 2 k c) 0 false ∗ dutyTok ER (dCell 3 k c) 0 false))

/-- What the launch element deals device `c`: its cells' round states, positions and reached-0 facts, its cells' tokens. -/
def G (c : Dev nD) : sProp 𝕄 :=
  iprop((bigSep Finset.univ fun o : CK => roundState ER (rsRd m ρ) (kcell (c, o)) 0)
    ∗ (bigSep Finset.univ fun o : CK => iprop(atPos ER (kcell (c, o)) 0 ∅ 0 ∗ reached ER (kcell (c, o)) 0)) ∗ toks c)

/-- What the global step makes of it: the ghost state at some names. -/
def G' (c : Dev nD) : sProp 𝕄 := iprop(∃ K, ghost m ρ K c)

theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ
theorem bigSep_bool (Φ : Bool → sProp 𝕄) : bigSep Finset.univ Φ = iprop(Φ false ∗ Φ true) := by
  rw [bigSep_univ_eq_bigSepL [false, true] (by decide) (by decide), bigSepL_cons_cons, bigSepL_singleton]; rfl

/-- All of a device's cells: the barrier cell and the transfer cells. -/
theorem bigSep_CK (Φ : CK → sProp 𝕄) : bigSep Finset.univ Φ = iprop(Φ none ∗ bigSep Finset.univ fun ak : Fin 4 × Fin 8 => Φ (some ak)) := by
  have e : (Finset.univ : Finset CK).erase none = Finset.univ.map Function.Embedding.some := by
    ext x; cases x <;> simp
  rw [bigSep_univ_at Φ none, e, bigSep_map]; rfl

theorem toks_eq (c : Dev nD) :
    (bigSep Finset.univ fun j : TK => (dutyTok ER (tokOf (c, j)).1 (tokOf (c, j)).2.1 (tokOf (c, j)).2.2 : sProp 𝕄)) = toks c := by
  unfold toks
  rw [bigSep_univ_sum, bigSep_bool, bigSep_univ_prod]
  refine congrArg _ (bigSep_congr fun k _ => ?_)
  rw [bigSep_fin4]

theorem fund_rs : BI.own (ER (initOf rsCells rsToks)) ⊢ (|==> bigSep Finset.univ (G m ρ) : sProp 𝕄) := by
  have hX (Φ : GSem nD τ sig → sProp 𝕄) : bigSep rsCells Φ = bigSep Finset.univ fun c : Dev nD => bigSep Finset.univ fun o : CK => Φ (kcell (c, o)) := by
    unfold rsCells; rw [bigSep_map, bigSep_univ_prod]; rfl
  have hT : bigSep rsToks (fun x => (dutyTok ER x.1 x.2.1 x.2.2 : sProp 𝕄)) = bigSep Finset.univ fun c : Dev nD => toks c := by
    unfold rsToks; rw [bigSep_map, bigSep_univ_prod]
    exact bigSep_congr fun c _ => toks_eq c
  iintro HX
  imod (Rounds.fund ER (rsRd m ρ) rsCells rsToks) $$ HX with ⟨Hst, Hr, Hat, Htok⟩
  imodintro
  ihave Hst' := (Entails.of_eq (hX fun g => roundState ER (rsRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at launch, the cells' invariants, the tokens dealt -/

/-- The barrier semaphore is the one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The own semaphores and the barrier semaphore at zero are all thirty-three cells' counters at zero. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun o : CK => semVal (kcell (c, o)) 0 : sProp 𝕄) := by
  rw [unscopedSems0_eq, bigSep_CK]
  unfold Pipeline.ownSems0
  iintro ⟨HS, HB⟩
  isplitl [HB]; · iexact HB
  iexact HS

/-- Counter zero and round state zero make each cell's invariant, under a fresh name. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun o : CK => iprop(∃ κ : ℕ, cellInv ER (rsRd m ρ) κ (kcell (c, o))))
          ∗ (bigSep Finset.univ fun o : CK => iprop(atPos ER (kcell (c, o)) 0 ∅ 0 ∗ reached ER (kcell (c, o)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun o : CK => semVal (kcell (c, o)) 0) ∗ bigSep Finset.univ fun o : CK => roundState ER (rsRd m ρ) (kcell (c, o)) 0)
      ⊢ (|={Set.univ}=> bigSep Finset.univ fun o : CK => iprop(∃ κ : ℕ, cellInv ER (rsRd m ρ) κ (kcell (c, o))) : sProp 𝕄) from by
        rw [← bigSep_sep']
        exact (bigSep_mono fun o _ => (Rounds.body_intro ER (rsRd m ρ) (kcell (c, o))).trans inv_alloc).trans (bigSep_fupd _ _)) $$ [Hv Hst] with Hinv
  · isplitl [Hv] <;> iassumption
  imodintro
  isplitl [Hinv]; · iexact Hinv
  isplitl [Hat]; · iexact Hat
  iexact Htok

/-- The tokens dealt to their payers: a barrier cell's duty `false` to the column peer and duty `true` to the row peer;
    an arrival cell's duty to the peer that sends there; departure cells' duties stay. -/
theorem toks_around : (bigSep Finset.univ fun c : Dev nD => (toks c : sProp 𝕄)) ⊢ bigSep Finset.univ fun c : Dev nD => payToks c := by
  unfold toks payToks
  simp only [bigSep_sep']
  rw [bigSep_univ_equiv xswap (fun c : Dev nD => (dutyTok ER (barCell c) 0 false : sProp 𝕄)),
    bigSep_univ_equiv yswap (fun c : Dev nD => (dutyTok ER (barCell c) 0 true : sProp 𝕄)),
    bigSep_univ_equiv xswap (fun c : Dev nD => (bigSep Finset.univ fun k : Fin 8 => dutyTok ER (dCell 1 k c) 0 false : sProp 𝕄)),
    bigSep_univ_equiv yswap (fun c : Dev nD => (bigSep Finset.univ fun k : Fin 8 => dutyTok ER (dCell 3 k c) 0 false : sProp 𝕄))]
  iintro ⟨⟨HbF, HbT⟩, H0, H1, H2, H3⟩
  isplitl [HbF]; · iexact HbF
  isplitl [HbT]; · iexact HbT
  isplitl [H0]; · iexact H0
  isplitl [H1]; · iexact H1
  isplitl [H2]; · iexact H2
  iexact H3

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × CK → ℕ) (c : Dev nD) : iprop(records m ρ K ∗ linear c) ⊢ G' m ρ c := by
  unfold G' ghost
  iintro H
  iexists K
  iexact H

/-- A device's positions, cell by cell, are its barrier cell's and, chunk by chunk, the four transfer cells'. -/
theorem pos_eq (c : Dev nD) :
    (bigSep Finset.univ fun o : CK => (atPos ER (kcell (c, o)) 0 ∅ 0 : sProp 𝕄))
      = iprop(atPos ER (barCell c) 0 ∅ 0 ∗ bigSep Finset.univ fun k : Fin 8 => posK c k) := by
  rw [bigSep_CK, bigSep_univ_equiv (Equiv.prodComm (Fin 8) (Fin 4)), bigSep_univ_prod]
  refine congrArg _ (bigSep_congr fun k _ => ?_)
  rw [bigSep_fin4]; rfl

/-- All devices' invariants under one choice of names, the reached-0 facts, and each device's positions and the tokens it pays with. -/
theorem regroup :
    (bigSep Finset.univ fun c : Dev nD => iprop((bigSep Finset.univ fun o : CK => iprop(∃ κ : ℕ, cellInv ER (rsRd m ρ) κ (kcell (c, o))))
          ∗ (bigSep Finset.univ fun o : CK => iprop(atPos ER (kcell (c, o)) 0 ∅ 0 ∗ reached ER (kcell (c, o)) 0)) ∗ toks c) : sProp 𝕄)
      ⊢ bigSep Finset.univ (G' m ρ) := by
  rw [bigSep_sep', bigSep_sep', ← bigSep_univ_prod (fun ck : Dev nD × CK => iprop(∃ κ : ℕ, cellInv ER (rsRd m ρ) κ (kcell ck))),
    bigSep_congr (s := Finset.univ) (fun (c : Dev nD) _ => bigSep_sep' Finset.univ (fun o : CK => (atPos ER (kcell (c, o)) 0 ∅ 0 : sProp 𝕄)) (fun o => reached ER (kcell (c, o)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (rsRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun o : CK => (atPos ER (kcell (c, o)) 0 ∅ 0 : sProp 𝕄)) payToks).symm).trans
      (bigSep_mono fun c _ => show _ ⊢ linear c from Entails.of_eq (by unfold linear; rw [pos_eq])))
    isplitl [Hat]; · iexact Hat
    iexact Htk

/-- The global step: every device's own and unscoped semaphores at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- The eight forwarded chunks' dues, last chunk first, are one due per chunk. -/
theorem oy_eq (d : Dev nD) : oy d 8 = ∑ k : Fin 8, tallyAt (dCell 3 k (yp d)) () N := by
  have e : oy d 8 = 0 + tallyAt (dCell 3 7 (yp d)) () N + tallyAt (dCell 3 6 (yp d)) () N + tallyAt (dCell 3 5 (yp d)) () N
      + tallyAt (dCell 3 4 (yp d)) () N + tallyAt (dCell 3 3 (yp d)) () N + tallyAt (dCell 3 2 (yp d)) () N
      + tallyAt (dCell 3 1 (yp d)) () N + tallyAt (dCell 3 0 (yp d)) () N := rfl
  rw [e, Fin.sum_univ_eight, zero_add]; abel

theorem oxy_eq (d : Dev nD) :
    oxy d 8 = (∑ k : Fin 8, tallyAt (dCell 3 k (yp d)) () N) + ∑ k : Fin 8, tallyAt (dCell 1 k (xp d)) () N := by
  have e : oxy d 8 = oy d 8 + tallyAt (dCell 1 7 (xp d)) () N + tallyAt (dCell 1 6 (xp d)) () N + tallyAt (dCell 1 5 (xp d)) () N
      + tallyAt (dCell 1 4 (xp d)) () N + tallyAt (dCell 1 3 (xp d)) () N + tallyAt (dCell 1 2 (xp d)) () N
      + tallyAt (dCell 1 1 (xp d)) () N + tallyAt (dCell 1 0 (xp d)) () N := rfl
  rw [e, oy_eq, Fin.sum_univ_eight (fun k : Fin 8 => (tallyAt (dCell 1 k (xp d)) () N : CellTallies nD τ sig Unit))]; abel

/-- What a device owes at launch: per chunk the arrival at its row peer and at its column peer, and a unit on each peer's barrier cell. -/
theorem O₀_eq : (O₀ : Dev nD → CellTallies nD τ sig Unit) = fun d =>
    (∑ k : Fin 8, tallyAt (dCell 3 k (yp d)) () N) + (∑ k : Fin 8, tallyAt (dCell 1 k (xp d)) () N)
      + tallyAt (barCell (yp d)) () 1 + tallyAt (barCell (xp d)) () 1 :=
  funext fun d => by unfold O₀ O₁; rw [oxy_eq]

theorem cred_two (c : Dev nD) :
    iprop(cred (tallyAt (barCell c) () 1) ∗ cred (tallyAt (barCell c) () 1)) ⊢ (cred (tallyAt (barCell c) () 2) : sProp 𝕄) := by
  rw [show (tallyAt (barCell c) () 2 : CellTallies nD τ sig Unit) = tallyAt (barCell c) () 1 + tallyAt (barCell c) () 1 from
    (tallyAt_add (barCell c) () 1 1).symm]
  exact (cred_add _ _).2

/-- The column peers' dues on the arrival cells of staged chunks come back chunk by chunk; -/
theorem cred_xr (c : Dev nD) :
    (bigSep Finset.univ fun k : Fin 8 => (Pipeline.launchCred (fun d : Dev nD => (tallyAt (dCell 1 k (xp d)) () N : CellTallies nD τ sig Unit)) c : sProp 𝕄))
      ⊢ bigSep Finset.univ fun k : Fin 8 => cred (tallyAt (dCell 1 k c) () N) :=
  bigSep_mono fun k _ => Pipeline.launchCred_tallyAt (SemLoc.dma (semAt (fam 1) k)) xp xp xp_xp xp_xp () N c
/-- the row peers' dues on the arrival cells of forwarded chunks likewise. -/
theorem cred_yr (c : Dev nD) :
    (bigSep Finset.univ fun k : Fin 8 => (Pipeline.launchCred (fun d : Dev nD => (tallyAt (dCell 3 k (yp d)) () N : CellTallies nD τ sig Unit)) c : sProp 𝕄))
      ⊢ bigSep Finset.univ fun k : Fin 8 => cred (tallyAt (dCell 3 k c) () N) :=
  bigSep_mono fun k _ => Pipeline.launchCred_tallyAt (SemLoc.dma (semAt (fam 3) k)) yp yp yp_yp yp_yp () N c

/-- Each peer map being an involution, what the devices owe comes back to each device as the credit of its own barrier
    cell (two units) and of its sixteen arrival cells. -/
theorem creds (c : Dev nD) :
    (Pipeline.launchCred O₀ c : sProp 𝕄) ⊢ iprop(cred (tallyAt (barCell c) () 2)
      ∗ (bigSep Finset.univ fun k : Fin 8 => cred (tallyAt (dCell 1 k c) () N))
      ∗ (bigSep Finset.univ fun k : Fin 8 => cred (tallyAt (dCell 3 k c) () N))) := by
  rw [O₀_eq, Pipeline.launchCred_add, Pipeline.launchCred_add, Pipeline.launchCred_add,
    Pipeline.launchCred_sum Finset.univ (fun (k : Fin 8) (d : Dev nD) => (tallyAt (dCell 3 k (yp d)) () N : CellTallies nD τ sig Unit)) c,
    Pipeline.launchCred_sum Finset.univ (fun (k : Fin 8) (d : Dev nD) => (tallyAt (dCell 1 k (xp d)) () N : CellTallies nD τ sig Unit)) c]
  iintro ⟨⟨⟨H3, H1⟩, HBy⟩, HBx⟩
  ihave Hy := (Pipeline.launchCred_tallyAt (SemLoc.reg barS) yp yp yp_yp yp_yp () 1 c) $$ HBy
  ihave Hx := (Pipeline.launchCred_tallyAt (SemLoc.reg barS) xp xp xp_xp xp_xp () 1 c) $$ HBx
  isplitl [Hy Hx]
  · iapply (cred_two (F := F) c); isplitl [Hy] <;> iassumption
  isplitl [H1]
  · iapply (cred_xr (F := F) c); iexact H1
  · iapply (cred_yr (F := F) c); iexact H3

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H2, H1, H3⟩
  imodintro
  unfold start G'
  isplitl
  · isplitl [HG]; · iexact HG
    isplitl [H2]; · iexact H2
    isplitl [H1]; · iexact H1
    isplitl [H3]; · iexact H3
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq]
  unfold Φ₁ scratch Pipeline.ownSems0
  iintro ⟨Hr, Hz⟩
  isplitr; · iempintro
  isplitl [Hz]; · iexact Hz
  iexact Hr

/-- The pipeline's own waits are on the staging semaphores, below everything a device owes. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- Each windowed array after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- Every weakly fair execution of the four kernels terminates, and every final state has each device's windowed
    arrays at the computed contents. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_rs m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

end Cert.KernelIdealProof

end
-- ==== Proof.Final.lean ====
import proofs.«900287_g7700000000000288_dist_rs_v7x_xy2x2_x_m1024_n512_f32_1_alg».proof.Proof.Launch

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ UU ℕ

variable (m : (ℓ : Loc nD τ sig) → Buf (Elt F) ℓ) (ρ : Dev nD → PrngReg)

/-! # The final arrays, read off the proof data -/

/-- The argument array is an input window's: never written back. -/
theorem finalA_x (c : Dev nD) : finalA m ρ c (0 : Fin 2) = (s₀ m ρ).mem (win0_0.arr.view.loc (c : Thread nD τ)) :=
  (dats m ρ 0 c).arrAt_in (0 : Fin 2) rfl _

/-- The one grid point writes the result window back whole: the result array ends at what the body left in the
    window's staging buffer. -/
theorem finalA_out (c : Dev nD) : finalA m ρ c (1 : Fin 2) = outAt m ρ c := by
  have h := (dats m ρ 0 c).arrAt_succ (1 : Fin 2) t₀
  rw [if_pos (flush0_1 t₀)] at h
  unfold finalA
  refine h.trans ?_
  exact Memref.write_access_unit_zero_univ (Elt F) main_v1 (funext fun a => Nat.zero_mul _) _ _ _

end Cert.KernelIdealProof

end
-- ==== Proof.OutSpec.lean ====
import proofs.«900287_g7700000000000288_dist_rs_v7x_xy2x2_x_m1024_n512_f32_1_alg».proof.Proof.Sched
import Idealize.ShloMosaic.Lib.Pipeline.Value
import Idealize.ShloMosaic.Lib.ValueLayout

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-!
# The result on a device, index by index

Device `c = 2 a + b` ends with, at row `i` and column `j` of its result, the sum of element `(i, 512 a + j)` of its
own block of `x` and the same element of a device of the other mesh row, converted to the narrow format and back: for
the columns of its own quarter (`256 b ≤ j < 256 b + 256`) the chunk its column peer staged, for the other quarter the
chunk the row peer forwarded, which that peer's column peer staged.
-/

/-- Three-coordinate indices are equal when their coordinates are. -/
theorem idx_ext₃ {n : Fin 3 → ℕ} {x y : (a : Fin 3) → Fin (n a)} (h0 : (x 0 : ℕ) = y 0) (h1 : (x 1 : ℕ) = y 1)
    (h2 : (x 2 : ℕ) = y 2) : x = y :=
  funext fun a => Fin.ext <| match a with | ⟨0, _⟩ => h0 | ⟨1, _⟩ => h1 | ⟨2, _⟩ => h2

/-! ## The offsets in closed form, uniformly in the chunk -/

theorem so2_eq : ∀ (k : Fin 8) (c : Dev nD), so2 k c = ![128 * k.val, 256 * (c.val % 2)] := by decide +kernel
theorem so3_eq : ∀ (k : Fin 8) (c : Dev nD), so3 k c = ![128 * k.val, 256 - 256 * (c.val % 2)] := by decide +kernel
theorem lx2_eq : ∀ (k : Fin 8) (c : Dev nD), lx2 k c = ![0, 128 * k.val, 512 * (c.val / 2) + 256 * (c.val % 2)] := by decide +kernel
theorem lx3_eq : ∀ (k : Fin 8) (c : Dev nD), lx3 k c = ![0, 128 * k.val, (512 * (c.val / 2) + 256) - 256 * (c.val % 2)] := by decide +kernel
theorem rowsOff_eq : ∀ k : Fin 8, rowsOff k = ![128 * k.val, 0] := by decide
/-- The quarter the column peer converts starts at this device's own quarter's columns; -/
theorem off1_xp : ∀ c : Dev nD, k0_off1 (xp c) = ![0, 0, 512 * (c.val / 2) + 256 * (c.val % 2)] := by decide +kernel
/-- the one the row peer's column peer converts, at the other quarter's. -/
theorem off1_xp_yp : ∀ c : Dev nD, k0_off1 (xp (yp c)) = ![0, 0, (512 * (c.val / 2) + 256) - 256 * (c.val % 2)] := by decide +kernel

/-! ## Rows and columns -/

/-- Row `i` of chunk `k`. -/
def rowOf (k : Fin 8) (i : Fin 128) : Fin 1024 := ⟨128 * k.val + i.val, by omega⟩
/-- Column `j` of the device's own quarter of its result, and of the other quarter. -/
def ownCol (c : Dev nD) (j : Fin 256) : Fin 512 := ⟨256 * (c.val % 2) + j.val, by omega⟩
def othCol (c : Dev nD) (j : Fin 256) : Fin 512 := ⟨(256 - 256 * (c.val % 2)) + j.val, by omega⟩
/-- The column of a block of `x` that column `j` of the device's result sums. -/
def colx (c : Dev nD) (j : Fin 512) : Fin 1024 := ⟨512 * (c.val / 2) + j.val, by have hc : c.val < 4 := c.isLt; omega⟩
/-- The device whose staged quarter reaches column `j` of the result. -/
def srcDev (c : Dev nD) (j : Fin 512) : Dev nD :=
  if 256 * (c.val % 2) ≤ j.val ∧ j.val < 256 * (c.val % 2) + 256 then xp c else xp (yp c)

theorem srcDev_own (c : Dev nD) (j : Fin 256) : srcDev c (ownCol c j) = xp c :=
  if_pos ⟨Nat.le_add_right _ _, Nat.add_lt_add_left j.isLt _⟩
theorem srcDev_oth (c : Dev nD) (j : Fin 256) : srcDev c (othCol c j) = xp (yp c) :=
  if_neg fun h => by
    have h1 : 256 * (c.val % 2) ≤ (256 - 256 * (c.val % 2)) + j.val := h.1
    have h2 : (256 - 256 * (c.val % 2)) + j.val < 256 * (c.val % 2) + 256 := h.2
    have := j.isLt
    omega

/-- The result on device `c`. -/
def outSpec (c : Dev nD) : S1024x512.Idx → Elt F .f32 := fun y =>
  FloatOps.addf (xstg m ρ c (ix3 (0 : Fin 1) (y 0) (colx c (y 1))))
    (FloatOps.extf .f32 bitsLt_bf16_f32 (FloatOps.truncf .bf16 bitsLt_bf16_f32
      (xstg m ρ (srcDev c (y 1)) (ix3 (0 : Fin 1) (y 0) (colx c (y 1))))))

/-! ## The payloads at an index -/

theorem pay2_apply (v : Vec F S1x128x256 .f32) (w : Vec F S128x256 .bf16) (i : Fin 128) (j : Fin 256) :
    k0_pay2 v w (ix2 i j) = FloatOps.addf (v (ix3 (0 : Fin 1) i j)) (FloatOps.extf .f32 bitsLt_bf16_f32 (w (ix2 i j))) := by
  unfold k0_pay2
  show FloatOps.addf (shapeCast S128x256 v shapeCasts_S1x128x256_S128x256 (ix2 i j)) _ = _
  rw [shapeCast_1ab_ab_apply]
  rfl

theorem pay1_apply (v : Vec F S1x1024x256 .f32) (i : Fin 1024) (j : Fin 256) :
    k0_pay1 v (ix2 i j) = FloatOps.truncf .bf16 bitsLt_bf16_f32 (v (ix3 (0 : Fin 1) i j)) := by
  unfold k0_pay1
  rw [shapeCast_self]
  show FloatOps.truncf .bf16 bitsLt_bf16_f32 (shapeCast S1024x256 v shapeCasts_S1x1024x256_S1024x256 (ix2 i j)) = _
  rw [shapeCast_1ab_ab_apply]

theorem xq2_apply (k : Fin 8) (c : Dev nD) (u : Fin 1) (i : Fin 128) (j : Fin 256) :
    xq2 m ρ k c (ix3 u i j) = xstg m ρ c (ix3 (0 : Fin 1) (rowOf k i) (colx c (ownCol c j))) := by
  unfold xq2
  rw [View.readAt_rect]
  show xstg m ρ c _ = xstg m ρ c _
  refine congrArg _ (idx_ext₃ ?_ ?_ ?_)
  · show lx2 k c 0 + 1 * u.val = 0
    rw [lx2_eq]; show 0 + 1 * u.val = 0; omega
  · show lx2 k c 1 + 1 * i.val = 128 * k.val + i.val
    rw [lx2_eq]; show 128 * k.val + 1 * i.val = _; omega
  · show lx2 k c 2 + 1 * j.val = 512 * (c.val / 2) + (256 * (c.val % 2) + j.val)
    rw [lx2_eq]; show 512 * (c.val / 2) + 256 * (c.val % 2) + 1 * j.val = _; omega

theorem xq3_apply (k : Fin 8) (c : Dev nD) (u : Fin 1) (i : Fin 128) (j : Fin 256) :
    xq3 m ρ k c (ix3 u i j) = xstg m ρ c (ix3 (0 : Fin 1) (rowOf k i) (colx c (othCol c j))) := by
  unfold xq3
  rw [View.readAt_rect]
  show xstg m ρ c _ = xstg m ρ c _
  refine congrArg _ (idx_ext₃ ?_ ?_ ?_)
  · show lx3 k c 0 + 1 * u.val = 0
    rw [lx3_eq]; show 0 + 1 * u.val = 0; omega
  · show lx3 k c 1 + 1 * i.val = 128 * k.val + i.val
    rw [lx3_eq]; show 128 * k.val + 1 * i.val = _; omega
  · show lx3 k c 2 + 1 * j.val = 512 * (c.val / 2) + ((256 - 256 * (c.val % 2)) + j.val)
    rw [lx3_eq]; show (512 * (c.val / 2) + 256) - 256 * (c.val % 2) + 1 * j.val = _; omega

theorem chunk_apply (k : Fin 8) (d : Dev nD) (i : Fin 128) (j : Fin 256) :
    chunk m ρ k d (ix2 i j) = stageVal m ρ d (ix2 (rowOf k i) j) := by
  unfold chunk
  rw [View.readAt_rect]
  show stageVal m ρ d _ = stageVal m ρ d _
  refine congrArg _ (Shape.idx_ext₂ ?_ ?_)
  · show rowsOff k 0 + 1 * i.val = 128 * k.val + i.val
    rw [rowsOff_eq]; show 128 * k.val + 1 * i.val = _; omega
  · show rowsOff k 1 + 1 * j.val = j.val
    rw [rowsOff_eq]; show 0 + 1 * j.val = _; omega

theorem stageVal_apply (d : Dev nD) (i : Fin 1024) (j : Fin 256) :
    stageVal m ρ d (ix2 i j) = FloatOps.truncf .bf16 bitsLt_bf16_f32 (ld1 m ρ d (ix3 (0 : Fin 1) i j)) :=
  pay1_apply _ i j

theorem ld1_xp (c : Dev nD) (u : Fin 1) (i : Fin 1024) (j : Fin 256) :
    ld1 m ρ (xp c) (ix3 u i j) = xstg m ρ (xp c) (ix3 (0 : Fin 1) i (colx c (ownCol c j))) := by
  unfold ld1
  rw [View.readAt_rect]
  show xstg m ρ (xp c) _ = xstg m ρ (xp c) _
  refine congrArg _ (idx_ext₃ ?_ ?_ ?_)
  · show k0_off1 (xp c) 0 + 1 * u.val = 0
    rw [off1_xp]; show 0 + 1 * u.val = 0; omega
  · show k0_off1 (xp c) 1 + 1 * i.val = i.val
    rw [off1_xp]; show 0 + 1 * i.val = _; omega
  · show k0_off1 (xp c) 2 + 1 * j.val = 512 * (c.val / 2) + (256 * (c.val % 2) + j.val)
    rw [off1_xp]; show 512 * (c.val / 2) + 256 * (c.val % 2) + 1 * j.val = _; omega

theorem ld1_xp_yp (c : Dev nD) (u : Fin 1) (i : Fin 1024) (j : Fin 256) :
    ld1 m ρ (xp (yp c)) (ix3 u i j) = xstg m ρ (xp (yp c)) (ix3 (0 : Fin 1) i (colx c (othCol c j))) := by
  unfold ld1
  rw [View.readAt_rect]
  show xstg m ρ (xp (yp c)) _ = xstg m ρ (xp (yp c)) _
  refine congrArg _ (idx_ext₃ ?_ ?_ ?_)
  · show k0_off1 (xp (yp c)) 0 + 1 * u.val = 0
    rw [off1_xp_yp]; show 0 + 1 * u.val = 0; omega
  · show k0_off1 (xp (yp c)) 1 + 1 * i.val = i.val
    rw [off1_xp_yp]; show 0 + 1 * i.val = _; omega
  · show k0_off1 (xp (yp c)) 2 + 1 * j.val = 512 * (c.val / 2) + ((256 - 256 * (c.val % 2)) + j.val)
    rw [off1_xp_yp]; show (512 * (c.val / 2) + 256) - 256 * (c.val % 2) + 1 * j.val = _; omega

/-! ## Every store writes the result's values -/

theorem piece2_spec (k : Fin 8) (c : Dev nD) (x : S128x256.Idx) :
    (piece2 m ρ k c).2 x = outSpec m ρ c ((piece2 m ρ k c).1.emb x) := by
  obtain ⟨i, j, rfl⟩ : ∃ (i : Fin 128) (j : Fin 256), x = ix2 i j := ⟨x 0, x 1, eq_ix2 x⟩
  have e0 : ((piece2 m ρ k c).1.emb (ix2 i j)) 0 = rowOf k i := Fin.ext (by
    show so2 k c 0 + 1 * i.val = 128 * k.val + i.val
    rw [so2_eq]; show 128 * k.val + 1 * i.val = _; omega)
  have e1 : ((piece2 m ρ k c).1.emb (ix2 i j)) 1 = ownCol c j := Fin.ext (by
    show so2 k c 1 + 1 * j.val = 256 * (c.val % 2) + j.val
    rw [so2_eq]; show 256 * (c.val % 2) + 1 * j.val = _; omega)
  show k0_pay2 (xq2 m ρ k c) (chunk m ρ k (xp c)) (ix2 i j) = _
  rw [pay2_apply, xq2_apply, chunk_apply, stageVal_apply, ld1_xp]
  unfold outSpec
  rw [e0, e1, srcDev_own]

theorem piece3_spec (k : Fin 8) (c : Dev nD) (x : S128x256.Idx) :
    (piece3 m ρ k c).2 x = outSpec m ρ c ((piece3 m ρ k c).1.emb x) := by
  obtain ⟨i, j, rfl⟩ : ∃ (i : Fin 128) (j : Fin 256), x = ix2 i j := ⟨x 0, x 1, eq_ix2 x⟩
  have e0 : ((piece3 m ρ k c).1.emb (ix2 i j)) 0 = rowOf k i := Fin.ext (by
    show so3 k c 0 + 1 * i.val = 128 * k.val + i.val
    rw [so3_eq]; show 128 * k.val + 1 * i.val = _; omega)
  have e1 : ((piece3 m ρ k c).1.emb (ix2 i j)) 1 = othCol c j := Fin.ext (by
    show so3 k c 1 + 1 * j.val = (256 - 256 * (c.val % 2)) + j.val
    rw [so3_eq]; show (256 - 256 * (c.val % 2)) + 1 * j.val = _; omega)
  show k0_pay2 (xq3 m ρ k c) (chunk m ρ k (xp (yp c))) (ix2 i j) = _
  rw [pay2_apply, xq3_apply, chunk_apply, stageVal_apply, ld1_xp_yp]
  unfold outSpec
  rw [e0, e1, srcDev_oth]

/-- Each store is one of the sixteen. -/
theorem piece2_mem (k : Fin 8) (c : Dev nD) : piece2 m ρ k c ∈ outL m ρ c := by
  unfold outL
  match k with
  | 0 | 1 | 2 | 3 | 4 | 5 | 6 | 7 => repeat (first | with_reducible exact List.mem_cons_self | apply List.mem_cons_of_mem)
theorem piece3_mem (k : Fin 8) (c : Dev nD) : piece3 m ρ k c ∈ outL m ρ c := by
  unfold outL
  match k with
  | 0 | 1 | 2 | 3 | 4 | 5 | 6 | 7 => repeat (first | with_reducible exact List.mem_cons_self | apply List.mem_cons_of_mem)

/-- The sixteen stores tile the result: row `i` lies in chunk `i / 128`, and a column in the own quarter or in the
    other one. -/
theorem outL_cover (c : Dev nD) (y : S1024x512.Idx) : ∃ p ∈ outL m ρ c, y ∈ p.1.set := by
  have hy0 : (y 0).val < 1024 := (y 0).isLt
  have hy1 : (y 1).val < 512 := (y 1).isLt
  obtain ⟨k, hk⟩ : ∃ k : Fin 8, 128 * k.val ≤ (y 0).val ∧ (y 0).val < 128 * k.val + 128 :=
    ⟨⟨(y 0).val / 128, by omega⟩, by
      show 128 * ((y 0).val / 128) ≤ (y 0).val ∧ (y 0).val < 128 * ((y 0).val / 128) + 128
      omega⟩
  by_cases h : 256 * (c.val % 2) ≤ (y 1).val ∧ (y 1).val < 256 * (c.val % 2) + 256
  · refine ⟨piece2 m ρ k c, piece2_mem m ρ k c, ?_⟩
    show y ∈ (Rect.unit (s := S1024x512) (so2 k c) S128x256.size (so2_inb k c)).set
    rw [Rect.mem_set_unit]
    intro a
    match a with
    | ⟨0, _⟩ =>
      show so2 k c 0 ≤ (y 0).val ∧ (y 0).val < so2 k c 0 + 128
      rw [so2_eq]; exact hk
    | ⟨1, _⟩ =>
      show so2 k c 1 ≤ (y 1).val ∧ (y 1).val < so2 k c 1 + 256
      rw [so2_eq]; exact h
  · refine ⟨piece3 m ρ k c, piece3_mem m ρ k c, ?_⟩
    show y ∈ (Rect.unit (s := S1024x512) (so3 k c) S128x256.size (so3_inb k c)).set
    rw [Rect.mem_set_unit]
    intro a
    match a with
    | ⟨0, _⟩ =>
      show so3 k c 0 ≤ (y 0).val ∧ (y 0).val < so3 k c 0 + 128
      rw [so3_eq]; exact hk
    | ⟨1, _⟩ =>
      show so3 k c 1 ≤ (y 1).val ∧ (y 1).val < so3 k c 1 + 256
      rw [so3_eq]
      show 256 - 256 * (c.val % 2) ≤ (y 1).val ∧ (y 1).val < 256 - 256 * (c.val % 2) + 256
      omega

/-- Every one of the sixteen stores writes the result's values. -/
theorem outL_spec (c : Dev nD) : ∀ p ∈ outL m ρ c, ∀ x : p.1.shape.Idx, p.2 x = outSpec m ρ c (p.1.emb x) := by
  unfold outL
  refine List.forall_mem_cons.mpr ⟨piece3_spec m ρ 7 c, List.forall_mem_cons.mpr ⟨piece3_spec m ρ 6 c,
    List.forall_mem_cons.mpr ⟨piece3_spec m ρ 5 c, List.forall_mem_cons.mpr ⟨piece3_spec m ρ 4 c,
    List.forall_mem_cons.mpr ⟨piece3_spec m ρ 3 c, List.forall_mem_cons.mpr ⟨piece3_spec m ρ 2 c,
    List.forall_mem_cons.mpr ⟨piece3_spec m ρ 1 c, List.forall_mem_cons.mpr ⟨piece3_spec m ρ 0 c,
    List.forall_mem_cons.mpr ⟨piece2_spec m ρ 7 c, List.forall_mem_cons.mpr ⟨piece2_spec m ρ 6 c,
    List.forall_mem_cons.mpr ⟨piece2_spec m ρ 5 c, List.forall_mem_cons.mpr ⟨piece2_spec m ρ 4 c,
    List.forall_mem_cons.mpr ⟨piece2_spec m ρ 3 c, List.forall_mem_cons.mpr ⟨piece2_spec m ρ 2 c,
    List.forall_mem_cons.mpr ⟨piece2_spec m ρ 1 c, List.forall_mem_cons.mpr ⟨piece2_spec m ρ 0 c,
    fun _ h => absurd h List.not_mem_nil⟩⟩⟩⟩⟩⟩⟩⟩⟩⟩⟩⟩⟩⟩⟩⟩

variable [∀ e, Nonempty (Elt F e)]

/-- What the sixteen stores leave is the result, index by index. -/
theorem outAt_eq (c : Dev nD) : outAt m ρ c = outSpec m ρ c := by
  funext y
  have h : (oM : Memref sig .tc .vmem S1024x512 .f32).view.read (Elt F) (outAt m ρ c) y = outSpec m ρ c y := by
    unfold outAt
    exact View.read_writes_apply_of_pieces _ _ _ _ (outL_spec m ρ c) y (outL_cover m ρ c y)
  exact (congrFun (View.read_whole cc0_stg1_0 (outAt m ρ c)) y).symm.trans h

/-- Device `c`'s staged block of `x` is its argument buffer. -/
theorem xstg_eq (c : Dev nD) : xstg m ρ c = m ((c : Thread nD τ).loc main_arg0) :=
  Memref.read_access_unit_zero (Elt F) main_arg0 (funext fun a => Nat.zero_mul _) _ _

/-- info: 'Cert.KernelIdealProof.outAt_eq' depends on axioms: [propext, Classical.choice, Quot.sound] -/
#guard_msgs in #print axioms outAt_eq

end Cert.KernelIdealProof

end
-- ==== Proof.ValueIdeal.lean ====
import proofs.«900287_g7700000000000288_dist_rs_v7x_xy2x2_x_m1024_n512_f32_1_alg».proof.Proof.OutSpec
import proofs.«900287_g7700000000000288_dist_rs_v7x_xy2x2_x_m1024_n512_f32_1_alg».proof.Proof.Gen.ReferenceIdeal.Read

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-!
# The value, at the ideal instance

Floats are extended reals, the format changes are the identity and addition is `+`. Device `c = 2 a + b` holds block
`a` of `x`; its result is columns `512 a …` of the reference's, the sum over both blocks: the own block's element plus
the element a device of the other mesh row staged, which is the other block's.
-/

variable (m : (ℓ : Loc nD τ sig) → Buf (Elt Ideal) ℓ) (ρ : Dev nD → PrngReg)
  (m' : (ℓ : Loc Cert.ReferenceIdeal.nD Cert.ReferenceIdeal.τ Cert.ReferenceIdeal.sig) → Buf (Elt Ideal) ℓ)

/-- The reference's argument: the whole array `x`. -/
abbrev refX : (⟨3, ![2, 1024, 1024]⟩ : Shape).Idx → EReal :=
  m' (((0 : Dev Cert.ReferenceIdeal.nD).tc : Thread Cert.ReferenceIdeal.nD Cert.ReferenceIdeal.τ).loc Cert.ReferenceIdeal.main_arg0)

/-- A device's coordinate on the first mesh axis. -/
theorem mesh_row : ∀ d : Dev nD, Layout.meshLin [2, 2] d.val [0] = d.val / 2 := by decide
/-- Both devices a chunk can come from sit in the other mesh row. -/
theorem xp_row : ∀ c : Dev nD, (xp c).val / 2 = 1 - c.val / 2 := by decide
theorem xp_yp_row : ∀ c : Dev nD, (xp (yp c)).val / 2 = 1 - c.val / 2 := by decide
theorem srcDev_row (c : Dev nD) (j : Fin 512) : (srcDev c j).val / 2 = 1 - c.val / 2 := by
  unfold srcDev; split
  · exact xp_row c
  · exact xp_yp_row c

/-- The mesh row as an index of the first dimension of `x`. -/
def blk (d : Dev nD) : Fin 2 := ⟨d.val / 2, by have hd : d.val < 4 := d.isLt; omega⟩

/-- A device's argument buffer is its mesh row's block of `x`. -/
theorem arg_apply
    (hagree : ∀ c : Dev nD, m ((c.tc : Thread nD τ).loc main_arg0) = Layout.blockN ⟨3, ![1, 1024, 1024]⟩ ⟨3, ![2, 1024, 1024]⟩ (Layout.meshBlock [2, 2] ![[0], [], []] c) (m' (((0 : Dev Cert.ReferenceIdeal.nD).tc : Thread Cert.ReferenceIdeal.nD Cert.ReferenceIdeal.τ).loc Cert.ReferenceIdeal.main_arg0)))
    (d : Dev nD) (i l : Fin 1024) :
    m ((d.tc : Thread nD τ).loc main_arg0) (ix3 (0 : Fin 1) i l) = refX m' (ix3 (blk d) i l) := by
  rw [hagree d, Layout.blockN_apply]
  refine congrArg _ (idx_ext₃ ?_ ?_ ?_)
  · show Layout.meshLin [2, 2] d.val [0] * 1 + 0 = d.val / 2
    rw [mesh_row]; omega
  · show 0 * 1024 + i.val = i.val
    omega
  · show 0 * 1024 + l.val = l.val
    omega

/-- The reference sums the two blocks. -/
theorem ref_apply (i l : Fin 1024) :
    Cert.ReferenceIdeal.Read.val_main_v0 (F := Ideal) (refX m') (ix2 i l)
      = refX m' (ix3 (0 : Fin 2) i l) + refX m' (ix3 (1 : Fin 2) i l) := by
  rw [Cert.ReferenceIdeal.Read.val_main_v0_apply, Cert.ReferenceIdeal.Read.val_main_cst_apply, Ideal.ofBits_def,
    Ideal.ofBits_zero_f32, zero_add, Fin.sum_univ_two]
  have e0 : Cert.ReferenceIdeal.Read.idx_main_v0 (ix2 i l) (0 : Fin 2) = ix3 (0 : Fin 2) i l := idx_ext₃ rfl rfl rfl
  have e1 : Cert.ReferenceIdeal.Read.idx_main_v0 (ix2 i l) (1 : Fin 2) = ix3 (1 : Fin 2) i l := idx_ext₃ rfl rfl rfl
  rw [e0, e1]

/-- The two mesh rows' elements, in either order. -/
theorem sum_rows (f : Fin 2 → EReal) (a b : Fin 2) (h : b.val = 1 - a.val) : f a + f b = f 0 + f 1 := by
  match a, b, h with
  | ⟨0, _⟩, ⟨1, _⟩, _ => rfl
  | ⟨1, _⟩, ⟨0, _⟩, _ => exact add_comm (G := EReal) _ _
  | ⟨0, _⟩, ⟨0, _⟩, h => exact absurd h (show ¬ (0 : ℕ) = 1 - 0 by decide)
  | ⟨1, _⟩, ⟨1, _⟩, h => exact absurd h (show ¬ (1 : ℕ) = 1 - 1 by decide)

variable [∀ e, Nonempty (Elt Ideal e)]

/-- Each device's result is its block of the reference's result. -/
theorem value_ideal
    (hagree : ∀ c : Dev nD, m ((c.tc : Thread nD τ).loc main_arg0) = Layout.blockN ⟨3, ![1, 1024, 1024]⟩ ⟨3, ![2, 1024, 1024]⟩ (Layout.meshBlock [2, 2] ![[0], [], []] c) (m' (((0 : Dev Cert.ReferenceIdeal.nD).tc : Thread Cert.ReferenceIdeal.nD Cert.ReferenceIdeal.τ).loc Cert.ReferenceIdeal.main_arg0)))
    (c : Dev nD) :
    outAt (F := Ideal) m ρ c = Layout.blockN ⟨2, ![1024, 512]⟩ ⟨2, ![1024, 1024]⟩ (Layout.meshBlock [2, 2] ![[], [0]] c)
      (Cert.ReferenceIdeal.Read.val_main_v0 (F := Ideal) (m' (((0 : Dev Cert.ReferenceIdeal.nD).tc : Thread Cert.ReferenceIdeal.nD Cert.ReferenceIdeal.τ).loc Cert.ReferenceIdeal.main_arg0))) := by
  rw [outAt_eq]
  funext y
  obtain ⟨i, j, rfl⟩ : ∃ (i : Fin 1024) (j : Fin 512), y = ix2 i j := ⟨y 0, y 1, eq_ix2 y⟩
  -- the kernel's side: the own block's element plus the staged one, both read off the argument buffers
  have hL : outSpec (F := Ideal) m ρ c (ix2 i j)
      = (show EReal from m ((c.tc : Thread nD τ).loc main_arg0) (ix3 (0 : Fin 1) i (colx c j)))
        + (show EReal from m (((srcDev c j).tc : Thread nD τ).loc main_arg0) (ix3 (0 : Fin 1) i (colx c j))) := by
    show (show EReal from xstg m ρ c (ix3 (0 : Fin 1) i (colx c j)))
      + (show EReal from xstg m ρ (srcDev c j) (ix3 (0 : Fin 1) i (colx c j))) = _
    rw [xstg_eq, xstg_eq]
  -- both are elements of `x`, of the two mesh rows' blocks
  have hM : (show EReal from m ((c.tc : Thread nD τ).loc main_arg0) (ix3 (0 : Fin 1) i (colx c j)))
        + (show EReal from m (((srcDev c j).tc : Thread nD τ).loc main_arg0) (ix3 (0 : Fin 1) i (colx c j)))
      = refX m' (ix3 (0 : Fin 2) i (colx c j)) + refX m' (ix3 (1 : Fin 2) i (colx c j)) := by
    rw [arg_apply m m' hagree c, arg_apply m m' hagree (srcDev c j)]
    exact sum_rows (fun a => refX m' (ix3 a i (colx c j))) (blk c) (blk (srcDev c j)) (srcDev_row c j)
  -- the reference's side: the device's block of the sum over both blocks
  have hR : (Layout.blockN ⟨2, ![1024, 512]⟩ ⟨2, ![1024, 1024]⟩ (Layout.meshBlock [2, 2] ![[], [0]] c)
        (Cert.ReferenceIdeal.Read.val_main_v0 (F := Ideal) (refX m'))) (ix2 i j)
      = refX m' (ix3 (0 : Fin 2) i (colx c j)) + refX m' (ix3 (1 : Fin 2) i (colx c j)) := by
    rw [Layout.blockN_apply]
    refine (congrArg _ (Shape.idx_ext₂ ?_ ?_)).trans (ref_apply m' i (colx c j))
    · show 0 * 1024 + i.val = i.val
      omega
    · show Layout.meshLin [2, 2] c.val [0] * 512 + j.val = 512 * (c.val / 2) + j.val
      rw [mesh_row]; omega
  exact hL.trans (hM.trans hR.symm)

/-- info: 'Cert.KernelIdealProof.value_ideal' depends on axioms: [propext, Classical.choice, Quot.sound] -/
#guard_msgs in #print axioms value_ideal

end Cert.KernelIdealProof

end
-- ==== Proof.Bits.Sched.lean ====
import proofs.«900287_g7700000000000288_dist_rs_v7x_xy2x2_x_m1024_n512_f32_1_alg».proof.Defs
import proofs.«900287_g7700000000000288_dist_rs_v7x_xy2x2_x_m1024_n512_f32_1_alg».proof.Proof.Gen.Kernel
import proofs.«900287_g7700000000000288_dist_rs_v7x_xy2x2_x_m1024_n512_f32_1_alg».proof.Proof.Gen.Kernel.Skeleton
import proofs.«900287_g7700000000000288_dist_rs_v7x_xy2x2_x_m1024_n512_f32_1_alg».proof.Proof.Gen.Kernel.Launch
import proofs.«900287_g7700000000000288_dist_rs_v7x_xy2x2_x_m1024_n512_f32_1_alg».proof.Proof.Gen.Kernel.Points
import Idealize.ShloMosaic.Lib.Pipeline.Launch
import Idealize.ShloMosaic.Lib.Pipeline.Kit
import Idealize.ShloMosaic.Lib.Writes
import Idealize.ShloMosaic.Lib.Tactic

/-!
# The reduce-scatter over the 2 × 2 mesh: peers, cells, contents, the schedule of rounds

Device `c = 2 a + b` sits at mesh position `(a, b)`. Its column peer `xp c = (1 - a, b)` holds the other block of
`x`; its row peer `yp c = (a, 1 - b)` holds the same block. Every device converts the quarter of its block that its
column peer needs into a staging buffer, sends it to the column peer in eight row chunks, forwards each chunk it
receives to its row peer, and adds what arrives (directly, or forwarded) to its own quarter.

Per device the protocol uses the barrier semaphore (one round of two unit duties: one from each peer) and
four families of eight transfer semaphores: departures of the staged chunks, their arrivals, departures of the
forwarded chunks, their arrivals. Each transfer cell has one round of one duty.
-/

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## The peers -/

/-- The column peer: `(a, b) ↦ (1 - a, b)`. -/
def xp (c : Dev nD) : Dev nD := ⟨((c.val % 2) + 2) - 2 * (c.val / 2), by have := c.isLt; revert this; generalize c.val = v; decide +revert⟩
/-- The row peer: `(a, b) ↦ (a, 1 - b)`. -/
def yp (c : Dev nD) : Dev nD := ⟨(2 * (c.val / 2) + 1) - (c.val % 2), by have := c.isLt; revert this; generalize c.val = v; decide +revert⟩

theorem xp_xp (c : Dev nD) : xp (xp c) = c := by revert c; decide
theorem yp_yp (c : Dev nD) : yp (yp c) = c := by revert c; decide
theorem xp_yp (c : Dev nD) : xp (yp c) = yp (xp c) := by revert c; decide
theorem xp_ne_yp (c : Dev nD) : xp c ≠ yp c := by revert c; decide
theorem xp_ne (c : Dev nD) : xp c ≠ c := by revert c; decide
theorem yp_ne (c : Dev nD) : yp c ≠ c := by revert c; decide

def xswap : Dev nD ≃ Dev nD := ⟨xp, xp, xp_xp, xp_xp⟩
def yswap : Dev nD ≃ Dev nD := ⟨yp, yp, yp_yp, yp_yp⟩

/-! ## Row chunks, semaphores, cells -/

/-- The offsets of the eight row chunks (128 rows each) of a 1024 × 256 buffer. -/
abbrev rowsOff : Fin 8 → Fin 2 → Nat
  | 0 => ![0, 0] | 1 => ![128, 0] | 2 => ![256, 0] | 3 => ![384, 0]
  | 4 => ![512, 0] | 5 => ![640, 0] | 6 => ![768, 0] | 7 => ![896, 0]
theorem rows_inb : ∀ (k : Fin 8) a, rowsOff k a + S128x256.size a ≤ S1024x256.size a := by decide
abbrev rowsR (k : Fin 8) : Rect S1024x256 := Rect.unit (s := S1024x256) (rowsOff k) S128x256.size (rows_inb k)
/-- Chunk `k` of a scratch buffer. -/
abbrev sl (M : Memref sig .tc .vmem S1024x256 .bf16) (k : Fin 8) : Memref sig .tc .vmem S128x256 .bf16 :=
  M.slice (rowsR k) (fun _ => rfl)

abbrev semOff : Fin 8 → Fin 1 → Nat
  | 0 => ![0] | 1 => ![1] | 2 => ![2] | 3 => ![3] | 4 => ![4] | 5 => ![5] | 6 => ![6] | 7 => ![7]
theorem sem_inb : ∀ (k : Fin 8) a, semOff k a + S1.size a ≤ S8.size a := by decide
/-- Semaphore `k` of an array of eight. -/
abbrev semAt (A : DmaSems sig S8) (k : Fin 8) : DmaSem sig :=
  ((A.slice (Rect.unit (s := S8) (semOff k) S1.size (sem_inb k))).squeeze S_ squeezes_S1_S_).sem

abbrev xM : Memref sig .tc .vmem S1x1024x1024 .f32 := Memref.whole cc0_stg0_0
abbrev oM : Memref sig .tc .vmem S1024x512 .f32 := Memref.whole cc0_stg1_0
/-- The staging buffer of converted chunks, the landing buffer of the column peer's chunks, the landing buffer
    of the forwarded chunks. -/
abbrev stgM : Memref sig .tc .vmem S1024x256 .bf16 := Memref.whole cc0_scratch0
abbrev cxM : Memref sig .tc .vmem S1024x256 .bf16 := Memref.whole cc0_scratch1
abbrev cyM : Memref sig .tc .vmem S1024x256 .bf16 := Memref.whole cc0_scratch2

/-- The four families of transfer semaphores: staged chunks leaving, arriving; forwarded chunks leaving, arriving. -/
abbrev fam : Fin 4 → DmaSems sig S8
  | 0 => cc0_scratch3 | 1 => cc0_scratch4 | 2 => cc0_scratch5 | 3 => cc0_scratch6

abbrev barS : Sem sig := (SemArray.scalar (sig.barrier 0 rfl) : Sems sig S_).sem
abbrev barCell (c : Dev nD) : GSem nD τ sig := ((c : Thread nD τ), .reg barS)
abbrev dCell (a : Fin 4) (k : Fin 8) (c : Dev nD) : GSem nD τ sig := ((c : Thread nD τ), .dma (semAt (fam a) k))

theorem semAt_val (a : Fin 4) (k : Fin 8) : (semAt (fam a) k).val = 2 + 8 * a.val + k.val := by
  revert a k; decide

/-- The kernel's own (scoped) semaphores, as the launch theorem indexes them. -/
abbrev osem : Fin 4 × Fin 8 → SemLoc sig := fun ak => .dma (semAt (fam ak.1) ak.2)
/-- All the protocol's cells of a device: the barrier (`none`) and the thirty-two transfer cells. -/
abbrev csem : Option (Fin 4 × Fin 8) → SemLoc sig
  | none => .reg barS
  | some ak => osem ak
abbrev kcell (ck : Dev nD × Option (Fin 4 × Fin 8)) : GSem nD τ sig := ((ck.1 : Thread nD τ), csem ck.2)

/-- The credit of one chunk's transfer. -/
abbrev N : ℕ := (sl cxM 0).view.dmaCredit
theorem N_pos : 0 < N := View.dmaCredit_pos _ (by decide)

/-! ## Contents -/

/-- Device `c`'s block of `x`, as the pipeline stages it. -/
def xstg (c : Dev nD) : (cc0_stg0_0 : Ref sig .tc).ty.Contents (Elt F) :=
  (win0_0.blk (0 : Fin 1)).view.read (Elt F) ((s₀ m ρ).mem ((c : Thread nD τ).loc main_arg0))

/-- The quarter of its block a device converts for its column peer: columns `512 (1 - a) + 256 b` onwards. -/
def ld1 (c : Dev nD) : Vec F S1x1024x256 .f32 :=
  (xM : Memref sig .tc .vmem S1x1024x1024 .f32).view.readAt (Elt F)
    (Rect.unit (s := S1x1024x1024) (k0_off1 c) S1x1024x256.size (k0_off1_inb c)).toLoadRect (xstg m ρ c)

/-- What device `c` stages: that quarter, converted. -/
def stageVal (c : Dev nD) : (cc0_scratch0 : Ref sig .tc).ty.Contents (Elt F) := k0_pay1 (ld1 m ρ c)

/-- Chunk `k` of buffer `M` on device `c`, held at share `q` with contents `f`. -/
abbrev slPts (M : Memref sig .tc .vmem S1024x256 .bf16) (k : Fin 8) (c : Dev nD) (q : PosShare TreeShare)
    (f : Buf (Elt F) ((sl M k).view.loc (c : Thread nD τ))) : sProp 𝕄 :=
  (sl M k).view.loc (c : Thread nD τ) ↦[(sl M k).view.set]{q} f

/-! ## The schedule -/

/-- A transfer cell's payload, by family: the staged chunk back; the column peer's chunk landed; the forwarded
    chunk's share back; the row peer's forwarded chunk landed. -/
def dmaPay (a : ℕ) (k : Fin 8) (c : Dev nD) : sProp 𝕄 :=
  if a = 0 then slPts stgM k c fullShare (stageVal m ρ c)
  else if a = 1 then slPts cxM k c fullShare (stageVal m ρ (xp c))
  else if a = 2 then slPts cxM k c fullShare.left (stageVal m ρ (xp c))
  else slPts cyM k c fullShare (stageVal m ρ (xp (yp c)))

/-- The barrier's payloads: the column peer (duty `false`) hands over its landing buffer for staged chunks, the
    row peer (duty `true`) its landing buffer for forwarded chunks. -/
def barPay (d : Bool) (c : Dev nD) : sProp 𝕄 :=
  if d then iprop(∃ f : Buf (Elt F) (((yp c : Dev nD) : Thread nD τ).loc cc0_scratch2), (((yp c : Dev nD) : Thread nD τ).loc cc0_scratch2) ↦{fullShare} f)
  else iprop(∃ f : Buf (Elt F) (((xp c : Dev nD) : Thread nD τ).loc cc0_scratch1), (((xp c : Dev nD) : Thread nD τ).loc cc0_scratch1) ↦{fullShare} f)

def fk (n : ℕ) : Fin 8 := ⟨n % 8, Nat.mod_lt _ (by decide)⟩

abbrev IsBar (g : GSem nD τ sig) : Prop := g.1.2 = .tc ∧ g.2 = .reg barS
abbrev IsXfer (g : GSem nD τ sig) : Prop := g.1.2 = .tc ∧ ∃ s : DmaSem sig, g.2 = .dma s ∧ 2 ≤ s.val

/-- One round: a barrier cell has the two unit duties; a transfer cell the duty `false` of a chunk's credit. -/
def rsRd : Rounds.Schedule (GSem nD τ sig) Bool 𝕄 where
  duties g r := if r = 0 ∧ IsBar g then Finset.univ else if r = 0 ∧ IsXfer g then {false} else ∅
  unitless _ := False
  amount g _ _ := if g.2 = .reg barS then 1 else N
  payload g _ d :=
    match g.2 with
    | .reg _ => barPay d g.1.1
    | .dma s => dmaPay m ρ ((s.val - 2) / 8) (fk (s.val - 2)) g.1.1
  amount_pos g _ _ _ := by
    by_cases h : g.2 = .reg barS
    · rw [if_pos h]; exact Nat.one_pos
    · rw [if_neg h]; exact N_pos

instance rsRd_payload_storable (g : GSem nD τ sig) (r : ℕ) (d : Bool) :
    BI.Storable (upEmb : UEmb _ 𝕄) ((rsRd (F := F) m ρ).payload g r d) := by
  show BI.Storable upEmb (match g.2 with
    | .reg _ => barPay d g.1.1
    | .dma s => dmaPay m ρ ((s.val - 2) / 8) (fk (s.val - 2)) g.1.1)
  unfold barPay dmaPay
  (repeat' split) <;> infer_instance

section Sched
variable (c : Dev nD) (a : Fin 4) (k : Fin 8)

theorem dma_ne_bar (s : DmaSem sig) : (SemLoc.dma s : SemLoc sig) ≠ .reg barS := fun h => by cases h
theorem not_bar_d : ¬ IsBar (dCell a k c) := fun h => dma_ne_bar _ h.2
theorem isXfer_d : IsXfer (dCell a k c) := ⟨rfl, _, rfl, by rw [semAt_val]; omega⟩

theorem duties_bar : (rsRd (F := F) m ρ).duties (barCell c) 0 = Finset.univ := by dsimp only [rsRd]; exact if_pos ⟨rfl, rfl, rfl⟩
theorem duties_d : (rsRd (F := F) m ρ).duties (dCell a k c) 0 = {false} := by
  dsimp only [rsRd]; rw [if_neg (fun h => not_bar_d c a k h.2)]; exact if_pos ⟨rfl, isXfer_d c a k⟩
theorem duties_later (g : GSem nD τ sig) : ∀ r, 1 ≤ r → (rsRd (F := F) m ρ).duties g r = ∅ :=
  fun r hr => by dsimp only [rsRd]; rw [if_neg fun h => by omega, if_neg fun h => by omega]

theorem amount_bar (d : Bool) : (rsRd (F := F) m ρ).amount (barCell c) 0 d = 1 := by dsimp only [rsRd]; exact if_pos rfl
theorem amount_d (d : Bool) : (rsRd (F := F) m ρ).amount (dCell a k c) 0 d = N := by dsimp only [rsRd]; exact if_neg (dma_ne_bar _)

theorem expect_bar : (rsRd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_d : (rsRd (F := F) m ρ).expect (dCell a k c) 0 = N := by
  unfold Schedule.expect Schedule.amountOf; rw [duties_d, Finset.sum_singleton, amount_d]

theorem payload_bar (d : Bool) : (rsRd (F := F) m ρ).payload (barCell c) 0 d = barPay d c := rfl

theorem fk_sem : fk ((semAt (fam a) k).val - 2) = k := by revert a k; decide
theorem fam_sem : ((semAt (fam a) k).val - 2) / 8 = a.val := by revert a k; decide

theorem payload_d (d : Bool) : (rsRd (F := F) m ρ).payload (dCell a k c) 0 d = dmaPay m ρ a.val k c := by
  show dmaPay m ρ (((semAt (fam a) k).val - 2) / 8) (fk ((semAt (fam a) k).val - 2)) c = _
  rw [fk_sem, fam_sem]

theorem payload_xs (d : Bool) : (rsRd (F := F) m ρ).payload (dCell 0 k c) 0 d = slPts stgM k c fullShare (stageVal m ρ c) := by
  rw [payload_d]; rfl
theorem payload_xr (d : Bool) : (rsRd (F := F) m ρ).payload (dCell 1 k c) 0 d = slPts cxM k c fullShare (stageVal m ρ (xp c)) := by
  rw [payload_d]; rfl
theorem payload_ys (d : Bool) : (rsRd (F := F) m ρ).payload (dCell 2 k c) 0 d = slPts cxM k c fullShare.left (stageVal m ρ (xp c)) := by
  rw [payload_d]; rfl
theorem payload_yr (d : Bool) : (rsRd (F := F) m ρ).payload (dCell 3 k c) 0 d = slPts cyM k c fullShare (stageVal m ρ (xp (yp c))) := by
  rw [payload_d]; rfl

/-- The rest of the barrier cell's round, no duty taken: both peers' landing buffers. -/
theorem rest_bar : bigSep ((rsRd (F := F) m ρ).duties (barCell c) 0 \ ∅) (fun d => (rsRd (F := F) m ρ).payload (barCell c) 0 d)
    = iprop(barPay false c ∗ barPay true c) := by
  rw [Finset.sdiff_empty, duties_bar, bigSep_univ_eq_bigSepL [false, true] (by decide) (by decide), bigSepL_cons_cons, bigSepL_singleton,
    payload_bar, payload_bar]
  rfl
theorem rest_d : bigSep ((rsRd (F := F) m ρ).duties (dCell a k c) 0 \ ∅) (fun d => (rsRd (F := F) m ρ).payload (dCell a k c) 0 d)
    = dmaPay m ρ a.val k c := by
  rw [Finset.sdiff_empty, duties_d, bigSep_singleton, payload_d]

end Sched

/-! ## What each core owes at launch; the levels -/

/-- The credit a device owes its row peer's arrival cells for the chunks it has yet to forward: chunk `7 - n` is
    the last summand of `oy c (n + 1)`, so chunk 0 is paid first. -/
def oy (c : Dev nD) : ℕ → CellTallies nD τ sig Unit
  | 0 => 0
  | n + 1 => oy c n + tallyAt (dCell 3 (fk (7 - n)) (yp c)) () N
/-- That, and the credit it owes its column peer's arrival cells for the staged chunks yet to leave. -/
def oxy (c : Dev nD) : ℕ → CellTallies nD τ sig Unit
  | 0 => oy c 8
  | n + 1 => oxy c n + tallyAt (dCell 1 (fk (7 - n)) (xp c)) () N
/-- At launch a device also owes both peers' barrier cells one unit; the column peer's is signalled first. -/
def O₁ (c : Dev nD) : CellTallies nD τ sig Unit := oxy c 8 + tallyAt (barCell (yp c)) () 1
def O₀ (c : Dev nD) : CellTallies nD τ sig Unit := O₁ c + tallyAt (barCell (xp c)) () 1

def L (g : GSem nD τ sig) : Finset Unit := if g.1.2 = .tc then {()} else ∅
/-- Barrier cells at 1, arrival cells of staged chunks at 2, of forwarded chunks at 3, everything else at 0. -/
def lv (g : GSem nD τ sig) (_ : Unit) : ℕ :=
  match g.2 with
  | .reg _ => 1
  | .dma s => if 26 ≤ s.val then 3 else if 10 ≤ s.val ∧ s.val < 18 then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := rfl
theorem lv_xr (c : Dev nD) (k : Fin 8) : lv (dCell 1 k c) () = 2 := by revert c k; decide
theorem lv_yr (c : Dev nD) (k : Fin 8) : lv (dCell 3 k c) () = 3 := by revert c k; decide
theorem lv_xs (c : Dev nD) (k : Fin 8) : lv (dCell 0 k c) () = 0 := by revert c k; decide
theorem lv_ys (c : Dev nD) (k : Fin 8) : lv (dCell 2 k c) () = 0 := by revert c k; decide

theorem oy_pos {c : Dev nD} {n : ℕ} {g : GSem nD τ sig} {u : Unit} (h : 0 < oy c n g u) : ∃ j, g = dCell 3 j (yp c) := by
  induction n with
  | zero => exact absurd h (Nat.lt_irrefl 0)
  | succ n ih =>
    unfold oy at h
    rw [Pi.add_apply, Finsupp.add_apply, tallyAt_apply] at h
    by_cases hg : g = dCell 3 (fk (7 - n)) (yp c) ∧ u = ()
    · exact ⟨_, hg.1⟩
    · rw [if_neg hg, Nat.add_zero] at h; exact ih h

theorem oxy_pos {c : Dev nD} {n : ℕ} {g : GSem nD τ sig} {u : Unit} (h : 0 < oxy c n g u) :
    (∃ j, g = dCell 3 j (yp c)) ∨ ∃ j, g = dCell 1 j (xp c) := by
  induction n with
  | zero => exact .inl (oy_pos h)
  | succ n ih =>
    unfold oxy at h
    rw [Pi.add_apply, Finsupp.add_apply, tallyAt_apply] at h
    by_cases hg : g = dCell 1 (fk (7 - n)) (xp c) ∧ u = ()
    · exact .inr ⟨_, hg.1⟩
    · rw [if_neg hg, Nat.add_zero] at h; exact ih h

theorem O₀_pos {c : Dev nD} {g : GSem nD τ sig} {u : Unit} (h : 0 < O₀ c g u) :
    (∃ j, g = dCell 3 j (yp c)) ∨ (∃ j, g = dCell 1 j (xp c)) ∨ g = barCell (yp c) ∨ g = barCell (xp c) := by
  unfold O₀ O₁ at h
  rw [Pi.add_apply, Finsupp.add_apply, Pi.add_apply, Finsupp.add_apply, tallyAt_apply, tallyAt_apply] at h
  by_cases h1 : g = barCell (xp c) ∧ u = ()
  · exact .inr (.inr (.inr h1.1))
  by_cases h2 : g = barCell (yp c) ∧ u = ()
  · exact .inr (.inr (.inl h2.1))
  rw [if_neg h1, if_neg h2] at h
  have h' : 0 < oxy c 8 g u := h
  rcases oxy_pos h' with h | h
  · exact .inl h
  · exact .inr (.inl h)

/-- A wait of the pipeline's own (on a staging semaphore) is below everything a device owes. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨j, rfl⟩ | ⟨j, rfl⟩ | rfl | rfl <;> exact Finset.mem_singleton_self _)
      (fun p hp => by
        rw [Finset.mem_singleton.mp hp]; show (if 26 ≤ q.val then 3 else if 10 ≤ q.val ∧ q.val < 18 then 2 else 0) ≤ 0
        rw [if_neg (by omega), if_neg (by omega)])
      (fun g u hg => by
        rcases O₀_pos hg with ⟨j, rfl⟩ | ⟨j, rfl⟩ | rfl | rfl
        · rw [lv_yr]; decide
        · rw [lv_xr]; decide
        · rw [lv_bar]; decide
        · rw [lv_bar]; decide)
  · rw [MayWait_zero]; iintro -; iempintro

/-- At its barrier wait a device owes arrival credit only. -/
theorem mayWait_bar (c : Dev nD) :
    (levAts L lv : sProp 𝕄) ⊢ MayWait (c : Thread nD τ) (.reg barS) () (oxy c 8) :=
  MayOwe.of_cut (L := L) (lev := lv) 1 (fun p hp => by rw [Finset.mem_singleton.mp hp, L_tc]; exact Finset.mem_singleton_self _)
    (fun g u hg => by rcases oxy_pos hg with ⟨j, rfl⟩ | ⟨j, rfl⟩ <;> exact Finset.mem_singleton_self _)
    (fun p hp => by rw [Finset.mem_singleton.mp hp]; exact Nat.le_refl _)
    (fun g u hg => by
      rcases oxy_pos hg with ⟨j, rfl⟩ | ⟨j, rfl⟩
      · rw [lv_yr]; decide
      · rw [lv_xr]; decide)

/-- Waiting for a staged chunk's arrival a device owes only arrivals of forwarded chunks. -/
theorem mayWait_xr (c : Dev nD) (k : Fin 8) (n : ℕ) :
    (levAts L lv : sProp 𝕄) ⊢ MayWait (c : Thread nD τ) (.dma (semAt (fam 1) k)) () (oy c n) :=
  MayOwe.of_cut (L := L) (lev := lv) 2 (fun p hp => by rw [Finset.mem_singleton.mp hp, L_tc]; exact Finset.mem_singleton_self _)
    (fun g u hg => by obtain ⟨j, rfl⟩ := oy_pos hg; exact Finset.mem_singleton_self _)
    (fun p hp => by rw [Finset.mem_singleton.mp hp]; exact (lv_xr c k).le)
    (fun g u hg => by obtain ⟨j, rfl⟩ := oy_pos hg; rw [lv_yr]; decide)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The offsets of the loads of `x` and of the stores into the result, chunk by chunk: the second loop (own
    quarter plus the column peer's chunk) and the third (the other quarter plus the forwarded chunk). -/
abbrev lx2 : Fin 8 → Dev nD → Fin 3 → Nat
  | 0 => k0_off2 | 1 => k0_off4 | 2 => k0_off6 | 3 => k0_off8 | 4 => k0_off10 | 5 => k0_off12 | 6 => k0_off14 | 7 => k0_off16
abbrev so2 : Fin 8 → Dev nD → Fin 2 → Nat
  | 0 => k0_off3 | 1 => k0_off5 | 2 => k0_off7 | 3 => k0_off9 | 4 => k0_off11 | 5 => k0_off13 | 6 => k0_off15 | 7 => k0_off17
abbrev lx3 : Fin 8 → Dev nD → Fin 3 → Nat
  | 0 => k0_off18 | 1 => k0_off20 | 2 => k0_off22 | 3 => k0_off24 | 4 => k0_off26 | 5 => k0_off28 | 6 => k0_off30 | 7 => k0_off32
abbrev so3 : Fin 8 → Dev nD → Fin 2 → Nat
  | 0 => k0_off19 | 1 => k0_off21 | 2 => k0_off23 | 3 => k0_off25 | 4 => k0_off27 | 5 => k0_off29 | 6 => k0_off31 | 7 => k0_off33
theorem lx2_inb : ∀ (k : Fin 8) (c : Dev nD) a, lx2 k c a + S1x128x256.size a ≤ S1x1024x1024.size a := by decide +kernel
theorem so2_inb : ∀ (k : Fin 8) (c : Dev nD) a, so2 k c a + S128x256.size a ≤ S1024x512.size a := by decide +kernel
theorem lx3_inb : ∀ (k : Fin 8) (c : Dev nD) a, lx3 k c a + S1x128x256.size a ≤ S1x1024x1024.size a := by decide +kernel
theorem so3_inb : ∀ (k : Fin 8) (c : Dev nD) a, so3 k c a + S128x256.size a ≤ S1024x512.size a := by decide +kernel

/-- Rows `128 k …` of a quarter of the device's own block of `x`. -/
def xq2 (k : Fin 8) (c : Dev nD) : Vec F S1x128x256 .f32 :=
  (xM : Memref sig .tc .vmem S1x1024x1024 .f32).view.readAt (Elt F)
    (Rect.unit (s := S1x1024x1024) (lx2 k c) S1x128x256.size (lx2_inb k c)).toLoadRect (xstg m ρ c)
def xq3 (k : Fin 8) (c : Dev nD) : Vec F S1x128x256 .f32 :=
  (xM : Memref sig .tc .vmem S1x1024x1024 .f32).view.readAt (Elt F)
    (Rect.unit (s := S1x1024x1024) (lx3 k c) S1x128x256.size (lx3_inb k c)).toLoadRect (xstg m ρ c)
/-- Chunk `k` of what device `d` staged, as a load through the landing buffer reads it. -/
def chunk (k : Fin 8) (d : Dev nD) : Vec F S128x256 .bf16 :=
  (cxM : Memref sig .tc .vmem S1024x256 .bf16).view.readAt (Elt F) (rowsR k).toLoadRect (stageVal m ρ d)

/-- The two families of stores: own quarter plus the column peer's chunk; other quarter plus the chunk the row peer
    forwarded (which its column peer staged). -/
def piece2 (k : Fin 8) (c : Dev nD) : View.Piece (Elt F) S1024x512 .f32 :=
  ⟨Rect.unit (s := S1024x512) (so2 k c) S128x256.size (so2_inb k c), k0_pay2 (xq2 m ρ k c) (chunk m ρ k (xp c))⟩
def piece3 (k : Fin 8) (c : Dev nD) : View.Piece (Elt F) S1024x512 .f32 :=
  ⟨Rect.unit (s := S1024x512) (so3 k c) S128x256.size (so3_inb k c), k0_pay2 (xq3 m ρ k c) (chunk m ρ k (xp (yp c)))⟩

/-- The sixteen stores, last first. -/
def outL (c : Dev nD) : List (View.Piece (Elt F) S1024x512 .f32) :=
  [piece3 m ρ 7 c, piece3 m ρ 6 c, piece3 m ρ 5 c, piece3 m ρ 4 c, piece3 m ρ 3 c, piece3 m ρ 2 c, piece3 m ρ 1 c, piece3 m ρ 0 c,
   piece2 m ρ 7 c, piece2 m ρ 6 c, piece2 m ρ 5 c, piece2 m ρ 4 c, piece2 m ρ 3 c, piece2 m ρ 2 c, piece2 m ρ 1 c, piece2 m ρ 0 c]

/-- The kernel's result on device `c`: what the sixteen stores leave (they cover the buffer, so the contents they
    were written over do not matter). -/
def outAt [∀ e, Nonempty (Elt F e)] (c : Dev nD) : (cc0_stg1_0 : Ref sig .tc).ty.Contents (Elt F) :=
  (oM : Memref sig .tc .vmem S1024x512 .f32).view.writes (Elt F) (fun _ => Classical.arbitrary _) (outL m ρ c)

/-! ## Ghost state, the invariant before and after the point -/

abbrev CK : Type := Option (Fin 4 × Fin 8)

/-- Every cell's invariant under the name the launch allocated it at, and round 0 of every cell reached. -/
def records (K : Dev nD × CK → ℕ) : sProp 𝕄 :=
  iprop((bigSep Finset.univ fun ck : Dev nD × CK => cellInv ER (rsRd m ρ) (K ck) (kcell ck))
    ∗ bigSep Finset.univ fun ck : Dev nD × CK => reached ER (kcell ck) 0)

instance records_persistent (K : Dev nD × CK → ℕ) : BI.Persistent (records m ρ K) := by unfold records; infer_instance

theorem inv_at (K : Dev nD × CK → ℕ) (ck : Dev nD × CK) : records m ρ K ⊢ cellInv ER (rsRd m ρ) (K ck) (kcell ck) := by
  unfold records; iintro ⟨HI, -⟩
  iapply (show (bigSep Finset.univ fun ck : Dev nD × CK => (cellInv ER (rsRd m ρ) (K ck) (kcell ck) : sProp 𝕄)) ⊢ cellInv ER (rsRd m ρ) (K ck) (kcell ck) from bigSep_elim (Finset.mem_univ ck))
  iexact HI
theorem reached_at (K : Dev nD × CK → ℕ) (ck : Dev nD × CK) : records m ρ K ⊢ reached ER (kcell ck) 0 := by
  unfold records; iintro ⟨-, HR⟩
  iapply (show (bigSep Finset.univ fun ck : Dev nD × CK => (reached ER (kcell ck) 0 : sProp 𝕄)) ⊢ reached ER (kcell ck) 0 from bigSep_elim (Finset.mem_univ ck))
  iexact HR

/-- The tokens of the duties a device pays: one on each peer's barrier; per chunk, the departure of its staged
    chunk, its arrival at the column peer, the departure of the forwarded chunk, its arrival at the row peer. -/
def payToks (c : Dev nD) : sProp 𝕄 :=
  iprop(dutyTok ER (barCell (xp c)) 0 false ∗ dutyTok ER (barCell (yp c)) 0 true
    ∗ bigSep Finset.univ fun k : Fin 8 => iprop(dutyTok ER (dCell 0 k c) 0 false ∗ dutyTok ER (dCell 1 k (xp c)) 0 false
        ∗ dutyTok ER (dCell 2 k c) 0 false ∗ dutyTok ER (dCell 3 k (yp c)) 0 false))

/-- A device's positions at round 0 of the four transfer cells of chunk `k`. -/
def posK (c : Dev nD) (k : Fin 8) : sProp 𝕄 :=
  iprop(atPos ER (dCell 0 k c) 0 ∅ 0 ∗ atPos ER (dCell 1 k c) 0 ∅ 0 ∗ atPos ER (dCell 2 k c) 0 ∅ 0 ∗ atPos ER (dCell 3 k c) 0 ∅ 0)

/-- A device's positions at round 0 of its thirty-three cells, and the tokens it pays with. -/
def linear (c : Dev nD) : sProp 𝕄 :=
  iprop((atPos ER (barCell c) 0 ∅ 0 ∗ bigSep Finset.univ fun k : Fin 8 => posK c k) ∗ payToks c)

def ghost (K : Dev nD × CK → ℕ) (c : Dev nD) : sProp 𝕄 := iprop(records m ρ K ∗ linear c)

/-- What device `c`'s body starts from: the ghost state at some names, the credit other devices owe its barrier
    and arrival cells, and the level facts. -/
def start (c : Dev nD) : sProp 𝕄 :=
  iprop((∃ K, ghost m ρ K c) ∗ cred (tallyAt (barCell c) () 2)
    ∗ (bigSep Finset.univ fun k : Fin 8 => cred (tallyAt (dCell 1 k c) () N))
    ∗ (bigSep Finset.univ fun k : Fin 8 => cred (tallyAt (dCell 3 k c) () N)) ∗ levAts L lv)

/-- The three scratch buffers, each whole at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

def Φ₀ (c : Dev nD) : sProp 𝕄 := iprop(start m ρ c ∗ scratch c)
/-- After the point: the scratch buffers back, the thirty-two own cells at zero, closed. -/
def Φ₁ (c : Dev nD) : sProp 𝕄 := iprop(scratch c ∗ bigSep Finset.univ fun ak : Fin 4 × Fin 8 => semVal ((c : Thread nD τ), osem ak) 0)

variable [∀ e, Nonempty (Elt F e)]

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

end Cert.KernelProof
end
-- ==== Proof.Bits.Bundle.lean ====
import proofs.«900287_g7700000000000288_dist_rs_v7x_xy2x2_x_m1024_n512_f32_1_alg».proof.Proof.Bits.Sched

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ UU ℕ

variable (m : (ℓ : Loc nD τ sig) → Buf (Elt F) ℓ) (ρ : Dev nD → PrngReg)

/-! # What a device holds for chunk `k` at each stage of the protocol -/

/-- The four duty tokens a device pays with for chunk `k`. -/
def toksK (c : Dev nD) (k : Fin 8) : sProp 𝕄 :=
  iprop(dutyTok ER (dCell 0 k c) 0 false ∗ dutyTok ER (dCell 1 k (xp c)) 0 false ∗ dutyTok ER (dCell 2 k c) 0 false ∗ dutyTok ER (dCell 3 k (yp c)) 0 false)

/-- After the handshake: positions, tokens, the arrival credit, the staged chunk, both peers' landing chunks. -/
def A0 (c : Dev nD) (k : Fin 8) : sProp 𝕄 :=
  iprop(posK c k ∗ toksK c k ∗ cred (tallyAt (dCell 1 k c) () N) ∗ cred (tallyAt (dCell 3 k c) () N)
    ∗ slPts stgM k c fullShare (stageVal m ρ c)
    ∗ (∃ fd, slPts cxM k (xp c) fullShare fd) ∗ (∃ fd, slPts cyM k (yp c) fullShare fd))

/-- After the staged chunk has left. -/
def A1 (c : Dev nD) (k : Fin 8) : sProp 𝕄 :=
  iprop(posK c k ∗ dutyTok ER (dCell 2 k c) 0 false ∗ dutyTok ER (dCell 3 k (yp c)) 0 false
    ∗ cred (tallyAt (dCell 1 k c) () N) ∗ cred (tallyAt (dCell 3 k c) () N) ∗ cred (tallyAt (dCell 0 k c) () N)
    ∗ (∃ fd, slPts cyM k (yp c) fullShare fd))

/-- After the second loop's trip: the column peer's chunk landed and forwarded, half its share kept. -/
def A2 (c : Dev nD) (k : Fin 8) : sProp 𝕄 :=
  iprop(atPos ER (dCell 0 k c) 0 ∅ 0 ∗ atPos ER (dCell 2 k c) 0 ∅ 0 ∗ atPos ER (dCell 3 k c) 0 ∅ 0
    ∗ cred (tallyAt (dCell 3 k c) () N) ∗ cred (tallyAt (dCell 0 k c) () N) ∗ cred (tallyAt (dCell 2 k c) () N)
    ∗ semVal (dCell 1 k c) 0 ∗ slPts cxM k c fullShare.right (stageVal m ρ (xp c)))

/-- After the third loop's trip: the forwarded chunk landed. -/
def A3 (c : Dev nD) (k : Fin 8) : sProp 𝕄 :=
  iprop(atPos ER (dCell 0 k c) 0 ∅ 0 ∗ atPos ER (dCell 2 k c) 0 ∅ 0
    ∗ cred (tallyAt (dCell 0 k c) () N) ∗ cred (tallyAt (dCell 2 k c) () N)
    ∗ semVal (dCell 1 k c) 0 ∗ semVal (dCell 3 k c) 0
    ∗ slPts cxM k c fullShare.right (stageVal m ρ (xp c)) ∗ slPts cyM k c fullShare (stageVal m ρ (xp (yp c))))

/-- After both departures are waited: the four cells closed, the three chunks whole again. -/
def A4 (c : Dev nD) (k : Fin 8) : sProp 𝕄 :=
  iprop(semVal (dCell 0 k c) 0 ∗ semVal (dCell 1 k c) 0 ∗ semVal (dCell 2 k c) 0 ∗ semVal (dCell 3 k c) 0
    ∗ slPts stgM k c fullShare (stageVal m ρ c) ∗ slPts cxM k c fullShare (stageVal m ρ (xp c))
    ∗ slPts cyM k c fullShare (stageVal m ρ (xp (yp c))))

end Cert.KernelProof

end
-- ==== Proof.Bits.Chunks.lean ====
import proofs.«900287_g7700000000000288_dist_rs_v7x_xy2x2_x_m1024_n512_f32_1_alg».proof.Proof.Bits.Sched
import Idealize.ShloMosaic.Lib.Pipeline.Value
import Idealize.ShloMosaic.Lib.HeldBySlice

/-!
# The scratch buffers by row chunks; the result buffer covered by the sixteen stores

A 1024 × 256 scratch buffer is the disjoint union of its eight chunks of 128 rows. A load of chunk `k` through the
whole buffer reads only that chunk's elements; a transfer of chunk `k` of one buffer into chunk `k` of another
leaves the source's contents on the chunk; the buffer splits into, and is rebuilt from, its eight chunks. The
sixteen rectangles stored into the 1024 × 512 result buffer tile it, so what they leave does not depend on what
was there before.
-/

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ UU ℕ

variable (m : (ℓ : Loc nD τ sig) → Buf (Elt F) ℓ) (ρ : Dev nD → PrngReg)

/-! ## A load of one chunk through the whole buffer -/

theorem rows_within : ∀ k : Fin 8, LoadRect.within (rowsR k) (rowsR k).toLoadRect = true := by decide

/-- The elements a load of chunk `k`'s rectangle through the whole buffer reads are elements of chunk `k`. -/
theorem chunk_load_subset (M : Memref sig .tc .vmem S1024x256 .bf16) (k : Fin 8) :
    M.view.setOn (rowsR k).toLoadRect.set ⊆ (sl M k).view.set :=
  Memref.setOn_subset_slice_of_within M (rowsR k) (fun _ => rfl) (rowsR k).toLoadRect (rows_within k)

/-! ## What a transfer of a chunk lands -/

/-- A transfer of chunk `k` of the staging buffer into chunk `k` of the first landing buffer leaves, on the chunk's
    elements, the source buffer's contents there (the same rectangle on both sides), whatever was there before. -/
theorem landing_xs (k : Fin 8) (c' : Dev nD) (q : PosShare TreeShare)
    (fd : Buf (Elt F) ((sl cxM k).view.loc (c' : Thread nD τ))) (fs : (cc0_scratch0 : Ref sig .tc).ty.Contents (Elt F)) :
    ((sl cxM k).view.loc (c' : Thread nD τ) ↦[(sl cxM k).view.set]{q}
        (sl cxM k).view.write (Elt F) fd ((sl stgM k).view.read (Elt F) fs) Finset.univ : sProp 𝕄)
      = slPts cxM k c' q fs :=
  pointsTo_congr fun i hi => by
    obtain ⟨x, rfl⟩ := View.exists_emb_of_mem_set _ hi
    rw [View.write_emb_of_mem _ _ (Finset.mem_univ _)]
    rfl

/-- The same for a transfer of chunk `k` of the first landing buffer into chunk `k` of the second. -/
theorem landing_ys (k : Fin 8) (c' : Dev nD) (q : PosShare TreeShare)
    (fd : Buf (Elt F) ((sl cyM k).view.loc (c' : Thread nD τ))) (fs : (cc0_scratch0 : Ref sig .tc).ty.Contents (Elt F)) :
    ((sl cyM k).view.loc (c' : Thread nD τ) ↦[(sl cyM k).view.set]{q}
        (sl cyM k).view.write (Elt F) fd ((sl cxM k).view.read (Elt F) fs) Finset.univ : sProp 𝕄)
      = slPts cyM k c' q fs :=
  pointsTo_congr fun i hi => by
    obtain ⟨x, rfl⟩ := View.exists_emb_of_mem_set _ hi
    rw [View.write_emb_of_mem _ _ (Finset.mem_univ _)]
    rfl

/-! ## The eight chunks are pairwise disjoint and cover the buffer -/

theorem rowsOff_zero : ∀ k : Fin 8, rowsOff k 0 = 128 * k.val := by decide
theorem rowsOff_one : ∀ k : Fin 8, rowsOff k 1 = 0 := by decide

theorem rows_disjoint (k k' : Fin 8) (h : k ≠ k') : Disjoint (rowsR k).set (rowsR k').set :=
  Rect.unit_disjoint 0 (by revert k k'; decide)

theorem rows_cover (y : S1024x256.Idx) : ∃ k : Fin 8, y ∈ (rowsR k).set := by
  have h0 : (y 0).val < 1024 := (y 0).isLt
  have h1 : (y 1).val < 256 := (y 1).isLt
  refine ⟨⟨(y 0).val / 128, by omega⟩, Rect.mem_set_unit.mpr (Fin.forall_fin_two.mpr ⟨?_, ?_⟩)⟩
  · rw [rowsOff_zero]
    show 128 * ((y 0).val / 128) ≤ (y 0).val ∧ (y 0).val < 128 * ((y 0).val / 128) + 128
    omega
  · rw [rowsOff_one]
    show 0 ≤ (y 1).val ∧ (y 1).val < 0 + 256
    omega

/-! ## A buffer held whole is its eight parts held one by one -/

theorem fin8_list : (Finset.univ : Finset (Fin 8)) = ([0, 1, 2, 3, 4, 5, 6, 7] : List (Fin 8)).toFinset := by decide
theorem fin8_nodup : ([0, 1, 2, 3, 4, 5, 6, 7] : List (Fin 8)).Nodup := by decide

/-- A family of eight pairwise disjoint element sets that cover a buffer cuts its points-to into eight. -/
theorem split8_of {ℓ : Loc nD τ sig} (K : Fin 8 → Finset (Idx ℓ))
    (hd : ∀ k k', k ≠ k' → Disjoint (K k) (K k')) (hc : ∀ i, ∃ k, i ∈ K k)
    (q : PosShare TreeShare) (f : Buf (Elt F) ℓ) :
    (ℓ ↦{q} f : sProp 𝕄) = bigSepL [0, 1, 2, 3, 4, 5, 6, 7] (fun k : Fin 8 => (ℓ ↦[K k]{q} f : sProp 𝕄)) := by
  have hu : (Finset.univ : Finset (Idx ℓ)) = (Finset.univ : Finset (Fin 8)).biUnion K := by
    ext i
    simp only [Finset.mem_univ, Finset.mem_biUnion, true_and, true_iff]
    exact hc i
  show (ℓ ↦[Finset.univ]{q} f : sProp 𝕄) = _
  rw [hu, pointsTo_biUnion _ K (fun t _ t' _ h => hd t t' h), bigSep_univ_eq_bigSepL [0, 1, 2, 3, 4, 5, 6, 7] fin8_list fin8_nodup]

/-- Pairwise disjoint element sets of a buffer, each held at contents of its own, join to their union held at some
    contents. -/
theorem joinL_any {ℓ : Loc nD τ sig} (K : Fin 8 → Finset (Idx ℓ)) (hd : ∀ k k', k ≠ k' → Disjoint (K k) (K k'))
    (q : PosShare TreeShare) (f₀ : Buf (Elt F) ℓ) :
    ∀ l : List (Fin 8), l.Nodup →
      (bigSepL l (fun k : Fin 8 => (iprop(∃ f : Buf (Elt F) ℓ, ℓ ↦[K k]{q} f) : sProp 𝕄))
        ⊢ (iprop(∃ g : Buf (Elt F) ℓ, ℓ ↦[l.toFinset.biUnion K]{q} g) : sProp 𝕄))
  | [], _ => by
    rw [bigSepL_nil, List.toFinset_nil, Finset.biUnion_empty]
    iintro -
    iexists f₀
    rw [pointsTo_empty]
    iempintro
  | k :: l, hl => by
    obtain ⟨hk, hl'⟩ := List.nodup_cons.mp hl
    have ih := joinL_any K hd q f₀ l hl'
    have hdis : Disjoint (K k) (l.toFinset.biUnion K) :=
      (Finset.disjoint_biUnion_right _ _ _).mpr fun t ht => hd k t (fun e => hk (e ▸ List.mem_toFinset.mp ht))
    rw [bigSepL_cons, List.toFinset_cons, Finset.biUnion_insert]
    refine (show iprop((∃ f : Buf (Elt F) ℓ, ℓ ↦[K k]{q} f)
        ∗ bigSepL l (fun k : Fin 8 => (iprop(∃ f : Buf (Elt F) ℓ, ℓ ↦[K k]{q} f) : sProp 𝕄))) ⊢ _ from ?_)
    iintro ⟨⟨%f, Hk⟩, HL⟩
    ihave HL2 := (ih) $$ HL
    icases HL2 with ⟨%g, HL2⟩
    iexists ((l.toFinset.biUnion K).piecewise g f)
    iapply (pointsTo_join hdis)
    isplitl [Hk]; · iexact Hk
    iexact HL2

theorem join8_of {ℓ : Loc nD τ sig} (K : Fin 8 → Finset (Idx ℓ))
    (hd : ∀ k k', k ≠ k' → Disjoint (K k) (K k')) (hc : ∀ i, ∃ k, i ∈ K k) (q : PosShare TreeShare) :
    bigSepL [0, 1, 2, 3, 4, 5, 6, 7] (fun k : Fin 8 => (iprop(∃ f : Buf (Elt F) ℓ, ℓ ↦[K k]{q} f) : sProp 𝕄))
      ⊢ (iprop(∃ g : Buf (Elt F) ℓ, ℓ ↦{q} g) : sProp 𝕄) := by
  have hu : ([0, 1, 2, 3, 4, 5, 6, 7] : List (Fin 8)).toFinset.biUnion K = (Finset.univ : Finset (Idx ℓ)) := by
    rw [← fin8_list]
    ext i
    simp only [Finset.mem_univ, Finset.mem_biUnion, true_and, iff_true]
    exact hc i
  have h := joinL_any (F := F) K hd q (fun _ => Classical.arbitrary _) [0, 1, 2, 3, 4, 5, 6, 7] fin8_nodup
  rw [hu] at h
  exact h

theorem stg_disjoint (k k' : Fin 8) (h : k ≠ k') : Disjoint (sl stgM k).view.set (sl stgM k').view.set := by
  show Disjoint ((View.whole cc0_scratch0).slice (rowsR k)).set ((View.whole cc0_scratch0).slice (rowsR k')).set
  rw [View.set_slice_whole, View.set_slice_whole]
  exact rows_disjoint k k' h
theorem stg_cover (i : S1024x256.Idx) : ∃ k : Fin 8, i ∈ (sl stgM k).view.set := by
  obtain ⟨k, hk⟩ := rows_cover i
  refine ⟨k, ?_⟩
  show i ∈ ((View.whole cc0_scratch0).slice (rowsR k)).set
  rw [View.set_slice_whole]
  exact hk

/-- The buffer `cc0_scratch0` whole is its eight chunks. -/
theorem split8_stg (c' : Dev nD) (q : PosShare TreeShare) (f : Buf (Elt F) ((c' : Thread nD τ).loc cc0_scratch0)) :
    ((c' : Thread nD τ).loc cc0_scratch0 ↦{q} f : sProp 𝕄) ⊣⊢ bigSepL [0, 1, 2, 3, 4, 5, 6, 7] (fun k : Fin 8 => slPts stgM k c' q f) :=
  BiEntails.of_eq (split8_of (F := F) (ℓ := (c' : Thread nD τ).loc cc0_scratch0) (fun k => (sl stgM k).view.set) stg_disjoint stg_cover q f)

theorem join8_any_stg (c' : Dev nD) :
    bigSepL [0, 1, 2, 3, 4, 5, 6, 7] (fun k : Fin 8 => (iprop(∃ f, slPts stgM k c' fullShare f) : sProp 𝕄))
      ⊢ (iprop(∃ f, (c' : Thread nD τ).loc cc0_scratch0 ↦{fullShare} f) : sProp 𝕄) :=
  join8_of (F := F) (ℓ := (c' : Thread nD τ).loc cc0_scratch0) (fun k => (sl stgM k).view.set) stg_disjoint stg_cover fullShare

theorem cx_disjoint (k k' : Fin 8) (h : k ≠ k') : Disjoint (sl cxM k).view.set (sl cxM k').view.set := by
  show Disjoint ((View.whole cc0_scratch1).slice (rowsR k)).set ((View.whole cc0_scratch1).slice (rowsR k')).set
  rw [View.set_slice_whole, View.set_slice_whole]
  exact rows_disjoint k k' h
theorem cx_cover (i : S1024x256.Idx) : ∃ k : Fin 8, i ∈ (sl cxM k).view.set := by
  obtain ⟨k, hk⟩ := rows_cover i
  refine ⟨k, ?_⟩
  show i ∈ ((View.whole cc0_scratch1).slice (rowsR k)).set
  rw [View.set_slice_whole]
  exact hk

/-- The buffer `cc0_scratch1` whole is its eight chunks. -/
theorem split8_cx (c' : Dev nD) (q : PosShare TreeShare) (f : Buf (Elt F) ((c' : Thread nD τ).loc cc0_scratch1)) :
    ((c' : Thread nD τ).loc cc0_scratch1 ↦{q} f : sProp 𝕄) ⊣⊢ bigSepL [0, 1, 2, 3, 4, 5, 6, 7] (fun k : Fin 8 => slPts cxM k c' q f) :=
  BiEntails.of_eq (split8_of (F := F) (ℓ := (c' : Thread nD τ).loc cc0_scratch1) (fun k => (sl cxM k).view.set) cx_disjoint cx_cover q f)

theorem join8_any_cx (c' : Dev nD) :
    bigSepL [0, 1, 2, 3, 4, 5, 6, 7] (fun k : Fin 8 => (iprop(∃ f, slPts cxM k c' fullShare f) : sProp 𝕄))
      ⊢ (iprop(∃ f, (c' : Thread nD τ).loc cc0_scratch1 ↦{fullShare} f) : sProp 𝕄) :=
  join8_of (F := F) (ℓ := (c' : Thread nD τ).loc cc0_scratch1) (fun k => (sl cxM k).view.set) cx_disjoint cx_cover fullShare

theorem cy_disjoint (k k' : Fin 8) (h : k ≠ k') : Disjoint (sl cyM k).view.set (sl cyM k').view.set := by
  show Disjoint ((View.whole cc0_scratch2).slice (rowsR k)).set ((View.whole cc0_scratch2).slice (rowsR k')).set
  rw [View.set_slice_whole, View.set_slice_whole]
  exact rows_disjoint k k' h
theorem cy_cover (i : S1024x256.Idx) : ∃ k : Fin 8, i ∈ (sl cyM k).view.set := by
  obtain ⟨k, hk⟩ := rows_cover i
  refine ⟨k, ?_⟩
  show i ∈ ((View.whole cc0_scratch2).slice (rowsR k)).set
  rw [View.set_slice_whole]
  exact hk

/-- The buffer `cc0_scratch2` whole is its eight chunks. -/
theorem split8_cy (c' : Dev nD) (q : PosShare TreeShare) (f : Buf (Elt F) ((c' : Thread nD τ).loc cc0_scratch2)) :
    ((c' : Thread nD τ).loc cc0_scratch2 ↦{q} f : sProp 𝕄) ⊣⊢ bigSepL [0, 1, 2, 3, 4, 5, 6, 7] (fun k : Fin 8 => slPts cyM k c' q f) :=
  BiEntails.of_eq (split8_of (F := F) (ℓ := (c' : Thread nD τ).loc cc0_scratch2) (fun k => (sl cyM k).view.set) cy_disjoint cy_cover q f)

theorem join8_any_cy (c' : Dev nD) :
    bigSepL [0, 1, 2, 3, 4, 5, 6, 7] (fun k : Fin 8 => (iprop(∃ f, slPts cyM k c' fullShare f) : sProp 𝕄))
      ⊢ (iprop(∃ f, (c' : Thread nD τ).loc cc0_scratch2 ↦{fullShare} f) : sProp 𝕄) :=
  join8_of (F := F) (ℓ := (c' : Thread nD τ).loc cc0_scratch2) (fun k => (sl cyM k).view.set) cy_disjoint cy_cover fullShare

/-- The list's chain, spelt with the connective the proof mode destructures. -/
theorem bigSepL8 (Φ : Fin 8 → sProp 𝕄) :
    bigSepL [0, 1, 2, 3, 4, 5, 6, 7] Φ = iprop(Φ 0 ∗ Φ 1 ∗ Φ 2 ∗ Φ 3 ∗ Φ 4 ∗ Φ 5 ∗ Φ 6 ∗ Φ 7) := rfl

/-! ## The sixteen stores tile the result buffer -/

/-- A store's rectangle alone, its payload forgotten. -/
abbrev bare (p : View.Piece (Elt F) S1024x512 .f32) : View.Piece (fun _ => Unit) S1024x512 .f32 := ⟨p.1, fun _ => ()⟩

/-- The sixteen stored rectangles on device `c`, last first. -/
abbrev rectL (c : Dev nD) : List (View.Piece (fun _ => Unit) S1024x512 .f32) :=
  [⟨Rect.unit (s := S1024x512) (so3 7 c) S128x256.size (so3_inb 7 c), fun _ => ()⟩,
   ⟨Rect.unit (s := S1024x512) (so3 6 c) S128x256.size (so3_inb 6 c), fun _ => ()⟩,
   ⟨Rect.unit (s := S1024x512) (so3 5 c) S128x256.size (so3_inb 5 c), fun _ => ()⟩,
   ⟨Rect.unit (s := S1024x512) (so3 4 c) S128x256.size (so3_inb 4 c), fun _ => ()⟩,
   ⟨Rect.unit (s := S1024x512) (so3 3 c) S128x256.size (so3_inb 3 c), fun _ => ()⟩,
   ⟨Rect.unit (s := S1024x512) (so3 2 c) S128x256.size (so3_inb 2 c), fun _ => ()⟩,
   ⟨Rect.unit (s := S1024x512) (so3 1 c) S128x256.size (so3_inb 1 c), fun _ => ()⟩,
   ⟨Rect.unit (s := S1024x512) (so3 0 c) S128x256.size (so3_inb 0 c), fun _ => ()⟩,
   ⟨Rect.unit (s := S1024x512) (so2 7 c) S128x256.size (so2_inb 7 c), fun _ => ()⟩,
   ⟨Rect.unit (s := S1024x512) (so2 6 c) S128x256.size (so2_inb 6 c), fun _ => ()⟩,
   ⟨Rect.unit (s := S1024x512) (so2 5 c) S128x256.size (so2_inb 5 c), fun _ => ()⟩,
   ⟨Rect.unit (s := S1024x512) (so2 4 c) S128x256.size (so2_inb 4 c), fun _ => ()⟩,
   ⟨Rect.unit (s := S1024x512) (so2 3 c) S128x256.size (so2_inb 3 c), fun _ => ()⟩,
   ⟨Rect.unit (s := S1024x512) (so2 2 c) S128x256.size (so2_inb 2 c), fun _ => ()⟩,
   ⟨Rect.unit (s := S1024x512) (so2 1 c) S128x256.size (so2_inb 1 c), fun _ => ()⟩,
   ⟨Rect.unit (s := S1024x512) (so2 0 c) S128x256.size (so2_inb 0 c), fun _ => ()⟩]

theorem outL_bare (c : Dev nD) : (outL m ρ c).map bare = rectL c := rfl

/-- On every device the sixteen rectangles are the sixteen 128 × 256 blocks of the 1024 × 512 buffer. -/
theorem rectL_tiled : ∀ c : Dev nD, View.Piece.tiled (rectL c) S128x256.size = true := by decide +kernel

/-- So every element of the result buffer lies under one of the sixteen stores. -/
theorem out_cover (c : Dev nD) (y : S1024x512.Idx) : ∃ p ∈ outL m ρ c, y ∈ p.1.set := by
  obtain ⟨p₀, hp₀, hy⟩ := View.cover_of_tiled (rectL c) S128x256.size (rectL_tiled c) y
  rw [← outL_bare m ρ c] at hp₀
  obtain ⟨p, hp, rfl⟩ := List.mem_map.mp hp₀
  exact ⟨p, hp, hy⟩

/-- And what they leave in the result buffer does not depend on the contents they were written over. -/
theorem out_indep (c : Dev nD) (g : Buf (Elt F) ((oM : Memref sig .tc .vmem S1024x512 .f32).view.loc (c : Thread nD τ))) :
    (oM : Memref sig .tc .vmem S1024x512 .f32).view.writes (Elt F) g (outL m ρ c) = outAt m ρ c := by
  have h := View.read_writes_of_cover (View.whole cc0_stg1_0) g (View.whole cc0_stg1_0)
    (fun _ => Classical.arbitrary _) (outL m ρ c) (out_cover m ρ c)
  rw [View.read_whole, View.read_whole] at h
  unfold outAt
  exact h

end Cert.KernelProof

end
-- ==== Proof.Bits.StepsA.lean ====
import proofs.«900287_g7700000000000288_dist_rs_v7x_xy2x2_x_m1024_n512_f32_1_alg».proof.Proof.Bits.Bundle
import proofs.«900287_g7700000000000288_dist_rs_v7x_xy2x2_x_m1024_n512_f32_1_alg».proof.Proof.Bits.Chunks

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ UU ℕ

variable (m : (ℓ : Loc nD τ sig) → Buf (Elt F) ℓ) (ρ : Dev nD → PrngReg)

/-! # One rule per step of the protocol, at a symbolic chunk `k` -/

variable (K : Dev nD × CK → ℕ)

theorem dmaPay_0 (c : Dev nD) (k : Fin 8) : dmaPay m ρ (0 : Fin 4).val k c = slPts stgM k c fullShare (stageVal m ρ c) := rfl
theorem dmaPay_1 (c : Dev nD) (k : Fin 8) : dmaPay m ρ (1 : Fin 4).val k c = slPts cxM k c fullShare (stageVal m ρ (xp c)) := rfl
theorem dmaPay_2 (c : Dev nD) (k : Fin 8) : dmaPay m ρ (2 : Fin 4).val k c = slPts cxM k c fullShare.left (stageVal m ρ (xp c)) := rfl
theorem dmaPay_3 (c : Dev nD) (k : Fin 8) : dmaPay m ρ (3 : Fin 4).val k c = slPts cyM k c fullShare (stageVal m ρ (xp (yp c))) := rfl
theorem credit_cx (k : Fin 8) : (sl cxM k).view.dmaCredit = N := rfl
theorem credit_cy (k : Fin 8) : (sl cyM k).view.dmaCredit = N := rfl

/-- Staged chunk `k` leaves for the column peer `n = xp c`: the chunk's points-to goes into the departure cell,
    the peer's landing chunk (any contents) into its arrival cell holding what was staged. -/
theorem xsend_step (c n : Dev nD) (hn : n = xp c) (k : Fin 8)
    {hsc : (sl cxM k : Memref sig (Dev.tc n : Thread nD τ).2.kind .vmem S128x256 .bf16).view.ref.isScScratch = false}
    {hsrc : (sl stgM k).view.WordExact} {hdst : (sl cxM k).view.WordExact}
    {hsem : DmaTarget.Typed .vmem (.dma (semAt (fam 1) k)) (.remote (Dev.tc n : Thread nD τ) (sl cxM k) (.dma (semAt (fam 0) k)) hsc)}
    {α : Type} {Q : α → sProp 𝕄} {kont : PUnit → Prog (TpuEff nD τ sig (Elt F) Λ₀ .tc) α}
    (fd : Buf (Elt F) ((sl cxM k).view.loc (xp c : Thread nD τ))) (O : CellTallies nD τ sig Unit) (W : Waits sig Unit) :
    iprop(records m ρ K ∗ slPts stgM k c fullShare (stageVal m ρ c) ∗ slPts cxM k (xp c) fullShare fd
        ∗ owes (c : Thread nD τ) (O + tallyAt (dCell 1 k (xp c)) () N) W
        ∗ dutyTok ER (dCell 0 k c) 0 false ∗ dutyTok ER (dCell 1 k (xp c)) 0 false)
      ⊢ iprop(((cred (tallyAt (dCell 0 k c) () N) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (sl stgM k) (.remote (Dev.tc n : Thread nD τ) (sl cxM k) (.dma (semAt (fam 0) k)) hsc) (.dma (semAt (fam 1) k)) hsrc hdst hsem) kont) Q) := by
  subst hn
  iintro ⟨#HR, Hsrc, Hdst, HO, Ht0, Ht1⟩
  ihave #HI0 := (inv_at m ρ K (c, some (0, k))) $$ HR
  ihave #HI1 := (inv_at m ρ K (xp c, some (1, k))) $$ HR
  ihave #Hr0 := (reached_at m ρ K (c, some (0, k))) $$ HR
  ihave #Hr1 := (reached_at m ρ K (xp c, some (1, k))) $$ HR
  iapply (Rounds.wp_send_pointsTo 𝒱₀ ER (rsRd m ρ) (c : Thread nD τ) none (κ₁ := K (c, some (0, k))) (κ₂ := K (xp c, some (1, k)))
    (r₁ := 0) (r₂ := 0) (d₁ := false) (d₂ := false) (fd := fd) (fs := stageVal m ρ c) (q := fullShare)
    (by rw [duties_d]; exact Finset.mem_singleton_self _) (by rw [duties_d]; exact Finset.mem_singleton_self _)
    () () N rfl (amount_d m ρ c 0 k false) (amount_d m ρ (xp c) 1 k false) O rfl (W := W)
    (by rw [payload_xs])
    (by rw [payload_xr, xp_xp, landing_xs k (xp c) fullShare fd (stageVal m ρ c)])) $$ [Hsrc Hdst HO Ht0 Ht1]
  · isplitr; · iexact HI0
    isplitr; · iexact HI1
    isplitl [Hsrc]; · iexact Hsrc
    isplitl [Hdst]; · iexact Hdst
    isplitl [HO]; · iexact HO
    isplitl [Ht0]; · iexact Ht0
    isplitr; · iexact Hr0
    isplitl [Ht1]; · iexact Ht1
    iexact Hr1

/-- Landed chunk `k` is forwarded to the row peer `n = yp c` at half its share; the other half stays for the load. -/
theorem ysend_step (c n : Dev nD) (hn : n = yp c) (k : Fin 8)
    {hsc : (sl cyM k : Memref sig (Dev.tc n : Thread nD τ).2.kind .vmem S128x256 .bf16).view.ref.isScScratch = false}
    {hsrc : (sl cxM k).view.WordExact} {hdst : (sl cyM k).view.WordExact}
    {hsem : DmaTarget.Typed .vmem (.dma (semAt (fam 3) k)) (.remote (Dev.tc n : Thread nD τ) (sl cyM k) (.dma (semAt (fam 2) k)) hsc)}
    {α : Type} {Q : α → sProp 𝕄} {kont : PUnit → Prog (TpuEff nD τ sig (Elt F) Λ₀ .tc) α}
    (fd : Buf (Elt F) ((sl cyM k).view.loc (yp c : Thread nD τ))) (O : CellTallies nD τ sig Unit) (W : Waits sig Unit) :
    iprop(records m ρ K ∗ slPts cxM k c fullShare.left (stageVal m ρ (xp c)) ∗ slPts cyM k (yp c) fullShare fd
        ∗ owes (c : Thread nD τ) (O + tallyAt (dCell 3 k (yp c)) () N) W
        ∗ dutyTok ER (dCell 2 k c) 0 false ∗ dutyTok ER (dCell 3 k (yp c)) 0 false)
      ⊢ iprop(((cred (tallyAt (dCell 2 k c) () N) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (sl cxM k) (.remote (Dev.tc n : Thread nD τ) (sl cyM k) (.dma (semAt (fam 2) k)) hsc) (.dma (semAt (fam 3) k)) hsrc hdst hsem) kont) Q) := by
  subst hn
  iintro ⟨#HR, Hsrc, Hdst, HO, Ht0, Ht1⟩
  ihave #HI0 := (inv_at m ρ K (c, some (2, k))) $$ HR
  ihave #HI1 := (inv_at m ρ K (yp c, some (3, k))) $$ HR
  ihave #Hr0 := (reached_at m ρ K (c, some (2, k))) $$ HR
  ihave #Hr1 := (reached_at m ρ K (yp c, some (3, k))) $$ HR
  iapply (Rounds.wp_send_pointsTo 𝒱₀ ER (rsRd m ρ) (c : Thread nD τ) none (κ₁ := K (c, some (2, k))) (κ₂ := K (yp c, some (3, k)))
    (r₁ := 0) (r₂ := 0) (d₁ := false) (d₂ := false) (fd := fd) (fs := stageVal m ρ (xp c)) (q := fullShare.left)
    (by rw [duties_d]; exact Finset.mem_singleton_self _) (by rw [duties_d]; exact Finset.mem_singleton_self _)
    () () N rfl (amount_d m ρ c 2 k false) (amount_d m ρ (yp c) 3 k false) O rfl (W := W)
    (by rw [payload_ys])
    (by rw [payload_yr, yp_yp, landing_ys k (yp c) fullShare fd (stageVal m ρ (xp c))])) $$ [Hsrc Hdst HO Ht0 Ht1]
  · isplitr; · iexact HI0
    isplitr; · iexact HI1
    isplitl [Hsrc]; · iexact Hsrc
    isplitl [Hdst]; · iexact Hdst
    isplitl [HO]; · iexact HO
    isplitl [Ht0]; · iexact Ht0
    isplitr; · iexact Hr0
    isplitl [Ht1]; · iexact Ht1
    iexact Hr1

/-- The wait on transfer cell `(a, k)` for the whole of its one round: its payload comes back, and the cell,
    which has no later round, closes with its counter at zero. -/
theorem dwait_step (c : Dev nD) (a : Fin 4) (k : Fin 8)
    {src dst : Memref sig .tc .vmem S128x256 .bf16} {hsrc : src.view.WordExact} {hdst : dst.view.WordExact}
    (hdN : dst.view.dmaCredit = N) {P : sProp 𝕄} (hP : dmaPay m ρ a.val k c = P)
    {α : Type} {Q : α → sProp 𝕄} {kont : PUnit → Prog (TpuEff nD τ sig (Elt F) Λ₀ .tc) α}
    (O : CellTallies nD τ sig Unit) (W : Waits sig Unit)
    (hmw : (levAts L lv : sProp 𝕄) ⊢ MayWait (c : Thread nD τ) (.dma (semAt (fam a) k)) () O) :
    iprop(records m ρ K ∗ levAts L lv ∗ cred (tallyAt (dCell a k c) () N) ∗ owes (c : Thread nD τ) O W ∗ atPos ER (dCell a k c) 0 ∅ 0)
      ⊢ iprop(((owes (c : Thread nD τ) O (insert (SemLoc.dma (semAt (fam a) k), ()) W) ∗ P ∗ semVal (dCell a k c) 0)
            -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 (semAt (fam a) k) src dst hsrc hdst) kont) Q) := by
  iintro ⟨#HR, #Hlev, Hc, HO, Hat⟩ Hk
  ihave #HI := (inv_at m ρ K (c, some (a, k))) $$ HR
  iapply (Rounds.wp_wait_rest_token 𝒱₀ ER (rsRd m ρ) (c : Thread nD τ) none (κ := K (c, some (a, k)))
      (wpE_waitDma2_eq 𝒱₀ (c : Thread nD τ) none Set.univ) (Set.mem_univ _) () (O := O) (W := W) (R := 0) (m := 0) (T := ∅)
      (by rw [Nat.zero_add, expect_d, hdN])) $$ [Hc HO Hat]
  · isplitr; · iexact HI
    isplitl [Hc]; · rw [hdN]; iexact Hc
    isplitl [HO]; · iexact HO
    isplitr; · iapply hmw; iexact Hlev
    iexact Hat
  iintro ⟨HO, Hat, -, Hpay⟩
  ihave Hp := (Entails.of_eq ((rest_d m ρ c a k).trans hP)) $$ Hpay
  imod (Rounds.cell_close ER (rsRd m ρ) (Set.mem_univ (K (c, some (a, k)))) (fun h => h) (R := 0 + 1) (duties_later m ρ (dCell a k c))) $$ [Hat] with Hz
  · isplitr; · iexact HI
    iexact Hat
  iapply Hk
  isplitl [HO]; · iexact HO
  isplitl [Hp]; · iexact Hp
  iexact Hz

end Cert.KernelProof

end
-- ==== Proof.Bits.StepsB.lean ====
import proofs.«900287_g7700000000000288_dist_rs_v7x_xy2x2_x_m1024_n512_f32_1_alg».proof.Proof.Bits.StepsA

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ UU ℕ

variable (m : (ℓ : Loc nD τ sig) → Buf (Elt F) ℓ) (ρ : Dev nD → PrngReg)

variable (K : Dev nD × CK → ℕ)

/-- One trip of the second loop at chunk `k`: the column peer's chunk has arrived; it is forwarded to the row peer at
    half its share, and with the other half the own quarter's rows plus the chunk go into the result. -/
theorem loop2_iter (c n : Dev nD) (hn : n = yp c) (k : Fin 8)
    {hsrcW : (sl stgM k).view.WordExact} {hdstW : (sl cxM k).view.WordExact}
    {hsc : (sl cyM k : Memref sig (Dev.tc n : Thread nD τ).2.kind .vmem S128x256 .bf16).view.ref.isScScratch = false}
    {hsrc : (sl cxM k).view.WordExact} {hdst : (sl cyM k).view.WordExact}
    {hsem : DmaTarget.Typed .vmem (.dma (semAt (fam 3) k)) (.remote (Dev.tc n : Thread nD τ) (sl cyM k) (.dma (semAt (fam 2) k)) hsc)}
    {hl1 : (xM : Memref sig .tc .vmem S1x1024x1024 .f32).view.LoadsAt (Rect.unit (s := S1x1024x1024) (lx2 k c) S1x128x256.size (lx2_inb k c)).toLoadRect}
    {hl2 : (cxM : Memref sig .tc .vmem S1024x256 .bf16).view.LoadsAt (rowsR k).toLoadRect}
    {hl3 : (oM : Memref sig .tc .vmem S1024x512 .f32).view.LoadsAt (Rect.unit (s := S1024x512) (so2 k c) S128x256.size (so2_inb k c)).toLoadRect}
    {hx : ((oM : Memref sig .tc .vmem S1024x512 .f32).access (Rect.unit (s := S1024x512) (so2 k c) S128x256.size (so2_inb k c))).Stores Finset.univ}
    {hm : Finset.univ = Finset.univ ∨ ∀ a, (Rect.unit (s := S1024x512) (so2 k c) S128x256.size (so2_inb k c)).stride a = 1}
    {α : Type} {Q : α → sProp 𝕄} {kont : PUnit → Prog (TpuEff nD τ sig (Elt F) Λ₀ .tc) α}
    (fd : Buf (Elt F) ((sl cyM k).view.loc (yp c : Thread nD τ))) (O : CellTallies nD τ sig Unit) (W : Waits sig Unit)
    (g : Buf (Elt F) ((oM : Memref sig .tc .vmem S1024x512 .f32).view.loc (c : Thread nD τ))) (Ls : List (View.Piece (Elt F) S1024x512 .f32))
    (hmw : (levAts L lv : sProp 𝕄) ⊢ MayWait (c : Thread nD τ) (.dma (semAt (fam 1) k)) () (O + tallyAt (dCell 3 k (yp c)) () N)) :
    iprop(records m ρ K ∗ levAts L lv ∗ cred (tallyAt (dCell 1 k c) () N) ∗ atPos ER (dCell 1 k c) 0 ∅ 0
        ∗ owes (c : Thread nD τ) (O + tallyAt (dCell 3 k (yp c)) () N) W
        ∗ slPts cyM k (yp c) fullShare fd ∗ dutyTok ER (dCell 2 k c) 0 false ∗ dutyTok ER (dCell 3 k (yp c)) 0 false
        ∗ (((c : Thread nD τ).loc cc0_stg0_0) ↦{fullShare} xstg m ρ c)
        ∗ ((oM : Memref sig .tc .vmem S1024x512 .f32).view.loc (c : Thread nD τ) ↦[Finset.univ]{fullShare} (oM : Memref sig .tc .vmem S1024x512 .f32).view.writes (Elt F) g Ls))
      ⊢ iprop(((owes (c : Thread nD τ) O (insert (SemLoc.dma (semAt (fam 1) k), ()) W) ∗ semVal (dCell 1 k c) 0
              ∗ cred (tallyAt (dCell 2 k c) () N) ∗ slPts cxM k c fullShare.right (stageVal m ρ (xp c))
              ∗ (((c : Thread nD τ).loc cc0_stg0_0) ↦{fullShare} xstg m ρ c)
              ∗ ((oM : Memref sig .tc .vmem S1024x512 .f32).view.loc (c : Thread nD τ) ↦[Finset.univ]{fullShare} (oM : Memref sig .tc .vmem S1024x512 .f32).view.writes (Elt F) g (piece2 m ρ k c :: Ls)))
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (semAt (fam 1) k) (sl stgM k) (sl cxM k) hsrcW hdstW) fun _ =>
               .op (.enqueueDma (sl cxM k) (.remote (Dev.tc n : Thread nD τ) (sl cyM k) (.dma (semAt (fam 2) k)) hsc) (.dma (semAt (fam 3) k)) hsrc hdst hsem) fun _ =>
               .op (.load xM (Rect.unit (s := S1x1024x1024) (lx2 k c) S1x128x256.size (lx2_inb k c)).toLoadRect hl1) fun x =>
               .op (.load cxM (rowsR k).toLoadRect hl2) fun x2 =>
               .op (.load oM (Rect.unit (s := S1024x512) (so2 k c) S128x256.size (so2_inb k c)).toLoadRect hl3) fun _ =>
               .op (.store oM (Rect.unit (s := S1024x512) (so2 k c) S128x256.size (so2_inb k c)) (k0_pay2 x x2) Finset.univ hx hm) kont) Q) := by
  subst hn
  iintro ⟨#HR, #Hlev, Hc, Hat, HO, Hdst, Ht2, Ht3, Hx, Hout⟩ Hk
  iapply (dwait_step m ρ K c 1 k (src := sl stgM k) (dst := sl cxM k) (credit_cx k) (dmaPay_1 m ρ c k) (O + tallyAt (dCell 3 k (yp c)) () N) W hmw) $$ [Hc HO Hat]
  · isplitr; · iexact HR
    isplitr; · iexact Hlev
    isplitl [Hc]; · iexact Hc
    isplitl [HO]; · iexact HO
    iexact Hat
  iintro ⟨HO, Hpay, Hz⟩
  ihave Hpay' := (pointsTo_share (PosShare.mem_left_op_right fullShare)).1 $$ Hpay
  icases Hpay' with ⟨Hl, Hr⟩
  iapply (ysend_step m ρ K c (yp c) rfl k fd O (insert (SemLoc.dma (semAt (fam 1) k), ()) W)) $$ [Hl Hdst HO Ht2 Ht3]
  · isplitr; · iexact HR
    isplitl [Hl]; · iexact Hl
    isplitl [Hdst]; · iexact Hdst
    isplitl [HO]; · iexact HO
    isplitl [Ht2]; · iexact Ht2
    iexact Ht3
  iintro ⟨Hcs, HO⟩
  iapply (wp_load 𝒱₀ (c : Thread nD τ) none Set.univ (m := xM) (Finset.subset_univ _)) $$ Hx; iintro Hx
  iapply (wp_load 𝒱₀ (c : Thread nD τ) none Set.univ (m := cxM) (chunk_load_subset cxM k)) $$ Hr; iintro Hr
  iapply (wp_load 𝒱₀ (c : Thread nD τ) none Set.univ (m := oM) (Finset.subset_univ _)) $$ Hout; iintro Hout
  iapply (wp_store_writes 𝒱₀ (c : Thread nD τ) none Set.univ (m := oM) (r := (piece2 m ρ k c).1) (w := (piece2 m ρ k c).2) (f := g) (L := Ls) (S := Finset.univ) (k := kont) (Finset.subset_univ _)) $$ Hout; iintro Hout
  iapply Hk
  isplitl [HO]; · iexact HO
  isplitl [Hz]; · iexact Hz
  isplitl [Hcs]; · iexact Hcs
  isplitl [Hr]; · iexact Hr
  isplitl [Hx]; · iexact Hx
  iexact Hout

end Cert.KernelProof

end
-- ==== Proof.Bits.StepsC.lean ====
import proofs.«900287_g7700000000000288_dist_rs_v7x_xy2x2_x_m1024_n512_f32_1_alg».proof.Proof.Bits.StepsA

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ UU ℕ

variable (m : (ℓ : Loc nD τ sig) → Buf (Elt F) ℓ) (ρ : Dev nD → PrngReg)

variable (K : Dev nD × CK → ℕ)

/-- One trip of the third loop at chunk `k`: the forwarded chunk has arrived; the other quarter's rows plus the chunk
    go into the result. -/
theorem loop3_iter (c : Dev nD) (k : Fin 8)
    {srcW dstW : Memref sig .tc .vmem S128x256 .bf16} {hsrcW : srcW.view.WordExact} {hdstW : dstW.view.WordExact} (hdN : dstW.view.dmaCredit = N)
    {hl1 : (xM : Memref sig .tc .vmem S1x1024x1024 .f32).view.LoadsAt (Rect.unit (s := S1x1024x1024) (lx3 k c) S1x128x256.size (lx3_inb k c)).toLoadRect}
    {hl2 : (cyM : Memref sig .tc .vmem S1024x256 .bf16).view.LoadsAt (rowsR k).toLoadRect}
    {hl3 : (oM : Memref sig .tc .vmem S1024x512 .f32).view.LoadsAt (Rect.unit (s := S1024x512) (so3 k c) S128x256.size (so3_inb k c)).toLoadRect}
    {hx : ((oM : Memref sig .tc .vmem S1024x512 .f32).access (Rect.unit (s := S1024x512) (so3 k c) S128x256.size (so3_inb k c))).Stores Finset.univ}
    {hm : Finset.univ = Finset.univ ∨ ∀ a, (Rect.unit (s := S1024x512) (so3 k c) S128x256.size (so3_inb k c)).stride a = 1}
    {α : Type} {Q : α → sProp 𝕄} {kont : PUnit → Prog (TpuEff nD τ sig (Elt F) Λ₀ .tc) α}
    (W : Waits sig Unit)
    (g : Buf (Elt F) ((oM : Memref sig .tc .vmem S1024x512 .f32).view.loc (c : Thread nD τ))) (Ls : List (View.Piece (Elt F) S1024x512 .f32)) :
    iprop(records m ρ K ∗ levAts L lv ∗ cred (tallyAt (dCell 3 k c) () N) ∗ atPos ER (dCell 3 k c) 0 ∅ 0
        ∗ owes (c : Thread nD τ) 0 W
        ∗ (((c : Thread nD τ).loc cc0_stg0_0) ↦{fullShare} xstg m ρ c)
        ∗ ((oM : Memref sig .tc .vmem S1024x512 .f32).view.loc (c : Thread nD τ) ↦[Finset.univ]{fullShare} (oM : Memref sig .tc .vmem S1024x512 .f32).view.writes (Elt F) g Ls))
      ⊢ iprop(((owes (c : Thread nD τ) 0 (insert (SemLoc.dma (semAt (fam 3) k), ()) W) ∗ semVal (dCell 3 k c) 0
              ∗ slPts cyM k c fullShare (stageVal m ρ (xp (yp c)))
              ∗ (((c : Thread nD τ).loc cc0_stg0_0) ↦{fullShare} xstg m ρ c)
              ∗ ((oM : Memref sig .tc .vmem S1024x512 .f32).view.loc (c : Thread nD τ) ↦[Finset.univ]{fullShare} (oM : Memref sig .tc .vmem S1024x512 .f32).view.writes (Elt F) g (piece3 m ρ k c :: Ls)))
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (semAt (fam 3) k) srcW dstW hsrcW hdstW) fun _ =>
               .op (.load xM (Rect.unit (s := S1x1024x1024) (lx3 k c) S1x128x256.size (lx3_inb k c)).toLoadRect hl1) fun x =>
               .op (.load cyM (rowsR k).toLoadRect hl2) fun x2 =>
               .op (.load oM (Rect.unit (s := S1024x512) (so3 k c) S128x256.size (so3_inb k c)).toLoadRect hl3) fun _ =>
               .op (.store oM (Rect.unit (s := S1024x512) (so3 k c) S128x256.size (so3_inb k c)) (k0_pay2 x x2) Finset.univ hx hm) kont) Q) := by
  iintro ⟨#HR, #Hlev, Hc, Hat, HO, Hx, Hout⟩ Hk
  iapply (dwait_step m ρ K c 3 k hdN (dmaPay_3 m ρ c k) 0 W (by rw [MayWait_zero]; iintro -; iempintro)) $$ [Hc HO Hat]
  · isplitr; · iexact HR
    isplitr; · iexact Hlev
    isplitl [Hc]; · iexact Hc
    isplitl [HO]; · iexact HO
    iexact Hat
  iintro ⟨HO, Hpay, Hz⟩
  iapply (wp_load 𝒱₀ (c : Thread nD τ) none Set.univ (m := xM) (Finset.subset_univ _)) $$ Hx; iintro Hx
  iapply (wp_load 𝒱₀ (c : Thread nD τ) none Set.univ (m := cyM) (chunk_load_subset cyM k)) $$ Hpay; iintro Hpay
  iapply (wp_load 𝒱₀ (c : Thread nD τ) none Set.univ (m := oM) (Finset.subset_univ _)) $$ Hout; iintro Hout
  iapply (wp_store_writes 𝒱₀ (c : Thread nD τ) none Set.univ (m := oM) (r := (piece3 m ρ k c).1) (w := (piece3 m ρ k c).2) (f := g) (L := Ls) (S := Finset.univ) (k := kont) (Finset.subset_univ _)) $$ Hout; iintro Hout
  iapply Hk
  isplitl [HO]; · iexact HO
  isplitl [Hz]; · iexact Hz
  isplitl [Hpay]; · iexact Hpay
  isplitl [Hx]; · iexact Hx
  iexact Hout

end Cert.KernelProof

end
-- ==== Proof.Bits.StepsD.lean ====
import proofs.«900287_g7700000000000288_dist_rs_v7x_xy2x2_x_m1024_n512_f32_1_alg».proof.Proof.Bits.StepsA

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ UU ℕ

variable (m : (ℓ : Loc nD τ sig) → Buf (Elt F) ℓ) (ρ : Dev nD → PrngReg)

variable (K : Dev nD × CK → ℕ)

/-- The two departure waits of chunk `k`: the staged chunk and the forwarded half come back, both cells close. -/
theorem sendwait_iter (c : Dev nD) (k : Fin 8)
    {src1 dst1 src2 dst2 : Memref sig .tc .vmem S128x256 .bf16} {hs1 : src1.view.WordExact} {hd1 : dst1.view.WordExact}
    {hs2 : src2.view.WordExact} {hd2 : dst2.view.WordExact} (hN1 : dst1.view.dmaCredit = N) (hN2 : dst2.view.dmaCredit = N)
    {α : Type} {Q : α → sProp 𝕄} {kont : PUnit → Prog (TpuEff nD τ sig (Elt F) Λ₀ .tc) α}
    (W : Waits sig Unit) :
    iprop(records m ρ K ∗ levAts L lv ∗ cred (tallyAt (dCell 0 k c) () N) ∗ atPos ER (dCell 0 k c) 0 ∅ 0
        ∗ cred (tallyAt (dCell 2 k c) () N) ∗ atPos ER (dCell 2 k c) 0 ∅ 0 ∗ owes (c : Thread nD τ) 0 W)
      ⊢ iprop(((owes (c : Thread nD τ) 0 (insert (SemLoc.dma (semAt (fam 2) k), ()) (insert (SemLoc.dma (semAt (fam 0) k), ()) W))
              ∗ semVal (dCell 0 k c) 0 ∗ semVal (dCell 2 k c) 0
              ∗ slPts stgM k c fullShare (stageVal m ρ c) ∗ slPts cxM k c fullShare.left (stageVal m ρ (xp c)))
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (semAt (fam 0) k) src1 dst1 hs1 hd1) fun _ => .op (.waitDma2 (semAt (fam 2) k) src2 dst2 hs2 hd2) kont) Q) := by
  iintro ⟨#HR, #Hlev, Hc0, Hat0, Hc2, Hat2, HO⟩ Hk
  iapply (dwait_step m ρ K c 0 k hN1 (dmaPay_0 m ρ c k) 0 W (by rw [MayWait_zero]; iintro -; iempintro)) $$ [Hc0 HO Hat0]
  · isplitr; · iexact HR
    isplitr; · iexact Hlev
    isplitl [Hc0]; · iexact Hc0
    isplitl [HO]; · iexact HO
    iexact Hat0
  iintro ⟨HO, Hp0, Hz0⟩
  iapply (dwait_step m ρ K c 2 k hN2 (dmaPay_2 m ρ c k) 0 (insert (SemLoc.dma (semAt (fam 0) k), ()) W) (by rw [MayWait_zero]; iintro -; iempintro)) $$ [Hc2 HO Hat2]
  · isplitr; · iexact HR
    isplitr; · iexact Hlev
    isplitl [Hc2]; · iexact Hc2
    isplitl [HO]; · iexact HO
    iexact Hat2
  iintro ⟨HO, Hp2, Hz2⟩
  iapply Hk
  isplitl [HO]; · iexact HO
  isplitl [Hz0]; · iexact Hz0
  isplitl [Hz2]; · iexact Hz2
  isplitl [Hp0]; · iexact Hp0
  iexact Hp2

end Cert.KernelProof

end
-- ==== Proof.Bits.StepsE.lean ====
import proofs.«900287_g7700000000000288_dist_rs_v7x_xy2x2_x_m1024_n512_f32_1_alg».proof.Proof.Bits.StepsB
import proofs.«900287_g7700000000000288_dist_rs_v7x_xy2x2_x_m1024_n512_f32_1_alg».proof.Proof.Bits.StepsC
import proofs.«900287_g7700000000000288_dist_rs_v7x_xy2x2_x_m1024_n512_f32_1_alg».proof.Proof.Bits.StepsD

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ UU ℕ

variable (m : (ℓ : Loc nD τ sig) → Buf (Elt F) ℓ) (ρ : Dev nD → PrngReg)

variable (K : Dev nD × CK → ℕ)

/-! ## The same steps over the per-chunk bundles -/

theorem xsend_b (c n : Dev nD) (hn : n = xp c) (k : Fin 8) (j : ℕ) (hk : fk (7 - j) = k)
    {hsc : (sl cxM k : Memref sig (Dev.tc n : Thread nD τ).2.kind .vmem S128x256 .bf16).view.ref.isScScratch = false}
    {hsrc : (sl stgM k).view.WordExact} {hdst : (sl cxM k).view.WordExact}
    {hsem : DmaTarget.Typed .vmem (.dma (semAt (fam 1) k)) (.remote (Dev.tc n : Thread nD τ) (sl cxM k) (.dma (semAt (fam 0) k)) hsc)}
    {α : Type} {Q : α → sProp 𝕄} {kont : PUnit → Prog (TpuEff nD τ sig (Elt F) Λ₀ .tc) α} {W : Waits sig Unit} :
    iprop(records m ρ K ∗ A0 m ρ c k ∗ owes (c : Thread nD τ) (oxy c (j + 1)) W)
      ⊢ iprop(((A1 c k ∗ owes (c : Thread nD τ) (oxy c j) W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (sl stgM k) (.remote (Dev.tc n : Thread nD τ) (sl cxM k) (.dma (semAt (fam 0) k)) hsc) (.dma (semAt (fam 1) k)) hsrc hdst hsem) kont) Q) := by
  subst hk
  unfold A0 A1 toksK
  iintro ⟨#HR, ⟨Hpos, ⟨Ht0, Ht1, Ht2, Ht3⟩, Hcx, Hcy, Hstg, ⟨%fdx, Hdx⟩, Hdy⟩, HO⟩ Hk
  iapply (xsend_step m ρ K c n hn (fk (7 - j)) fdx (oxy c j) W) $$ [Hstg Hdx HO Ht0 Ht1]
  · isplitr; · iexact HR
    isplitl [Hstg]; · iexact Hstg
    isplitl [Hdx]; · iexact Hdx
    isplitl [HO]; · iexact HO
    isplitl [Ht0]; · iexact Ht0
    iexact Ht1
  iintro ⟨Hcs, HO⟩
  iapply Hk
  isplitr [HO]
  · isplitl [Hpos]; · iexact Hpos
    isplitl [Ht2]; · iexact Ht2
    isplitl [Ht3]; · iexact Ht3
    isplitl [Hcx]; · iexact Hcx
    isplitl [Hcy]; · iexact Hcy
    isplitl [Hcs]; · iexact Hcs
    iexact Hdy
  · iexact HO

theorem loop2_b (c n : Dev nD) (hn : n = yp c) (k : Fin 8) (j : ℕ) (hk : fk (7 - j) = k)
    {hsrcW : (sl stgM k).view.WordExact} {hdstW : (sl cxM k).view.WordExact}
    {hsc : (sl cyM k : Memref sig (Dev.tc n : Thread nD τ).2.kind .vmem S128x256 .bf16).view.ref.isScScratch = false}
    {hsrc : (sl cxM k).view.WordExact} {hdst : (sl cyM k).view.WordExact}
    {hsem : DmaTarget.Typed .vmem (.dma (semAt (fam 3) k)) (.remote (Dev.tc n : Thread nD τ) (sl cyM k) (.dma (semAt (fam 2) k)) hsc)}
    {hl1 : (xM : Memref sig .tc .vmem S1x1024x1024 .f32).view.LoadsAt (Rect.unit (s := S1x1024x1024) (lx2 k c) S1x128x256.size (lx2_inb k c)).toLoadRect}
    {hl2 : (cxM : Memref sig .tc .vmem S1024x256 .bf16).view.LoadsAt (rowsR k).toLoadRect}
    {hl3 : (oM : Memref sig .tc .vmem S1024x512 .f32).view.LoadsAt (Rect.unit (s := S1024x512) (so2 k c) S128x256.size (so2_inb k c)).toLoadRect}
    {hx : ((oM : Memref sig .tc .vmem S1024x512 .f32).access (Rect.unit (s := S1024x512) (so2 k c) S128x256.size (so2_inb k c))).Stores Finset.univ}
    {hm : Finset.univ = Finset.univ ∨ ∀ a, (Rect.unit (s := S1024x512) (so2 k c) S128x256.size (so2_inb k c)).stride a = 1}
    {α : Type} {Q : α → sProp 𝕄} {kont : PUnit → Prog (TpuEff nD τ sig (Elt F) Λ₀ .tc) α} {W : Waits sig Unit}
    {g : Buf (Elt F) ((oM : Memref sig .tc .vmem S1024x512 .f32).view.loc (c : Thread nD τ))} {Ls : List (View.Piece (Elt F) S1024x512 .f32)} :
    iprop(records m ρ K ∗ levAts L lv ∗ A1 c k ∗ owes (c : Thread nD τ) (oy c (j + 1)) W
        ∗ (((c : Thread nD τ).loc cc0_stg0_0) ↦{fullShare} xstg m ρ c)
        ∗ ((oM : Memref sig .tc .vmem S1024x512 .f32).view.loc (c : Thread nD τ) ↦[Finset.univ]{fullShare} (oM : Memref sig .tc .vmem S1024x512 .f32).view.writes (Elt F) g Ls))
      ⊢ iprop(((A2 m ρ c k ∗ owes (c : Thread nD τ) (oy c j) (insert (SemLoc.dma (semAt (fam 1) k), ()) W)
              ∗ (((c : Thread nD τ).loc cc0_stg0_0) ↦{fullShare} xstg m ρ c)
              ∗ ((oM : Memref sig .tc .vmem S1024x512 .f32).view.loc (c : Thread nD τ) ↦[Finset.univ]{fullShare} (oM : Memref sig .tc .vmem S1024x512 .f32).view.writes (Elt F) g (piece2 m ρ k c :: Ls)))
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (semAt (fam 1) k) (sl stgM k) (sl cxM k) hsrcW hdstW) fun _ =>
               .op (.enqueueDma (sl cxM k) (.remote (Dev.tc n : Thread nD τ) (sl cyM k) (.dma (semAt (fam 2) k)) hsc) (.dma (semAt (fam 3) k)) hsrc hdst hsem) fun _ =>
               .op (.load xM (Rect.unit (s := S1x1024x1024) (lx2 k c) S1x128x256.size (lx2_inb k c)).toLoadRect hl1) fun x =>
               .op (.load cxM (rowsR k).toLoadRect hl2) fun x2 =>
               .op (.load oM (Rect.unit (s := S1024x512) (so2 k c) S128x256.size (so2_inb k c)).toLoadRect hl3) fun _ =>
               .op (.store oM (Rect.unit (s := S1024x512) (so2 k c) S128x256.size (so2_inb k c)) (k0_pay2 x x2) Finset.univ hx hm) kont) Q) := by
  subst hk
  unfold A1 A2 posK
  iintro ⟨#HR, #Hlev, ⟨⟨Hp0, Hp1, Hp2, Hp3⟩, Ht2, Ht3, Hcx, Hcy, Hcs, ⟨%fdy, Hdy⟩⟩, HO, Hx, Hout⟩ Hk
  iapply (loop2_iter m ρ K c n hn (fk (7 - j)) fdy (oy c j) W g Ls (mayWait_xr c (fk (7 - j)) (j + 1))) $$ [Hcx Hp1 HO Hdy Ht2 Ht3 Hx Hout]
  · isplitr; · iexact HR
    isplitr; · iexact Hlev
    isplitl [Hcx]; · iexact Hcx
    isplitl [Hp1]; · iexact Hp1
    isplitl [HO]; · iexact HO
    isplitl [Hdy]; · iexact Hdy
    isplitl [Ht2]; · iexact Ht2
    isplitl [Ht3]; · iexact Ht3
    isplitl [Hx]; · iexact Hx
    iexact Hout
  iintro ⟨HO, Hz, Hcys, Hr, Hx, Hout⟩
  iapply Hk
  isplitl [Hp0 Hp2 Hp3 Hcy Hcs Hcys Hz Hr]
  · isplitl [Hp0]; · iexact Hp0
    isplitl [Hp2]; · iexact Hp2
    isplitl [Hp3]; · iexact Hp3
    isplitl [Hcy]; · iexact Hcy
    isplitl [Hcs]; · iexact Hcs
    isplitl [Hcys]; · iexact Hcys
    isplitl [Hz]; · iexact Hz
    iexact Hr
  isplitl [HO]; · iexact HO
  isplitl [Hx]; · iexact Hx
  iexact Hout

theorem loop3_b (c : Dev nD) (k : Fin 8)
    {srcW dstW : Memref sig .tc .vmem S128x256 .bf16} {hsrcW : srcW.view.WordExact} {hdstW : dstW.view.WordExact} (hdN : dstW.view.dmaCredit = N)
    {hl1 : (xM : Memref sig .tc .vmem S1x1024x1024 .f32).view.LoadsAt (Rect.unit (s := S1x1024x1024) (lx3 k c) S1x128x256.size (lx3_inb k c)).toLoadRect}
    {hl2 : (cyM : Memref sig .tc .vmem S1024x256 .bf16).view.LoadsAt (rowsR k).toLoadRect}
    {hl3 : (oM : Memref sig .tc .vmem S1024x512 .f32).view.LoadsAt (Rect.unit (s := S1024x512) (so3 k c) S128x256.size (so3_inb k c)).toLoadRect}
    {hx : ((oM : Memref sig .tc .vmem S1024x512 .f32).access (Rect.unit (s := S1024x512) (so3 k c) S128x256.size (so3_inb k c))).Stores Finset.univ}
    {hm : Finset.univ = Finset.univ ∨ ∀ a, (Rect.unit (s := S1024x512) (so3 k c) S128x256.size (so3_inb k c)).stride a = 1}
    {α : Type} {Q : α → sProp 𝕄} {kont : PUnit → Prog (TpuEff nD τ sig (Elt F) Λ₀ .tc) α} {W : Waits sig Unit}
    {g : Buf (Elt F) ((oM : Memref sig .tc .vmem S1024x512 .f32).view.loc (c : Thread nD τ))} {Ls : List (View.Piece (Elt F) S1024x512 .f32)} :
    iprop(records m ρ K ∗ levAts L lv ∗ A2 m ρ c k ∗ owes (c : Thread nD τ) 0 W
        ∗ (((c : Thread nD τ).loc cc0_stg0_0) ↦{fullShare} xstg m ρ c)
        ∗ ((oM : Memref sig .tc .vmem S1024x512 .f32).view.loc (c : Thread nD τ) ↦[Finset.univ]{fullShare} (oM : Memref sig .tc .vmem S1024x512 .f32).view.writes (Elt F) g Ls))
      ⊢ iprop(((A3 m ρ c k ∗ owes (c : Thread nD τ) 0 (insert (SemLoc.dma (semAt (fam 3) k), ()) W)
              ∗ (((c : Thread nD τ).loc cc0_stg0_0) ↦{fullShare} xstg m ρ c)
              ∗ ((oM : Memref sig .tc .vmem S1024x512 .f32).view.loc (c : Thread nD τ) ↦[Finset.univ]{fullShare} (oM : Memref sig .tc .vmem S1024x512 .f32).view.writes (Elt F) g (piece3 m ρ k c :: Ls)))
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (semAt (fam 3) k) srcW dstW hsrcW hdstW) fun _ =>
               .op (.load xM (Rect.unit (s := S1x1024x1024) (lx3 k c) S1x128x256.size (lx3_inb k c)).toLoadRect hl1) fun x =>
               .op (.load cyM (rowsR k).toLoadRect hl2) fun x2 =>
               .op (.load oM (Rect.unit (s := S1024x512) (so3 k c) S128x256.size (so3_inb k c)).toLoadRect hl3) fun _ =>
               .op (.store oM (Rect.unit (s := S1024x512) (so3 k c) S128x256.size (so3_inb k c)) (k0_pay2 x x2) Finset.univ hx hm) kont) Q) := by
  unfold A2 A3
  iintro ⟨#HR, #Hlev, ⟨Hp0, Hp2, Hp3, Hcy, Hcs, Hcys, Hz1, Hr⟩, HO, Hx, Hout⟩ Hk
  iapply (loop3_iter m ρ K c k (srcW := srcW) (dstW := dstW) hdN W g Ls) $$ [Hcy Hp3 HO Hx Hout]
  · isplitr; · iexact HR
    isplitr; · iexact Hlev
    isplitl [Hcy]; · iexact Hcy
    isplitl [Hp3]; · iexact Hp3
    isplitl [HO]; · iexact HO
    isplitl [Hx]; · iexact Hx
    iexact Hout
  iintro ⟨HO, Hz3, Hy, Hx, Hout⟩
  iapply Hk
  isplitl [Hp0 Hp2 Hcs Hcys Hz1 Hz3 Hr Hy]
  · isplitl [Hp0]; · iexact Hp0
    isplitl [Hp2]; · iexact Hp2
    isplitl [Hcs]; · iexact Hcs
    isplitl [Hcys]; · iexact Hcys
    isplitl [Hz1]; · iexact Hz1
    isplitl [Hz3]; · iexact Hz3
    isplitl [Hr]; · iexact Hr
    iexact Hy
  isplitl [HO]; · iexact HO
  isplitl [Hx]; · iexact Hx
  iexact Hout

theorem sendwait_b (c : Dev nD) (k : Fin 8)
    {src1 dst1 src2 dst2 : Memref sig .tc .vmem S128x256 .bf16} {hs1 : src1.view.WordExact} {hd1 : dst1.view.WordExact}
    {hs2 : src2.view.WordExact} {hd2 : dst2.view.WordExact} (hN1 : dst1.view.dmaCredit = N) (hN2 : dst2.view.dmaCredit = N)
    {α : Type} {Q : α → sProp 𝕄} {kont : PUnit → Prog (TpuEff nD τ sig (Elt F) Λ₀ .tc) α} {W : Waits sig Unit} :
    iprop(records m ρ K ∗ levAts L lv ∗ A3 m ρ c k ∗ owes (c : Thread nD τ) 0 W)
      ⊢ iprop(((A4 m ρ c k ∗ owes (c : Thread nD τ) 0 (insert (SemLoc.dma (semAt (fam 2) k), ()) (insert (SemLoc.dma (semAt (fam 0) k), ()) W)))
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (semAt (fam 0) k) src1 dst1 hs1 hd1) fun _ => .op (.waitDma2 (semAt (fam 2) k) src2 dst2 hs2 hd2) kont) Q) := by
  unfold A3 A4
  iintro ⟨#HR, #Hlev, ⟨Hp0, Hp2, Hcs, Hcys, Hz1, Hz3, Hr, Hy⟩, HO⟩ Hk
  iapply (sendwait_iter m ρ K c k (src1 := src1) (dst1 := dst1) (src2 := src2) (dst2 := dst2) hN1 hN2 W) $$ [Hcs Hp0 Hcys Hp2 HO]
  · isplitr; · iexact HR
    isplitr; · iexact Hlev
    isplitl [Hcs]; · iexact Hcs
    isplitl [Hp0]; · iexact Hp0
    isplitl [Hcys]; · iexact Hcys
    isplitl [Hp2]; · iexact Hp2
    iexact HO
  iintro ⟨HO, Hz0, Hz2, Hs, Hl⟩
  ihave Hcx := (pointsTo_share (PosShare.mem_left_op_right fullShare)).2 $$ [Hl Hr]
  · isplitl [Hl]; · iexact Hl
    iexact Hr
  iapply Hk
  isplitr [HO]
  · isplitl [Hz0]; · iexact Hz0
    isplitl [Hz1]; · iexact Hz1
    isplitl [Hz2]; · iexact Hz2
    isplitl [Hz3]; · iexact Hz3
    isplitl [Hs]; · iexact Hs
    isplitl [Hcx]; · iexact Hcx
    iexact Hy
  · iexact HO

end Cert.KernelProof

end
-- ==== Proof.Bits.Regroup.lean ====
import proofs.«900287_g7700000000000288_dist_rs_v7x_xy2x2_x_m1024_n512_f32_1_alg».proof.Proof.Bits.Bundle
import proofs.«900287_g7700000000000288_dist_rs_v7x_xy2x2_x_m1024_n512_f32_1_alg».proof.Proof.Bits.Chunks

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ UU ℕ

variable (m : (ℓ : Loc nD τ sig) → Buf (Elt F) ℓ) (ρ : Dev nD → PrngReg)

/-- After the handshake the per-family resources regroup chunk by chunk. -/
theorem init_bundles (c : Dev nD) :
    iprop((bigSep Finset.univ fun k : Fin 8 => posK c k) ∗ (bigSep Finset.univ fun k : Fin 8 => toksK c k)
        ∗ (bigSep Finset.univ fun k : Fin 8 => cred (tallyAt (dCell 1 k c) () N))
        ∗ (bigSep Finset.univ fun k : Fin 8 => cred (tallyAt (dCell 3 k c) () N))
        ∗ (((c : Thread nD τ).loc cc0_scratch0) ↦{fullShare} stageVal m ρ c)
        ∗ (∃ f : Buf (Elt F) (((xp c : Dev nD) : Thread nD τ).loc cc0_scratch1), (((xp c : Dev nD) : Thread nD τ).loc cc0_scratch1) ↦{fullShare} f)
        ∗ (∃ f : Buf (Elt F) (((yp c : Dev nD) : Thread nD τ).loc cc0_scratch2), (((yp c : Dev nD) : Thread nD τ).loc cc0_scratch2) ↦{fullShare} f))
      ⊢ (iprop(A0 m ρ c 0 ∗ A0 m ρ c 1 ∗ A0 m ρ c 2 ∗ A0 m ρ c 3 ∗ A0 m ρ c 4 ∗ A0 m ρ c 5 ∗ A0 m ρ c 6 ∗ A0 m ρ c 7) : sProp 𝕄) := by
  have hgoal : (bigSep Finset.univ fun k : Fin 8 => A0 m ρ c k)
      = (iprop(A0 m ρ c 0 ∗ A0 m ρ c 1 ∗ A0 m ρ c 2 ∗ A0 m ρ c 3 ∗ A0 m ρ c 4 ∗ A0 m ρ c 5 ∗ A0 m ρ c 6 ∗ A0 m ρ c 7) : sProp 𝕄) := by
    rw [bigSep_univ_eq_bigSepL [0, 1, 2, 3, 4, 5, 6, 7] fin8_list fin8_nodup]; rfl
  rw [← hgoal]
  unfold A0
  simp only [bigSep_sep']
  -- the staging buffer, cut into its chunks
  have hS : (((c : Thread nD τ).loc cc0_scratch0) ↦{fullShare} stageVal m ρ c : sProp 𝕄)
      ⊢ bigSep Finset.univ fun k : Fin 8 => slPts stgM k c fullShare (stageVal m ρ c) :=
    (split8_stg (F := F) c fullShare (stageVal m ρ c)).1.trans
      (Entails.of_eq (bigSep_univ_eq_bigSepL [0, 1, 2, 3, 4, 5, 6, 7] fin8_list fin8_nodup _).symm)
  -- each peer's landing buffer, cut into its chunks, each chunk at contents of its own
  have hX : ∀ f : Buf (Elt F) (((xp c : Dev nD) : Thread nD τ).loc cc0_scratch1),
      ((((xp c : Dev nD) : Thread nD τ).loc cc0_scratch1) ↦{fullShare} f : sProp 𝕄)
        ⊢ bigSep Finset.univ fun k : Fin 8 => iprop(∃ fd, slPts cxM k (xp c) fullShare fd) := fun f =>
    ((split8_cx (F := F) (xp c) fullShare f).1.trans
      (Entails.of_eq (bigSep_univ_eq_bigSepL [0, 1, 2, 3, 4, 5, 6, 7] fin8_list fin8_nodup _).symm)).trans
      (bigSep_mono fun k _ => (show (slPts cxM k (xp c) fullShare f : sProp 𝕄) ⊢ iprop(∃ fd, slPts cxM k (xp c) fullShare fd) from by
        iintro H; iexists f; iexact H))
  have hY : ∀ f : Buf (Elt F) (((yp c : Dev nD) : Thread nD τ).loc cc0_scratch2),
      ((((yp c : Dev nD) : Thread nD τ).loc cc0_scratch2) ↦{fullShare} f : sProp 𝕄)
        ⊢ bigSep Finset.univ fun k : Fin 8 => iprop(∃ fd, slPts cyM k (yp c) fullShare fd) := fun f =>
    ((split8_cy (F := F) (yp c) fullShare f).1.trans
      (Entails.of_eq (bigSep_univ_eq_bigSepL [0, 1, 2, 3, 4, 5, 6, 7] fin8_list fin8_nodup _).symm)).trans
      (bigSep_mono fun k _ => (show (slPts cyM k (yp c) fullShare f : sProp 𝕄) ⊢ iprop(∃ fd, slPts cyM k (yp c) fullShare fd) from by
        iintro H; iexists f; iexact H))
  iintro ⟨HP, HT, HC, HD, HS, ⟨%fx, HX⟩, ⟨%fy, HY⟩⟩
  isplitl [HP]; · iexact HP
  isplitl [HT]; · iexact HT
  isplitl [HC]; · iexact HC
  isplitl [HD]; · iexact HD
  isplitl [HS]; · iapply hS; iexact HS
  isplitl [HX]
  · iapply (hX fx); iexact HX
  · iapply (hY fy); iexact HY

/-- At the end the chunks rejoin into the three scratch buffers, and the thirty-two cells are closed at zero. -/
theorem final_bundles (c : Dev nD) :
    (iprop(A4 m ρ c 0 ∗ A4 m ρ c 1 ∗ A4 m ρ c 2 ∗ A4 m ρ c 3 ∗ A4 m ρ c 4 ∗ A4 m ρ c 5 ∗ A4 m ρ c 6 ∗ A4 m ρ c 7) : sProp 𝕄) ⊢ Φ₁ c := by
  have hlhs : (bigSep Finset.univ fun k : Fin 8 => A4 m ρ c k)
      = (iprop(A4 m ρ c 0 ∗ A4 m ρ c 1 ∗ A4 m ρ c 2 ∗ A4 m ρ c 3 ∗ A4 m ρ c 4 ∗ A4 m ρ c 5 ∗ A4 m ρ c 6 ∗ A4 m ρ c 7) : sProp 𝕄) := by
    rw [bigSep_univ_eq_bigSepL [0, 1, 2, 3, 4, 5, 6, 7] fin8_list fin8_nodup]; rfl
  rw [← hlhs]
  unfold A4 Φ₁ scratch
  simp only [bigSep_sep']
  -- the thirty-two cells, family by family
  have hsem : (bigSep Finset.univ fun ak : Fin 4 × Fin 8 => (semVal ((c : Thread nD τ), osem ak) 0 : sProp 𝕄))
      = iprop((bigSep Finset.univ fun k : Fin 8 => semVal (dCell 0 k c) 0) ∗ (bigSep Finset.univ fun k : Fin 8 => semVal (dCell 1 k c) 0)
          ∗ (bigSep Finset.univ fun k : Fin 8 => semVal (dCell 2 k c) 0) ∗ (bigSep Finset.univ fun k : Fin 8 => semVal (dCell 3 k c) 0)) := by
    rw [bigSep_univ_prod, bigSep_univ_eq_bigSepL [0, 1, 2, 3] (by decide) (by decide)]; rfl
  rw [hsem]
  -- the three buffers, rebuilt from their chunks
  have hS : (bigSep Finset.univ fun k : Fin 8 => slPts stgM k c fullShare (stageVal m ρ c))
      ⊢ (iprop(∃ f : Buf (Elt F) ((c : Thread nD τ).loc cc0_scratch0), ((c : Thread nD τ).loc cc0_scratch0) ↦{fullShare} f) : sProp 𝕄) :=
    ((Entails.of_eq (bigSep_univ_eq_bigSepL [0, 1, 2, 3, 4, 5, 6, 7] fin8_list fin8_nodup _)).trans
      (split8_stg (F := F) c fullShare (stageVal m ρ c)).2).trans (by iintro H; iexists (stageVal m ρ c); iexact H)
  have hX : (bigSep Finset.univ fun k : Fin 8 => slPts cxM k c fullShare (stageVal m ρ (xp c)))
      ⊢ (iprop(∃ f : Buf (Elt F) ((c : Thread nD τ).loc cc0_scratch1), ((c : Thread nD τ).loc cc0_scratch1) ↦{fullShare} f) : sProp 𝕄) :=
    ((Entails.of_eq (bigSep_univ_eq_bigSepL [0, 1, 2, 3, 4, 5, 6, 7] fin8_list fin8_nodup _)).trans
      (split8_cx (F := F) c fullShare (stageVal m ρ (xp c))).2).trans (by iintro H; iexists (stageVal m ρ (xp c)); iexact H)
  have hY : (bigSep Finset.univ fun k : Fin 8 => slPts cyM k c fullShare (stageVal m ρ (xp (yp c))))
      ⊢ (iprop(∃ f : Buf (Elt F) ((c : Thread nD τ).loc cc0_scratch2), ((c : Thread nD τ).loc cc0_scratch2) ↦{fullShare} f) : sProp 𝕄) :=
    ((Entails.of_eq (bigSep_univ_eq_bigSepL [0, 1, 2, 3, 4, 5, 6, 7] fin8_list fin8_nodup _)).trans
      (split8_cy (F := F) c fullShare (stageVal m ρ (xp (yp c)))).2).trans (by iintro H; iexists (stageVal m ρ (xp (yp c))); iexact H)
  iintro ⟨H0, H1, H2, H3, HS, HX, HY⟩
  isplitl [HS HX HY]
  · isplitl [HS]; · iapply hS; iexact HS
    isplitl [HX]
    · iapply hX; iexact HX
    · iapply hY; iexact HY
  · isplitl [H0]; · iexact H0
    isplitl [H1]; · iexact H1
    isplitl [H2]
    · iexact H2
    · iexact H3

end Cert.KernelProof

end
-- ==== Proof.Bits.Body.lean ====
import proofs.«900287_g7700000000000288_dist_rs_v7x_xy2x2_x_m1024_n512_f32_1_alg».proof.Proof.Bits.StepsE
import proofs.«900287_g7700000000000288_dist_rs_v7x_xy2x2_x_m1024_n512_f32_1_alg».proof.Proof.Bits.Regroup

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ UU ℕ

variable (m : (ℓ : Loc nD τ sig) → Buf (Elt F) ℓ) (ρ : Dev nD → PrngReg)

/-! # The body of one device, step by step -/

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The kernel's `device_id` chains: the first signal and the staged chunks go to the column peer, the second
    signal and the forwarded chunks to the row peer. -/
theorem devx (c : Dev nD) (v : ℕ) (h : v < nD) (hv : v = ((c.val % 2) + 2) - 2 * (c.val / 2)) : (⟨v, h⟩ : Dev nD) = xp c := Fin.ext hv
theorem devy (c : Dev nD) (v : ℕ) (h : v < nD) (hv : v = (2 * (c.val / 2) + 1) - (c.val % 2)) : (⟨v, h⟩ : Dev nD) = yp c := Fin.ext hv
theorem dev1_eq (c : Dev nD) : (⟨k0_dev1 c, k0_dev1_lt c⟩ : Dev nD) = xp c := Fin.ext (k0_dev1_eq c)
theorem dev2_eq (c : Dev nD) : (⟨k0_dev2 c, k0_dev2_lt c⟩ : Dev nD) = yp c := Fin.ext (k0_dev2_eq c)

theorem hz2 : (![0, 0] : Fin 2 → Nat) = fun _ => 0 := funext fun a => by fin_cases a <;> rfl
/-- Writing the whole staging buffer leaves what is written. -/
theorem write_stage (f w : (cc0_scratch0 : Ref sig .tc).ty.Contents (Elt F)) :
    ((stgM : Memref sig .tc .vmem S1024x256 .bf16).access (Rect.unit (s := S1024x256) ![0, 0] S1024x256.size inb_S1024x256_S1024x256_0_0) : View sig .tc _ _ _).write (Elt F) f w Finset.univ = w :=
  Memref.write_access_unit_zero_univ (Elt F) cc0_scratch0 hz2 _ f w

theorem barPay_false (c : Dev nD) : (barPay false c : sProp 𝕄)
    = iprop(∃ f : Buf (Elt F) (((xp c : Dev nD) : Thread nD τ).loc cc0_scratch1), (((xp c : Dev nD) : Thread nD τ).loc cc0_scratch1) ↦{fullShare} f) := rfl
theorem barPay_true (c : Dev nD) : (barPay true c : sProp 𝕄)
    = iprop(∃ f : Buf (Elt F) (((yp c : Dev nD) : Thread nD τ).loc cc0_scratch2), (((yp c : Dev nD) : Thread nD τ).loc cc0_scratch2) ↦{fullShare} f) := rfl

theorem credit_stg (k : Fin 8) : (sl stgM k).view.dmaCredit = N := rfl

section Body

variable (K : Dev nD × CK → ℕ)

def bodyPre (c : Dev nD) : sProp 𝕄 :=
  iprop(((ghost m ρ K c ∗ cred (tallyAt (barCell c) () 2)
      ∗ (bigSep Finset.univ fun k : Fin 8 => cred (tallyAt (dCell 1 k c) () N))
      ∗ (bigSep Finset.univ fun k : Fin 8 => cred (tallyAt (dCell 3 k c) () N)) ∗ levAts L lv) ∗ scratch c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (outAt m ρ c))

set_option maxRecDepth 65536 in
set_option maxHeartbeats 4000000 in
/-- The body, from `bodyPre`, one rule per step in program order, to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton, k0_part17_eq_skeleton, k0_part18_eq_skeleton]
  unfold k0_part1_skel k0_part2_skel k0_part3_skel k0_part4_skel k0_part5_skel k0_part6_skel k0_part7_skel k0_part8_skel k0_part9_skel
    k0_part10_skel k0_part11_skel k0_part12_skel k0_part13_skel k0_part14_skel k0_part15_skel k0_part16_skel k0_part17_skel k0_part18_skel
  simp only [semSignalWord, semWaitWord, Prog.lift, Prog.bind_op, Prog.bind_ret, Prog.pure_eq_ret, wp_deviceId]
  unfold bodyPre ghost linear payToks scratch
  iintro ⟨⟨⟨⟨⟨#HR, ⟨HatB, Hpos⟩, HtX, HtY, Htok⟩, HcB, HcX, HcY, #Hlev⟩, ⟨%f0, Hs0⟩, ⟨%f1, Hs1⟩, ⟨%f2, Hs2⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  simp only [dev1_eq c, dev2_eq c]
  -- the quarter for the column peer is read, converted and staged
  iapply (wp_load 𝒱₀ (c : Thread nD τ) none Set.univ (m := xM) (Finset.subset_univ _)) $$ Hx; iintro Hx
  iapply (wp_load 𝒱₀ (c : Thread nD τ) none Set.univ (m := stgM) (Finset.subset_univ _)) $$ Hs0; iintro Hs0
  iapply (wp_store 𝒱₀ (c : Thread nD τ) none Set.univ (m := stgM) (r := Rect.unit (s := S1024x256) ![0, 0] S1024x256.size inb_S1024x256_S1024x256_0_0)
    (Mk := Finset.univ) (Finset.subset_univ _)) $$ Hs0; iintro Hs0
  rw [write_stage]
  -- the handshake: one unit to each peer's barrier cell, handing over the landing buffer that peer will fill
  iapply (Rounds.wp_signal 𝒱₀ ER (rsRd m ρ) (c : Thread nD τ) none (dst := (xp c : Thread nD τ)) (κ := K (xp c, none))
      (d := false) (by rw [duties_bar]; exact Finset.mem_univ _) ((amount_bar m ρ (xp c) false).trans (by decide)) () (O₁ c) rfl)
    $$ [HO HtX Hs1]
  · isplitr; · iapply (inv_at m ρ K (xp c, none)); iexact HR
    isplitl [HO]; · iexact HO
    isplitl [HtX]; · iexact HtX
    isplitl [Hs1]; · rw [payload_bar, barPay_false, xp_xp]; iexists f1; iexact Hs1
    iapply (reached_at m ρ K (xp c, none)); iexact HR
  iintro HO
  unfold O₁
  iapply (Rounds.wp_signal 𝒱₀ ER (rsRd m ρ) (c : Thread nD τ) none (dst := (yp c : Thread nD τ)) (κ := K (yp c, none))
      (d := true) (by rw [duties_bar]; exact Finset.mem_univ _) ((amount_bar m ρ (yp c) true).trans (by decide)) () (oxy c 8) rfl)
    $$ [HO HtY Hs2]
  · isplitr; · iapply (inv_at m ρ K (yp c, none)); iexact HR
    isplitl [HO]; · iexact HO
    isplitl [HtY]; · iexact HtY
    isplitl [Hs2]; · rw [payload_bar, barPay_true, yp_yp]; iexists f2; iexact Hs2
    iapply (reached_at m ρ K (yp c, none)); iexact HR
  iintro HO
  -- the wait for both peers: their landing buffers come with it
  iapply (Rounds.wp_wait_rest_token 𝒱₀ ER (rsRd m ρ) (c : Thread nD τ) none (κ := K (c, none))
      (wpE_semWait_eq 𝒱₀ (c : Thread nD τ) none Set.univ) (Set.mem_univ _) () (O := oxy c 8) (W := W) (R := 0) (m := 0) (T := ∅)
      (by rw [expect_bar]; decide)) $$ [HcB HO HatB]
  · isplitr; · iapply (inv_at m ρ K (c, none)); iexact HR
    isplitl [HcB]; · iexact HcB
    isplitl [HO]; · iexact HO
    isplitr; · iapply (mayWait_bar c); iexact Hlev
    iexact HatB
  iintro ⟨HO, HatB, -, Hpay⟩
  ihave Hp := (Entails.of_eq (rest_bar m ρ c)) $$ Hpay
  rw [barPay_false, barPay_true]
  icases Hp with ⟨Hpx, Hpy⟩
  -- chunk by chunk from here on
  ihave HB := (init_bundles m ρ c) $$ [Hpos Htok HcX HcY Hs0 Hpx Hpy]
  · isplitl [Hpos]; · iexact Hpos
    isplitl [Htok]; · iexact Htok
    isplitl [HcX]; · iexact HcX
    isplitl [HcY]; · iexact HcY
    isplitl [Hs0]; · iexact Hs0
    isplitl [Hpx]; · iexact Hpx
    iexact Hpy
  icases HB with ⟨B0, B1, B2, B3, B4, B5, B6, B7⟩
  -- the eight staged chunks leave for the column peer
  iapply (xsend_b m ρ K c (⟨k0_dev3 c, k0_dev3_lt c⟩ : Dev nD) (Fin.ext (k0_dev3_eq c)) 0 7 rfl) $$ [B0 HO]
  · isplitr; · iexact HR
    isplitl [B0]; · iexact B0
    iexact HO
  iintro ⟨B0, HO⟩
  iapply (xsend_b m ρ K c (⟨k0_dev4 c, k0_dev4_lt c⟩ : Dev nD) (Fin.ext (k0_dev4_eq c)) 1 6 rfl) $$ [B1 HO]
  · isplitr; · iexact HR
    isplitl [B1]; · iexact B1
    iexact HO
  iintro ⟨B1, HO⟩
  iapply (xsend_b m ρ K c (⟨k0_dev5 c, k0_dev5_lt c⟩ : Dev nD) (Fin.ext (k0_dev5_eq c)) 2 5 rfl) $$ [B2 HO]
  · isplitr; · iexact HR
    isplitl [B2]; · iexact B2
    iexact HO
  iintro ⟨B2, HO⟩
  iapply (xsend_b m ρ K c (⟨k0_dev6 c, k0_dev6_lt c⟩ : Dev nD) (Fin.ext (k0_dev6_eq c)) 3 4 rfl) $$ [B3 HO]
  · isplitr; · iexact HR
    isplitl [B3]; · iexact B3
    iexact HO
  iintro ⟨B3, HO⟩
  iapply (xsend_b m ρ K c (⟨k0_dev7 c, k0_dev7_lt c⟩ : Dev nD) (Fin.ext (k0_dev7_eq c)) 4 3 rfl) $$ [B4 HO]
  · isplitr; · iexact HR
    isplitl [B4]; · iexact B4
    iexact HO
  iintro ⟨B4, HO⟩
  iapply (xsend_b m ρ K c (⟨k0_dev8 c, k0_dev8_lt c⟩ : Dev nD) (Fin.ext (k0_dev8_eq c)) 5 2 rfl) $$ [B5 HO]
  · isplitr; · iexact HR
    isplitl [B5]; · iexact B5
    iexact HO
  iintro ⟨B5, HO⟩
  iapply (xsend_b m ρ K c (⟨k0_dev9 c, k0_dev9_lt c⟩ : Dev nD) (Fin.ext (k0_dev9_eq c)) 6 1 rfl) $$ [B6 HO]
  · isplitr; · iexact HR
    isplitl [B6]; · iexact B6
    iexact HO
  iintro ⟨B6, HO⟩
  iapply (xsend_b m ρ K c (⟨k0_dev10 c, k0_dev10_lt c⟩ : Dev nD) (Fin.ext (k0_dev10_eq c)) 7 0 rfl) $$ [B7 HO]
  · isplitr; · iexact HR
    isplitl [B7]; · iexact B7
    iexact HO
  iintro ⟨B7, HO⟩
  -- second loop: each arrival from the column peer is forwarded and added to the own quarter
  iapply (loop2_b m ρ K c (⟨k0_dev11 c, k0_dev11_lt c⟩ : Dev nD) (Fin.ext (k0_dev11_eq c)) 0 7 rfl (g := g1) (Ls := [])) $$ [B0 HO Hx Hout]
  · isplitr; · iexact HR
    isplitr; · iexact Hlev
    isplitl [B0]; · iexact B0
    isplitl [HO]; · iexact HO
    isplitl [Hx]; · iexact Hx
    iexact Hout
  iintro ⟨B0, HO, Hx, Hout⟩
  iapply (loop2_b m ρ K c (⟨k0_dev12 c, k0_dev12_lt c⟩ : Dev nD) (Fin.ext (k0_dev12_eq c)) 1 6 rfl) $$ [B1 HO Hx Hout]
  · isplitr; · iexact HR
    isplitr; · iexact Hlev
    isplitl [B1]; · iexact B1
    isplitl [HO]; · iexact HO
    isplitl [Hx]; · iexact Hx
    iexact Hout
  iintro ⟨B1, HO, Hx, Hout⟩
  iapply (loop2_b m ρ K c (⟨k0_dev13 c, k0_dev13_lt c⟩ : Dev nD) (Fin.ext (k0_dev13_eq c)) 2 5 rfl) $$ [B2 HO Hx Hout]
  · isplitr; · iexact HR
    isplitr; · iexact Hlev
    isplitl [B2]; · iexact B2
    isplitl [HO]; · iexact HO
    isplitl [Hx]; · iexact Hx
    iexact Hout
  iintro ⟨B2, HO, Hx, Hout⟩
  iapply (loop2_b m ρ K c (⟨k0_dev14 c, k0_dev14_lt c⟩ : Dev nD) (Fin.ext (k0_dev14_eq c)) 3 4 rfl) $$ [B3 HO Hx Hout]
  · isplitr; · iexact HR
    isplitr; · iexact Hlev
    isplitl [B3]; · iexact B3
    isplitl [HO]; · iexact HO
    isplitl [Hx]; · iexact Hx
    iexact Hout
  iintro ⟨B3, HO, Hx, Hout⟩
  iapply (loop2_b m ρ K c (⟨k0_dev15 c, k0_dev15_lt c⟩ : Dev nD) (Fin.ext (k0_dev15_eq c)) 4 3 rfl) $$ [B4 HO Hx Hout]
  · isplitr; · iexact HR
    isplitr; · iexact Hlev
    isplitl [B4]; · iexact B4
    isplitl [HO]; · iexact HO
    isplitl [Hx]; · iexact Hx
    iexact Hout
  iintro ⟨B4, HO, Hx, Hout⟩
  iapply (loop2_b m ρ K c (⟨k0_dev16 c, k0_dev16_lt c⟩ : Dev nD) (Fin.ext (k0_dev16_eq c)) 5 2 rfl) $$ [B5 HO Hx Hout]
  · isplitr; · iexact HR
    isplitr; · iexact Hlev
    isplitl [B5]; · iexact B5
    isplitl [HO]; · iexact HO
    isplitl [Hx]; · iexact Hx
    iexact Hout
  iintro ⟨B5, HO, Hx, Hout⟩
  iapply (loop2_b m ρ K c (⟨k0_dev17 c, k0_dev17_lt c⟩ : Dev nD) (Fin.ext (k0_dev17_eq c)) 6 1 rfl) $$ [B6 HO Hx Hout]
  · isplitr; · iexact HR
    isplitr; · iexact Hlev
    isplitl [B6]; · iexact B6
    isplitl [HO]; · iexact HO
    isplitl [Hx]; · iexact Hx
    iexact Hout
  iintro ⟨B6, HO, Hx, Hout⟩
  iapply (loop2_b m ρ K c (⟨k0_dev18 c, k0_dev18_lt c⟩ : Dev nD) (Fin.ext (k0_dev18_eq c)) 7 0 rfl) $$ [B7 HO Hx Hout]
  · isplitr; · iexact HR
    isplitr; · iexact Hlev
    isplitl [B7]; · iexact B7
    isplitl [HO]; · iexact HO
    isplitl [Hx]; · iexact Hx
    iexact Hout
  iintro ⟨B7, HO, Hx, Hout⟩
  -- third loop: each forwarded arrival is added to the other quarter
  iapply (loop3_b m ρ K c 0 (credit_cy 0)) $$ [B0 HO Hx Hout]
  · isplitr; · iexact HR
    isplitr; · iexact Hlev
    isplitl [B0]; · iexact B0
    isplitl [HO]; · iexact HO
    isplitl [Hx]; · iexact Hx
    iexact Hout
  iintro ⟨B0, HO, Hx, Hout⟩
  iapply (loop3_b m ρ K c 1 (credit_cy 1)) $$ [B1 HO Hx Hout]
  · isplitr; · iexact HR
    isplitr; · iexact Hlev
    isplitl [B1]; · iexact B1
    isplitl [HO]; · iexact HO
    isplitl [Hx]; · iexact Hx
    iexact Hout
  iintro ⟨B1, HO, Hx, Hout⟩
  iapply (loop3_b m ρ K c 2 (credit_cy 2)) $$ [B2 HO Hx Hout]
  · isplitr; · iexact HR
    isplitr; · iexact Hlev
    isplitl [B2]; · iexact B2
    isplitl [HO]; · iexact HO
    isplitl [Hx]; · iexact Hx
    iexact Hout
  iintro ⟨B2, HO, Hx, Hout⟩
  iapply (loop3_b m ρ K c 3 (credit_cy 3)) $$ [B3 HO Hx Hout]
  · isplitr; · iexact HR
    isplitr; · iexact Hlev
    isplitl [B3]; · iexact B3
    isplitl [HO]; · iexact HO
    isplitl [Hx]; · iexact Hx
    iexact Hout
  iintro ⟨B3, HO, Hx, Hout⟩
  iapply (loop3_b m ρ K c 4 (credit_cy 4)) $$ [B4 HO Hx Hout]
  · isplitr; · iexact HR
    isplitr; · iexact Hlev
    isplitl [B4]; · iexact B4
    isplitl [HO]; · iexact HO
    isplitl [Hx]; · iexact Hx
    iexact Hout
  iintro ⟨B4, HO, Hx, Hout⟩
  iapply (loop3_b m ρ K c 5 (credit_cy 5)) $$ [B5 HO Hx Hout]
  · isplitr; · iexact HR
    isplitr; · iexact Hlev
    isplitl [B5]; · iexact B5
    isplitl [HO]; · iexact HO
    isplitl [Hx]; · iexact Hx
    iexact Hout
  iintro ⟨B5, HO, Hx, Hout⟩
  iapply (loop3_b m ρ K c 6 (credit_cy 6)) $$ [B6 HO Hx Hout]
  · isplitr; · iexact HR
    isplitr; · iexact Hlev
    isplitl [B6]; · iexact B6
    isplitl [HO]; · iexact HO
    isplitl [Hx]; · iexact Hx
    iexact Hout
  iintro ⟨B6, HO, Hx, Hout⟩
  iapply (loop3_b m ρ K c 7 (credit_cy 7)) $$ [B7 HO Hx Hout]
  · isplitr; · iexact HR
    isplitr; · iexact Hlev
    isplitl [B7]; · iexact B7
    isplitl [HO]; · iexact HO
    isplitl [Hx]; · iexact Hx
    iexact Hout
  iintro ⟨B7, HO, Hx, Hout⟩
  -- the departures are waited, chunk by chunk
  iapply (sendwait_b m ρ K c 0 (credit_stg 0) (credit_cx 0)) $$ [B0 HO]
  · isplitr; · iexact HR
    isplitr; · iexact Hlev
    isplitl [B0]; · iexact B0
    iexact HO
  iintro ⟨B0, HO⟩
  iapply (sendwait_b m ρ K c 1 (credit_stg 1) (credit_cx 1)) $$ [B1 HO]
  · isplitr; · iexact HR
    isplitr; · iexact Hlev
    isplitl [B1]; · iexact B1
    iexact HO
  iintro ⟨B1, HO⟩
  iapply (sendwait_b m ρ K c 2 (credit_stg 2) (credit_cx 2)) $$ [B2 HO]
  · isplitr; · iexact HR
    isplitr; · iexact Hlev
    isplitl [B2]; · iexact B2
    iexact HO
  iintro ⟨B2, HO⟩
  iapply (sendwait_b m ρ K c 3 (credit_stg 3) (credit_cx 3)) $$ [B3 HO]
  · isplitr; · iexact HR
    isplitr; · iexact Hlev
    isplitl [B3]; · iexact B3
    iexact HO
  iintro ⟨B3, HO⟩
  iapply (sendwait_b m ρ K c 4 (credit_stg 4) (credit_cx 4)) $$ [B4 HO]
  · isplitr; · iexact HR
    isplitr; · iexact Hlev
    isplitl [B4]; · iexact B4
    iexact HO
  iintro ⟨B4, HO⟩
  iapply (sendwait_b m ρ K c 5 (credit_stg 5) (credit_cx 5)) $$ [B5 HO]
  · isplitr; · iexact HR
    isplitr; · iexact Hlev
    isplitl [B5]; · iexact B5
    iexact HO
  iintro ⟨B5, HO⟩
  iapply (sendwait_b m ρ K c 6 (credit_stg 6) (credit_cx 6)) $$ [B6 HO]
  · isplitr; · iexact HR
    isplitr; · iexact Hlev
    isplitl [B6]; · iexact B6
    iexact HO
  iintro ⟨B6, HO⟩
  iapply (sendwait_b m ρ K c 7 (credit_stg 7) (credit_cx 7)) $$ [B7 HO]
  · isplitr; · iexact HR
    isplitr; · iexact Hlev
    isplitl [B7]; · iexact B7
    iexact HO
  iintro ⟨B7, HO⟩
  rw [wp_ret]; imodintro
  iapply Hk
  unfold bodyPost Dat.owesAt Pipeline.owesWithin
  rw [show (dats m ρ 0 c).owed t₀.succ = 0 from rfl]
  isplitl [B0 B1 B2 B3 B4 B5 B6 B7]
  · iapply (final_bundles m ρ c)
    isplitl [B0]; · iexact B0
    isplitl [B1]; · iexact B1
    isplitl [B2]; · iexact B2
    isplitl [B3]; · iexact B3
    isplitl [B4]; · iexact B4
    isplitl [B5]; · iexact B5
    isplitl [B6]; · iexact B6
    iexact B7
  isplitl [HO]
  · iexists _
    isplitr
    rotate_left
    · iexact HO
    · ipureintro; exact fun _ _ => Or.inl trivial
  isplitl [Hx]
  · iexists _; isplitr; · (ipureintro; rfl)
    iexact Hx
  iexists _; isplitr; · (ipureintro; exact out_indep m ρ c g1)
  iexact Hout

end Body

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 65536 in
/-- The library's body obligation on core `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      (Memref.whole cc0_scratch2) (Memref.isWhole_whole _) cc0_scratch3 cc0_scratch4 cc0_scratch5 cc0_scratch6) (fun _ => bodyPost m ρ c)
  unfold bodyPre' Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg Hrest]
      · isplitl [Hg]; · iexact Hg
        iexact Hrest
      iexact Hscr
    isplitl [Ho]; · iexact Ho
    isplitl [Hx] <;> iassumption
  · iintro H; iexact H

end Cert.KernelProof

end
-- ==== Proof.Bits.Launch.lean ====
import proofs.«900287_g7700000000000288_dist_rs_v7x_xy2x2_x_m1024_n512_f32_1_alg».proof.Proof.Bits.Body

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ UU ℕ

variable (m : (ℓ : Loc nD τ sig) → Buf (Elt F) ℓ) (ρ : Dev nD → PrngReg)

/-! ## The layout: own semaphores, cells, tokens -/

/-- Distinct (family, chunk) pairs name distinct transfer semaphores: semaphore `(a, k)` is number `2 + 8 a + k`. -/
theorem osem_injective : Function.Injective (osem : Fin 4 × Fin 8 → SemLoc sig) := by
  rintro ⟨a, k⟩ ⟨a', k'⟩ h
  have h1 : semAt (fam a) k = semAt (fam a') k' := SemLoc.dma.inj h
  have h2 : (semAt (fam a) k).val = (semAt (fam a') k').val := congrArg (fun s : DmaSem sig => s.val) h1
  rw [semAt_val, semAt_val] at h2
  have ha := a.isLt; have hk := k.isLt; have ha' := a'.isLt; have hk' := k'.isLt
  have e1 : a = a' := Fin.ext (by omega)
  have e2 : k = k' := Fin.ext (by omega)
  rw [e1, e2]

/-- The thirty-two transfer semaphores are scoped, distinct, and none is a staging semaphore (those are numbers 0 and 1). -/
theorem ownSemFacts : Pipeline.OwnSemFacts cfg0.spec osem :=
  ⟨by decide, osem_injective, fun ak w s h => by
    have h1 := congrArg (fun l : SemLoc sig => match l with | .dma q => q.val | .reg _ => 0) h
    revert h1; revert ak w s; decide⟩

theorem share_eq (c : Dev nD) (w : Fin cfg0.W) : (dats m ρ 0 c).share w = fullShare := by unfold Dat.share; split <;> rfl

theorem csem_injective : Function.Injective (csem : CK → SemLoc sig) := by
  rintro (_ | ak) (_ | ak') h
  · rfl
  · exact absurd h.symm (dma_ne_bar _)
  · exact absurd h (dma_ne_bar _)
  · exact congrArg some (osem_injective h)

theorem kcell_injective : Function.Injective (kcell : Dev nD × CK → GSem nD τ sig) := by
  rintro ⟨c, o⟩ ⟨c', o'⟩ h
  have h1 : c = c' := by have := congrArg (fun g : GSem nD τ sig => g.1.1) h; exact this
  subst h1
  have h2 : o = o' := csem_injective (congrArg Prod.snd h)
  subst h2; rfl

/-- Every device's thirty-three cells. -/
def rsCells : Finset (GSem nD τ sig) := Finset.univ.map ⟨kcell, kcell_injective⟩

/-- The duties of a device's own cells: both duties of its barrier cell, the one duty of each transfer cell
    (indexed chunk first). -/
abbrev TK : Type := Bool ⊕ (Fin 8 × Fin 4)
abbrev tokOf (cj : Dev nD × TK) : GSem nD τ sig × ℕ × Bool := match cj.2 with
  | .inl d => (barCell cj.1, 0, d)
  | .inr ka => (dCell ka.2 ka.1 cj.1, 0, false)

theorem tokOf_injective : Function.Injective (tokOf : Dev nD × TK → GSem nD τ sig × ℕ × Bool) := by
  rintro ⟨c, j⟩ ⟨c', j'⟩ h
  have h1 : c = c' := by
    have := congrArg (fun x : GSem nD τ sig × ℕ × Bool => x.1.1.1) h
    rcases j with d | ka <;> rcases j' with d' | ka' <;> exact this
  subst h1
  have h2 : j = j' := by
    rcases j with d | ⟨k, a⟩ <;> rcases j' with d' | ⟨k', a'⟩
    · exact congrArg Sum.inl (congrArg (fun x : GSem nD τ sig × ℕ × Bool => x.2.2) h)
    · exact absurd (congrArg (fun x : GSem nD τ sig × ℕ × Bool => x.1.2) h).symm (dma_ne_bar _)
    · exact absurd (congrArg (fun x : GSem nD τ sig × ℕ × Bool => x.1.2) h) (dma_ne_bar _)
    · have h3 : (a, k) = (a', k') := osem_injective (congrArg (fun x : GSem nD τ sig × ℕ × Bool => x.1.2) h)
      rw [(Prod.mk.inj h3).1, (Prod.mk.inj h3).2]
  subst h2; rfl

def rsToks : Finset (GSem nD τ sig × ℕ × Bool) := Finset.univ.map ⟨tokOf, tokOf_injective⟩

/-- The launch element: the pipeline's staging cells, and the protocol's cells with their duty tokens. -/
def u₀ : UU :=
  (initOf (Pipeline.cells cfgs cellOf_inj) (Pipeline.launchToks cfgs cellOf_inj), initOf rsCells rsToks)

/-- The duty tokens of device `c`'s own cells. -/
def toks (c : Dev nD) : sProp 𝕄 :=
  iprop((dutyTok ER (barCell c) 0 false ∗ dutyTok ER (barCell c) 0 true)
    ∗ bigSep Finset.univ fun k : Fin 8 => iprop(dutyTok ER (dCell 0 k c) 0 false ∗ dutyTok ER (dCell 1 k c) 0 false
        ∗ dutyTok ER (dCell 2 k c) 0 false ∗ dutyTok ER (dCell 3 k c) 0 false))

/-- What the launch element deals device `c`: its cells' round states, positions and reached-0 facts, its cells' tokens. -/
def G (c : Dev nD) : sProp 𝕄 :=
  iprop((bigSep Finset.univ fun o : CK => roundState ER (rsRd m ρ) (kcell (c, o)) 0)
    ∗ (bigSep Finset.univ fun o : CK => iprop(atPos ER (kcell (c, o)) 0 ∅ 0 ∗ reached ER (kcell (c, o)) 0)) ∗ toks c)

/-- What the global step makes of it: the ghost state at some names. -/
def G' (c : Dev nD) : sProp 𝕄 := iprop(∃ K, ghost m ρ K c)

theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ
theorem bigSep_bool (Φ : Bool → sProp 𝕄) : bigSep Finset.univ Φ = iprop(Φ false ∗ Φ true) := by
  rw [bigSep_univ_eq_bigSepL [false, true] (by decide) (by decide), bigSepL_cons_cons, bigSepL_singleton]; rfl

/-- All of a device's cells: the barrier cell and the transfer cells. -/
theorem bigSep_CK (Φ : CK → sProp 𝕄) : bigSep Finset.univ Φ = iprop(Φ none ∗ bigSep Finset.univ fun ak : Fin 4 × Fin 8 => Φ (some ak)) := by
  have e : (Finset.univ : Finset CK).erase none = Finset.univ.map Function.Embedding.some := by
    ext x; cases x <;> simp
  rw [bigSep_univ_at Φ none, e, bigSep_map]; rfl

theorem toks_eq (c : Dev nD) :
    (bigSep Finset.univ fun j : TK => (dutyTok ER (tokOf (c, j)).1 (tokOf (c, j)).2.1 (tokOf (c, j)).2.2 : sProp 𝕄)) = toks c := by
  unfold toks
  rw [bigSep_univ_sum, bigSep_bool, bigSep_univ_prod]
  refine congrArg _ (bigSep_congr fun k _ => ?_)
  rw [bigSep_fin4]

theorem fund_rs : BI.own (ER (initOf rsCells rsToks)) ⊢ (|==> bigSep Finset.univ (G m ρ) : sProp 𝕄) := by
  have hX (Φ : GSem nD τ sig → sProp 𝕄) : bigSep rsCells Φ = bigSep Finset.univ fun c : Dev nD => bigSep Finset.univ fun o : CK => Φ (kcell (c, o)) := by
    unfold rsCells; rw [bigSep_map, bigSep_univ_prod]; rfl
  have hT : bigSep rsToks (fun x => (dutyTok ER x.1 x.2.1 x.2.2 : sProp 𝕄)) = bigSep Finset.univ fun c : Dev nD => toks c := by
    unfold rsToks; rw [bigSep_map, bigSep_univ_prod]
    exact bigSep_congr fun c _ => toks_eq c
  iintro HX
  imod (Rounds.fund ER (rsRd m ρ) rsCells rsToks) $$ HX with ⟨Hst, Hr, Hat, Htok⟩
  imodintro
  ihave Hst' := (Entails.of_eq (hX fun g => roundState ER (rsRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at launch, the cells' invariants, the tokens dealt -/

/-- The barrier semaphore is the one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The own semaphores and the barrier semaphore at zero are all thirty-three cells' counters at zero. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun o : CK => semVal (kcell (c, o)) 0 : sProp 𝕄) := by
  rw [unscopedSems0_eq, bigSep_CK]
  unfold Pipeline.ownSems0
  iintro ⟨HS, HB⟩
  isplitl [HB]; · iexact HB
  iexact HS

/-- Counter zero and round state zero make each cell's invariant, under a fresh name. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun o : CK => iprop(∃ κ : ℕ, cellInv ER (rsRd m ρ) κ (kcell (c, o))))
          ∗ (bigSep Finset.univ fun o : CK => iprop(atPos ER (kcell (c, o)) 0 ∅ 0 ∗ reached ER (kcell (c, o)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun o : CK => semVal (kcell (c, o)) 0) ∗ bigSep Finset.univ fun o : CK => roundState ER (rsRd m ρ) (kcell (c, o)) 0)
      ⊢ (|={Set.univ}=> bigSep Finset.univ fun o : CK => iprop(∃ κ : ℕ, cellInv ER (rsRd m ρ) κ (kcell (c, o))) : sProp 𝕄) from by
        rw [← bigSep_sep']
        exact (bigSep_mono fun o _ => (Rounds.body_intro ER (rsRd m ρ) (kcell (c, o))).trans inv_alloc).trans (bigSep_fupd _ _)) $$ [Hv Hst] with Hinv
  · isplitl [Hv] <;> iassumption
  imodintro
  isplitl [Hinv]; · iexact Hinv
  isplitl [Hat]; · iexact Hat
  iexact Htok

/-- The tokens dealt to their payers: a barrier cell's duty `false` to the column peer and duty `true` to the row peer;
    an arrival cell's duty to the peer that sends there; departure cells' duties stay. -/
theorem toks_around : (bigSep Finset.univ fun c : Dev nD => (toks c : sProp 𝕄)) ⊢ bigSep Finset.univ fun c : Dev nD => payToks c := by
  unfold toks payToks
  simp only [bigSep_sep']
  rw [bigSep_univ_equiv xswap (fun c : Dev nD => (dutyTok ER (barCell c) 0 false : sProp 𝕄)),
    bigSep_univ_equiv yswap (fun c : Dev nD => (dutyTok ER (barCell c) 0 true : sProp 𝕄)),
    bigSep_univ_equiv xswap (fun c : Dev nD => (bigSep Finset.univ fun k : Fin 8 => dutyTok ER (dCell 1 k c) 0 false : sProp 𝕄)),
    bigSep_univ_equiv yswap (fun c : Dev nD => (bigSep Finset.univ fun k : Fin 8 => dutyTok ER (dCell 3 k c) 0 false : sProp 𝕄))]
  iintro ⟨⟨HbF, HbT⟩, H0, H1, H2, H3⟩
  isplitl [HbF]; · iexact HbF
  isplitl [HbT]; · iexact HbT
  isplitl [H0]; · iexact H0
  isplitl [H1]; · iexact H1
  isplitl [H2]; · iexact H2
  iexact H3

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × CK → ℕ) (c : Dev nD) : iprop(records m ρ K ∗ linear c) ⊢ G' m ρ c := by
  unfold G' ghost
  iintro H
  iexists K
  iexact H

/-- A device's positions, cell by cell, are its barrier cell's and, chunk by chunk, the four transfer cells'. -/
theorem pos_eq (c : Dev nD) :
    (bigSep Finset.univ fun o : CK => (atPos ER (kcell (c, o)) 0 ∅ 0 : sProp 𝕄))
      = iprop(atPos ER (barCell c) 0 ∅ 0 ∗ bigSep Finset.univ fun k : Fin 8 => posK c k) := by
  rw [bigSep_CK, bigSep_univ_equiv (Equiv.prodComm (Fin 8) (Fin 4)), bigSep_univ_prod]
  refine congrArg _ (bigSep_congr fun k _ => ?_)
  rw [bigSep_fin4]; rfl

/-- All devices' invariants under one choice of names, the reached-0 facts, and each device's positions and the tokens it pays with. -/
theorem regroup :
    (bigSep Finset.univ fun c : Dev nD => iprop((bigSep Finset.univ fun o : CK => iprop(∃ κ : ℕ, cellInv ER (rsRd m ρ) κ (kcell (c, o))))
          ∗ (bigSep Finset.univ fun o : CK => iprop(atPos ER (kcell (c, o)) 0 ∅ 0 ∗ reached ER (kcell (c, o)) 0)) ∗ toks c) : sProp 𝕄)
      ⊢ bigSep Finset.univ (G' m ρ) := by
  rw [bigSep_sep', bigSep_sep', ← bigSep_univ_prod (fun ck : Dev nD × CK => iprop(∃ κ : ℕ, cellInv ER (rsRd m ρ) κ (kcell ck))),
    bigSep_congr (s := Finset.univ) (fun (c : Dev nD) _ => bigSep_sep' Finset.univ (fun o : CK => (atPos ER (kcell (c, o)) 0 ∅ 0 : sProp 𝕄)) (fun o => reached ER (kcell (c, o)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (rsRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun o : CK => (atPos ER (kcell (c, o)) 0 ∅ 0 : sProp 𝕄)) payToks).symm).trans
      (bigSep_mono fun c _ => show _ ⊢ linear c from Entails.of_eq (by unfold linear; rw [pos_eq])))
    isplitl [Hat]; · iexact Hat
    iexact Htk

/-- The global step: every device's own and unscoped semaphores at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- The eight forwarded chunks' dues, last chunk first, are one due per chunk. -/
theorem oy_eq (d : Dev nD) : oy d 8 = ∑ k : Fin 8, tallyAt (dCell 3 k (yp d)) () N := by
  have e : oy d 8 = 0 + tallyAt (dCell 3 7 (yp d)) () N + tallyAt (dCell 3 6 (yp d)) () N + tallyAt (dCell 3 5 (yp d)) () N
      + tallyAt (dCell 3 4 (yp d)) () N + tallyAt (dCell 3 3 (yp d)) () N + tallyAt (dCell 3 2 (yp d)) () N
      + tallyAt (dCell 3 1 (yp d)) () N + tallyAt (dCell 3 0 (yp d)) () N := rfl
  rw [e, Fin.sum_univ_eight, zero_add]; abel

theorem oxy_eq (d : Dev nD) :
    oxy d 8 = (∑ k : Fin 8, tallyAt (dCell 3 k (yp d)) () N) + ∑ k : Fin 8, tallyAt (dCell 1 k (xp d)) () N := by
  have e : oxy d 8 = oy d 8 + tallyAt (dCell 1 7 (xp d)) () N + tallyAt (dCell 1 6 (xp d)) () N + tallyAt (dCell 1 5 (xp d)) () N
      + tallyAt (dCell 1 4 (xp d)) () N + tallyAt (dCell 1 3 (xp d)) () N + tallyAt (dCell 1 2 (xp d)) () N
      + tallyAt (dCell 1 1 (xp d)) () N + tallyAt (dCell 1 0 (xp d)) () N := rfl
  rw [e, oy_eq, Fin.sum_univ_eight (fun k : Fin 8 => (tallyAt (dCell 1 k (xp d)) () N : CellTallies nD τ sig Unit))]; abel

/-- What a device owes at launch: per chunk the arrival at its row peer and at its column peer, and a unit on each peer's barrier cell. -/
theorem O₀_eq : (O₀ : Dev nD → CellTallies nD τ sig Unit) = fun d =>
    (∑ k : Fin 8, tallyAt (dCell 3 k (yp d)) () N) + (∑ k : Fin 8, tallyAt (dCell 1 k (xp d)) () N)
      + tallyAt (barCell (yp d)) () 1 + tallyAt (barCell (xp d)) () 1 :=
  funext fun d => by unfold O₀ O₁; rw [oxy_eq]

theorem cred_two (c : Dev nD) :
    iprop(cred (tallyAt (barCell c) () 1) ∗ cred (tallyAt (barCell c) () 1)) ⊢ (cred (tallyAt (barCell c) () 2) : sProp 𝕄) := by
  rw [show (tallyAt (barCell c) () 2 : CellTallies nD τ sig Unit) = tallyAt (barCell c) () 1 + tallyAt (barCell c) () 1 from
    (tallyAt_add (barCell c) () 1 1).symm]
  exact (cred_add _ _).2

/-- The column peers' dues on the arrival cells of staged chunks come back chunk by chunk; -/
theorem cred_xr (c : Dev nD) :
    (bigSep Finset.univ fun k : Fin 8 => (Pipeline.launchCred (fun d : Dev nD => (tallyAt (dCell 1 k (xp d)) () N : CellTallies nD τ sig Unit)) c : sProp 𝕄))
      ⊢ bigSep Finset.univ fun k : Fin 8 => cred (tallyAt (dCell 1 k c) () N) :=
  bigSep_mono fun k _ => Pipeline.launchCred_tallyAt (SemLoc.dma (semAt (fam 1) k)) xp xp xp_xp xp_xp () N c
/-- the row peers' dues on the arrival cells of forwarded chunks likewise. -/
theorem cred_yr (c : Dev nD) :
    (bigSep Finset.univ fun k : Fin 8 => (Pipeline.launchCred (fun d : Dev nD => (tallyAt (dCell 3 k (yp d)) () N : CellTallies nD τ sig Unit)) c : sProp 𝕄))
      ⊢ bigSep Finset.univ fun k : Fin 8 => cred (tallyAt (dCell 3 k c) () N) :=
  bigSep_mono fun k _ => Pipeline.launchCred_tallyAt (SemLoc.dma (semAt (fam 3) k)) yp yp yp_yp yp_yp () N c

/-- Each peer map being an involution, what the devices owe comes back to each device as the credit of its own barrier
    cell (two units) and of its sixteen arrival cells. -/
theorem creds (c : Dev nD) :
    (Pipeline.launchCred O₀ c : sProp 𝕄) ⊢ iprop(cred (tallyAt (barCell c) () 2)
      ∗ (bigSep Finset.univ fun k : Fin 8 => cred (tallyAt (dCell 1 k c) () N))
      ∗ (bigSep Finset.univ fun k : Fin 8 => cred (tallyAt (dCell 3 k c) () N))) := by
  rw [O₀_eq, Pipeline.launchCred_add, Pipeline.launchCred_add, Pipeline.launchCred_add,
    Pipeline.launchCred_sum Finset.univ (fun (k : Fin 8) (d : Dev nD) => (tallyAt (dCell 3 k (yp d)) () N : CellTallies nD τ sig Unit)) c,
    Pipeline.launchCred_sum Finset.univ (fun (k : Fin 8) (d : Dev nD) => (tallyAt (dCell 1 k (xp d)) () N : CellTallies nD τ sig Unit)) c]
  iintro ⟨⟨⟨H3, H1⟩, HBy⟩, HBx⟩
  ihave Hy := (Pipeline.launchCred_tallyAt (SemLoc.reg barS) yp yp yp_yp yp_yp () 1 c) $$ HBy
  ihave Hx := (Pipeline.launchCred_tallyAt (SemLoc.reg barS) xp xp xp_xp xp_xp () 1 c) $$ HBx
  isplitl [Hy Hx]
  · iapply (cred_two (F := F) c); isplitl [Hy] <;> iassumption
  isplitl [H1]
  · iapply (cred_xr (F := F) c); iexact H1
  · iapply (cred_yr (F := F) c); iexact H3

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H2, H1, H3⟩
  imodintro
  unfold start G'
  isplitl
  · isplitl [HG]; · iexact HG
    isplitl [H2]; · iexact H2
    isplitl [H1]; · iexact H1
    isplitl [H3]; · iexact H3
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq]
  unfold Φ₁ scratch Pipeline.ownSems0
  iintro ⟨Hr, Hz⟩
  isplitr; · iempintro
  isplitl [Hz]; · iexact Hz
  iexact Hr

/-- The pipeline's own waits are on the staging semaphores, below everything a device owes. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- Each windowed array after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- Every weakly fair execution of the four kernels terminates, and every final state has each device's windowed
    arrays at the computed contents. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_rs m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

end Cert.KernelProof

end
-- ==== Proof.Bits.Final.lean ====
import proofs.«900287_g7700000000000288_dist_rs_v7x_xy2x2_x_m1024_n512_f32_1_alg».proof.Proof.Bits.Launch

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ UU ℕ

variable (m : (ℓ : Loc nD τ sig) → Buf (Elt F) ℓ) (ρ : Dev nD → PrngReg)

/-! # The final arrays, read off the proof data -/

/-- The argument array is an input window's: never written back. -/
theorem finalA_x (c : Dev nD) : finalA m ρ c (0 : Fin 2) = (s₀ m ρ).mem (win0_0.arr.view.loc (c : Thread nD τ)) :=
  (dats m ρ 0 c).arrAt_in (0 : Fin 2) rfl _

/-- The one grid point writes the result window back whole: the result array ends at what the body left in the
    window's staging buffer. -/
theorem finalA_out (c : Dev nD) : finalA m ρ c (1 : Fin 2) = outAt m ρ c := by
  have h := (dats m ρ 0 c).arrAt_succ (1 : Fin 2) t₀
  rw [if_pos (flush0_1 t₀)] at h
  unfold finalA
  refine h.trans ?_
  exact Memref.write_access_unit_zero_univ (Elt F) main_v1 (funext fun a => Nat.zero_mul _) _ _ _

end Cert.KernelProof

end
-- ==== Proof.lean ====
/- The proof of `Cert.Claim`: the three frames, `preserves` (no operation was rewritten: it is `True`) and the
   algebraic claim. The kernel's run on the four devices is proved once, generically in the float instance, and read at
   the word-level instance and at the ideal one; the reference's run is its two host operations; the value is the sum
   of the two blocks of `x`, each device holding its column block of it. -/
import proofs.«900287_g7700000000000288_dist_rs_v7x_xy2x2_x_m1024_n512_f32_1_alg».proof.Defs
import proofs.«900287_g7700000000000288_dist_rs_v7x_xy2x2_x_m1024_n512_f32_1_alg».proof.Proof.Gen.Kernel
import proofs.«900287_g7700000000000288_dist_rs_v7x_xy2x2_x_m1024_n512_f32_1_alg».proof.Proof.Gen.Kernel.Skeleton
import proofs.«900287_g7700000000000288_dist_rs_v7x_xy2x2_x_m1024_n512_f32_1_alg».proof.Proof.Gen.Kernel.Launch
import proofs.«900287_g7700000000000288_dist_rs_v7x_xy2x2_x_m1024_n512_f32_1_alg».proof.Proof.Gen.Kernel.Points
import proofs.«900287_g7700000000000288_dist_rs_v7x_xy2x2_x_m1024_n512_f32_1_alg».proof.Proof.Gen.Kernel.Frame
import proofs.«900287_g7700000000000288_dist_rs_v7x_xy2x2_x_m1024_n512_f32_1_alg».proof.Proof.Gen.KernelIdeal
import proofs.«900287_g7700000000000288_dist_rs_v7x_xy2x2_x_m1024_n512_f32_1_alg».proof.Proof.Gen.KernelIdeal.Skeleton
import proofs.«900287_g7700000000000288_dist_rs_v7x_xy2x2_x_m1024_n512_f32_1_alg».proof.Proof.Gen.KernelIdeal.Launch
import proofs.«900287_g7700000000000288_dist_rs_v7x_xy2x2_x_m1024_n512_f32_1_alg».proof.Proof.Gen.KernelIdeal.Points
import proofs.«900287_g7700000000000288_dist_rs_v7x_xy2x2_x_m1024_n512_f32_1_alg».proof.Proof.Gen.KernelIdeal.Frame
import proofs.«900287_g7700000000000288_dist_rs_v7x_xy2x2_x_m1024_n512_f32_1_alg».proof.Proof.Gen.ReferenceIdeal
import proofs.«900287_g7700000000000288_dist_rs_v7x_xy2x2_x_m1024_n512_f32_1_alg».proof.Proof.Gen.ReferenceIdeal.Run
import proofs.«900287_g7700000000000288_dist_rs_v7x_xy2x2_x_m1024_n512_f32_1_alg».proof.Proof.Gen.ReferenceIdeal.Read
import proofs.«900287_g7700000000000288_dist_rs_v7x_xy2x2_x_m1024_n512_f32_1_alg».proof.Proof.Gen.Pre_finite_inputs_Kernel
import proofs.«900287_g7700000000000288_dist_rs_v7x_xy2x2_x_m1024_n512_f32_1_alg».proof.Proof.Gen.Pre_finite_inputs_ReferenceIdeal
import proofs.«900287_g7700000000000288_dist_rs_v7x_xy2x2_x_m1024_n512_f32_1_alg».proof.Proof.Final
import proofs.«900287_g7700000000000288_dist_rs_v7x_xy2x2_x_m1024_n512_f32_1_alg».proof.Proof.ValueIdeal
import proofs.«900287_g7700000000000288_dist_rs_v7x_xy2x2_x_m1024_n512_f32_1_alg».proof.Proof.Bits.Final
import Idealize.ShloMosaic.Adequacy
import Idealize.ShloMosaic.Init

noncomputable section

namespace Cert.Proof

open Idealize.ShloMosaic Idealize.SL.Sem

/-- The word-level kernel leaves each device's argument array as it was: the array is an input window's, never
    written back. -/
theorem frame_bits : Cert.frame_Kernel (hKernel := Cert.Kernel.Gen.facts) (hPre_finite_inputs_Kernel := Cert.Pre_finite_inputs_Kernel.Gen.facts) :=
  fun m g _ => (θ_run (Cert.Kernel.defs (F := Bits)) _ _).mono
    (fun _ h c => (h c (0 : Fin 2)).trans (Cert.KernelProof.finalA_x m g c)) (Cert.KernelProof.run_main (F := Bits) m g)

/-- The same at the ideal instance. -/
theorem frame_ideal : Cert.frame_KernelIdeal (hKernelIdeal := Cert.KernelIdeal.Gen.facts) (hPre_finite_inputs_Kernel := Cert.Pre_finite_inputs_Kernel.Gen.facts) :=
  fun m g _ => (θ_run (Cert.KernelIdeal.defs (F := Ideal)) _ _).mono
    (fun _ h c => (h c (0 : Fin 2)).trans (Cert.KernelIdealProof.finalA_x m g c)) (Cert.KernelIdealProof.run_main (F := Ideal) m g)

/-- The reference's run with the result dropped. -/
theorem frame_ref : Cert.frame_ReferenceIdeal (hReferenceIdeal := Cert.ReferenceIdeal.Gen.facts) (hPre_finite_inputs_ReferenceIdeal := Cert.Pre_finite_inputs_ReferenceIdeal.Gen.facts) :=
  fun m g _ => (θ_run (Cert.ReferenceIdeal.defs (F := Ideal)) _ _).mono (fun _ h c => (h c).2) (Cert.ReferenceIdeal.Value.run (F := Ideal) m g)

/-- Each device's result is its block of the reference's result, the sum of the two blocks of `x`; the arguments of
    both programs end unchanged. -/
theorem algebraic : Cert.algebraic_KernelIdeal_ReferenceIdeal (hKernelIdeal := Cert.KernelIdeal.Gen.facts) (hReferenceIdeal := Cert.ReferenceIdeal.Gen.facts)
    (hPre_finite_inputs_Kernel := Cert.Pre_finite_inputs_Kernel.Gen.facts) := by
  intro m g m' g' _ hagree
  refine ⟨Cert.ReferenceIdeal.Read.val_main_v0 (F := Ideal)
    (m' (((0 : Dev Cert.ReferenceIdeal.nD).tc : Thread Cert.ReferenceIdeal.nD Cert.ReferenceIdeal.τ).loc Cert.ReferenceIdeal.main_arg0)), ?_, ?_⟩
  · exact (θ_run (Cert.KernelIdeal.defs (F := Ideal)) _ _).mono
      (fun _ h c => ⟨((h c (1 : Fin 2)).trans (Cert.KernelIdealProof.finalA_out m g c)).trans (Cert.KernelIdealProof.value_ideal m g m' hagree c),
        (h c (0 : Fin 2)).trans (Cert.KernelIdealProof.finalA_x m g c)⟩)
      (Cert.KernelIdealProof.run_main (F := Ideal) m g)
  · exact (θ_run (Cert.ReferenceIdeal.defs (F := Ideal)) _ _).mono
      (fun _ h => ⟨(h 0).1.trans (Cert.ReferenceIdeal.Read.val_main_v0_eq _), (h 0).2⟩)
      (Cert.ReferenceIdeal.Value.run (F := Ideal) m' g')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_bits, frame_ideal, frame_ref, trivial, algebraic⟩

end Cert.Proof

end
